-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part2 {F : FTy → Type} [FloatOps F] (main_arg9 : FVec F S4x128x128 .f32) (main_arg10 : FVec F S4x128 .f32) (main_v33 : IVec S_ 1) : IVec S_ 1 :=
  let main_v34 : FVec F S4x128x128 .f32 := Host.absf main_arg9
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  main_v43

def fn_part1 {F : FTy → Type} [FloatOps F] (main_arg6 : FVec F S4x128 .f32) (main_arg7 : FVec F S4x128 .f32) (main_arg8 : FVec F S4x128 .f32) (main_arg9 : FVec F S4x128x128 .f32) (main_arg10 : FVec F S4x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S800000 32) (main_arg3 : FVec F S128x128 .f32) (main_arg4 : FVec F S128 .f32) (main_arg5 : FVec F S4x128x128 .f32) (main_arg6 : FVec F S4x128 .f32) (main_arg7 : FVec F S4x128 .f32) (main_arg8 : FVec F S4x128 .f32) (main_arg9 : FVec F S4x128x128 .f32) (main_arg10 : FVec F S4x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S4x50000x128 : Shape := ⟨3, ![4, 50000, 128]⟩
abbrev S4x1x128 : Shape := ⟨3, ![4, 1, 128]⟩
abbrev S1x128 : Shape := ⟨2, ![1, 128]⟩
abbrev S2000x128 : Shape := ⟨2, ![2000, 128]⟩
abbrev S4x2000x128 : Shape := ⟨3, ![4, 2000, 128]⟩
abbrev S1x2000x128 : Shape := ⟨3, ![1, 2000, 128]⟩
abbrev S1x128x128 : Shape := ⟨3, ![1, 128, 128]⟩
abbrev S1x1x128 : Shape := ⟨3, ![1, 1, 128]⟩

abbrev nBuf : Space → Nat
  | .hbm => 50
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S200000x128, .f32⟩
  | .hbm, ⟨30, _⟩ => ⟨S800000x1, .i32⟩
  | .hbm, ⟨31, _⟩ => ⟨S200000x128, .f32⟩
  | .hbm, ⟨32, _⟩ => ⟨S4x50000x128, .f32⟩
  | .hbm, ⟨33, _⟩ => ⟨S4x1x128, .f32⟩
  | .hbm, ⟨34, _⟩ => ⟨S4x1x128, .f32⟩
  | .hbm, ⟨35, _⟩ => ⟨S4x1x128, .f32⟩
  | .hbm, ⟨36, _⟩ => ⟨S4x1x128, .f32⟩
  | .hbm, ⟨37, _⟩ => ⟨S1x128, .f32⟩
  | .hbm, ⟨38, _⟩ => ⟨S4x50000x128, .f32⟩
  | .hbm, ⟨39, _⟩ => ⟨S4x1x128, .f32⟩
  | .hbm, ⟨40, _⟩ => ⟨S4x1x128, .f32⟩
  | .hbm, ⟨41, _⟩ => ⟨S_, .f32⟩
  | .hbm, ⟨42, _⟩ => ⟨S4x1x128, .f32⟩
  | .hbm, ⟨43, _⟩ => ⟨S4x1x128, .f32⟩
  | .hbm, ⟨44, _⟩ => ⟨S_, .f32⟩
  | .hbm, ⟨45, _⟩ => ⟨S4x1x128, .f32⟩
  | .hbm, ⟨46, _⟩ => ⟨S4x1x128, .f32⟩
  | .hbm, ⟨47, _⟩ => ⟨S4x1x128, .f32⟩
  | .hbm, ⟨48, _⟩ => ⟨S4x1x128, .f32⟩
  | .hbm, ⟨49, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S4x2000x128, .f32⟩
  | .local _ .vmem, ⟨3, _⟩ => ⟨S4x2000x128, .f32⟩
  | .local _ .vmem, ⟨4, _⟩ => ⟨S4x128x128, .f32⟩
  | .local _ .vmem, ⟨5, _⟩ => ⟨S4x1x128, .f32⟩
  | .local _ .vmem, ⟨6, _⟩ => ⟨S4x2000x128, .f32⟩
  | .local _ .vmem, ⟨7, _⟩ => ⟨S4x2000x128, .f32⟩
  | .local _ .vmem, ⟨8, _⟩ => ⟨S4x1x128, .f32⟩
  | .local _ .vmem, ⟨9, _⟩ => ⟨S4x1x128, .f32⟩
  | .local _ .vmem, ⟨10, _⟩ => ⟨S2000x128, .f32⟩
  | .local _ .vmem, ⟨11, _⟩ => ⟨S2000x128, .f32⟩
  | .local _ .vmem, ⟨12, _⟩ => ⟨S4x2000x128, .f32⟩
  | .local _ .vmem, ⟨13, _⟩ => ⟨S4x2000x128, .f32⟩
  | .local _ .vmem, ⟨14, _⟩ => ⟨S4x1x128, .f32⟩
  | .local _ .vmem, ⟨15, _⟩ => ⟨S4x1x128, .f32⟩
  | .local _ .vmem, ⟨16, _⟩ => ⟨S4x1x128, .f32⟩
  | .local _ .vmem, ⟨17, _⟩ => ⟨S4x1x128, .f32⟩
  | .local _ .vmem, ⟨18, _⟩ => ⟨S4x128x128, .f32⟩
  | .local _ .vmem, ⟨19, _⟩ => ⟨S4x1x128, .f32⟩
  | .local _ .vmem, ⟨20, _⟩ => ⟨S128x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg10_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem10_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  shapeCasts_S200000x128_S4x50000x128 : S200000x128.ShapeCasts S4x50000x128
  shapeCasts_S4x128_S4x1x128 : S4x128.ShapeCasts S4x1x128
  shapeCasts_S128_S1x128 : S128.ShapeCasts S1x128
  inb_S4x1x128_S4x1x128_0_0_0 : ∀ a, (![0, 0, 0] : Fin 3 → Nat) a + S4x1x128.size a ≤ S4x1x128.size a
  h_S4x1x128 : 0 < S4x1x128.numel
  inb_S2000x128_S2000x128_0_0 : ∀ a, (![0, 0] : Fin 2 → Nat) a + S2000x128.size a ≤ S2000x128.size a
  h_S2000x128 : 0 < S2000x128.numel
  inb_S4x2000x128_S1x2000x128_0_0_0 : ∀ a, (![0, 0, 0] : Fin 3 → Nat) a + S1x2000x128.size a ≤ S4x2000x128.size a
  h_S1x2000x128 : 0 < S1x2000x128.numel
  shapeCasts_S1x2000x128_S2000x128 : S1x2000x128.ShapeCasts S2000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x1x128_S1x1x128_0_0_0 : ∀ a, (![0, 0, 0] : Fin 3 → Nat) a + S1x1x128.size a ≤ S4x1x128.size a
  h_S1x1x128 : 0 < S1x1x128.numel
  shapeCasts_S1x1x128_S1x128 : S1x1x128.ShapeCasts S1x128
  bitsLt_bf16_f32 : FTy.bits .bf16 < FTy.bits .f32
  broadcasts_S1x128_S2000x128 : S1x128.Broadcasts S2000x128
  shapeCasts_S2000x128_S1x2000x128 : S2000x128.ShapeCasts S1x2000x128
  reduces_S2000x128_S128 : S2000x128.Reduces [0] S128
  shapeCasts_S1x128_S1x1x128 : S1x128.ShapeCasts S1x1x128
  inb_S4x2000x128_S1x2000x128_1_0_0 : ∀ a, (![1, 0, 0] : Fin 3 → Nat) a + S1x2000x128.size a ≤ S4x2000x128.size a
  inb_S4x128x128_S1x128x128_1_0_0 : ∀ a, (![1, 0, 0] : Fin 3 → Nat) a + S1x128x128.size a ≤ S4x128x128.size a
  inb_S4x1x128_S1x1x128_1_0_0 : ∀ a, (![1, 0, 0] : Fin 3 → Nat) a + S1x1x128.size a ≤ S4x1x128.size a
  inb_S4x2000x128_S1x2000x128_2_0_0 : ∀ a, (![2, 0, 0] : Fin 3 → Nat) a + S1x2000x128.size a ≤ S4x2000x128.size a
  inb_S4x128x128_S1x128x128_2_0_0 : ∀ a, (![2, 0, 0] : Fin 3 → Nat) a + S1x128x128.size a ≤ S4x128x128.size a
  inb_S4x1x128_S1x1x128_2_0_0 : ∀ a, (![2, 0, 0] : Fin 3 → Nat) a + S1x1x128.size a ≤ S4x1x128.size a
  inb_S4x2000x128_S1x2000x128_3_0_0 : ∀ a, (![3, 0, 0] : Fin 3 → Nat) a + S1x2000x128.size a ≤ S4x2000x128.size a
  inb_S4x128x128_S1x128x128_3_0_0 : ∀ a, (![3, 0, 0] : Fin 3 → Nat) a + S1x128x128.size a ≤ S4x128x128.size a
  inb_S4x1x128_S1x1x128_3_0_0 : ∀ a, (![3, 0, 0] : Fin 3 → Nat) a + S1x1x128.size a ≤ S4x1x128.size a
  bcast_S_S4x1x128 : S_.BroadcastsInDim S4x1x128 (![] : Fin 0 → Fin S4x1x128.rank)
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x128.size a ≤ S4x50000x128.size a
  hwx0_1 : ∀ i : grid0.Coords, EltTy.bits .f32 = 32 ∨ (Rect.block (s := S4x50000x128) S4x2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x128x128.size a ≤ S4x128x128.size a
  hwx0_2 : ∀ i : grid0.Coords, EltTy.bits .f32 = 32 ∨ (Rect.block (s := S4x128x128) S4x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x1x128.size a ≤ S4x1x128.size a
  hwx0_3 : ∀ i : grid0.Coords, EltTy.bits .f32 = 32 ∨ (Rect.block (s := S4x1x128) S4x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x2000x128.size a ≤ S4x50000x128.size a
  hwx0_4 : ∀ i : grid0.Coords, EltTy.bits .f32 = 32 ∨ (Rect.block (s := S4x50000x128) S4x2000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1x128.size a ≤ S4x1x128.size a
  hwx0_5 : ∀ i : grid0.Coords, EltTy.bits .f32 = 32 ∨ (Rect.block (s := S4x1x128) S4x1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1x128.size a ≤ S4x1x128.size a
  hwx0_6 : ∀ i : grid0.Coords, EltTy.bits .f32 = 32 ∨ (Rect.block (s := S4x1x128) S4x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x2000x128.size a ≤ S4x50000x128.size a
  hwx1_1 : ∀ i : grid1.Coords, EltTy.bits .f32 = 32 ∨ (Rect.block (s := S4x50000x128) S4x2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x1x128.size a ≤ S4x1x128.size a
  hwx1_2 : ∀ i : grid1.Coords, EltTy.bits .f32 = 32 ∨ (Rect.block (s := S4x1x128) S4x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x1x128.size a ≤ S4x1x128.size a
  hwx1_3 : ∀ i : grid1.Coords, EltTy.bits .f32 = 32 ∨ (Rect.block (s := S4x1x128) S4x1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x1x128.size a ≤ S4x1x128.size a
  hwx1_4 : ∀ i : grid1.Coords, EltTy.bits .f32 = 32 ∨ (Rect.block (s := S4x1x128) S4x1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x1x128.size a ≤ S4x1x128.size a
  hwx1_5 : ∀ i : grid1.Coords, EltTy.bits .f32 = 32 ∨ (Rect.block (s := S4x1x128) S4x1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x128x128.size a ≤ S4x128x128.size a
  hwx1_6 : ∀ i : grid1.Coords, EltTy.bits .f32 = 32 ∨ (Rect.block (s := S4x128x128) S4x128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x1x128.size a ≤ S4x1x128.size a
  hwx1_7 : ∀ i : grid1.Coords, EltTy.bits .f32 = 32 ∨ (Rect.block (s := S4x1x128) S4x1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x128.size a ≤ S50000x128.size a
  hwx1_10 : ∀ i : grid1.Coords, EltTy.bits .f32 = 32 ∨ (Rect.block (s := S50000x128) S2000x128.size (cc1_transform_10 i) (hinb1_10 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S4x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S4x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23_0) S4x2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v23_1) S4x1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_2) S4x1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S4x2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S4x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S4x1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S4x1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S4x1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S4x128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S4x1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg3) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v22) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v30) S2000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S200000x128 : Shape := ⟨2, ![200000, 128]⟩
abbrev S4x50000x128 : Shape := ⟨3, ![4, 50000, 128]⟩
abbrev S1x50000x128 : Shape := ⟨3, ![1, 50000, 128]⟩
abbrev S4x1x128 : Shape := ⟨3, ![4, 1, 128]⟩
abbrev S1x128 : Shape := ⟨2, ![1, 128]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S4x128x128, .f32⟩
  | .hbm, ⟨6, _⟩ => ⟨S4x128, .f32⟩
  | .hbm, ⟨7, _⟩ => ⟨S4x128, .f32⟩
  | .hbm, ⟨8, _⟩ => ⟨S4x128, .f32⟩
  | .hbm, ⟨9, _⟩ => ⟨S4x128x128, .f32⟩
  | .hbm, ⟨10, _⟩ => ⟨S4x128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S_, .f32⟩
  | .hbm, ⟨29, _⟩ => ⟨S200000x128, .f32⟩
  | .hbm, ⟨30, _⟩ => ⟨S800000x1, .i32⟩
  | .hbm, ⟨31, _⟩ => ⟨S200000x128, .f32⟩
  | .hbm, ⟨32, _⟩ => ⟨S4x50000x128, .f32⟩
  | .hbm, ⟨33, _⟩ => ⟨S1x50000x128, .f32⟩
  | .hbm, ⟨34, _⟩ => ⟨S4x50000x128, .f32⟩
  | .hbm, ⟨35, _⟩ => ⟨S4x50000x128, .f32⟩
  | .hbm, ⟨36, _⟩ => ⟨S4x50000x128, .f32⟩
  | .hbm, ⟨37, _⟩ => ⟨S4x1x128, .f32⟩
  | .hbm, ⟨38, _⟩ => ⟨S4x50000x128, .f32⟩
  | .hbm, ⟨39, _⟩ => ⟨S4x50000x128, .f32⟩
  | .hbm, ⟨40, _⟩ => ⟨S_, .f32⟩
  | .hbm, ⟨41, _⟩ => ⟨S4x128, .f32⟩
  | .hbm, ⟨42, _⟩ => ⟨S4x1x128, .f32⟩
  | .hbm, ⟨43, _⟩ => ⟨S_, .f32⟩
  | .hbm, ⟨44, _⟩ => ⟨S4x1x128, .f32⟩
  | .hbm, ⟨45, _⟩ => ⟨S4x1x128, .f32⟩
  | .hbm, ⟨46, _⟩ => ⟨S_, .i32⟩
  | .hbm, ⟨47, _⟩ => ⟨S_, .f32⟩
  | .hbm, ⟨48, _⟩ => ⟨S4x128, .f32⟩
  | .hbm, ⟨49, _⟩ => ⟨S4x1x128, .f32⟩
  | .hbm, ⟨50, _⟩ => ⟨S_, .f32⟩
  | .hbm, ⟨51, _⟩ => ⟨S4x1x128, .f32⟩
  | .hbm, ⟨52, _⟩ => ⟨S4x1x128, .f32⟩
  | .hbm, ⟨53, _⟩ => ⟨S4x50000x128, .f32⟩
  | .hbm, ⟨54, _⟩ => ⟨S4x50000x128, .f32⟩
  | .hbm, ⟨55, _⟩ => ⟨S4x50000x128, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4x128, .f32⟩
  | .hbm, ⟨61, _⟩ => ⟨S4x1x128, .f32⟩
  | .hbm, ⟨62, _⟩ => ⟨S4x1x128, .f32⟩
  | .hbm, ⟨63, _⟩ => ⟨S4x1x128, .f32⟩
  | .hbm, ⟨64, _⟩ => ⟨S_, .f32⟩
  | .hbm, ⟨65, _⟩ => ⟨S_, .i1⟩
  | .hbm, ⟨66, _⟩ => ⟨S_, .f32⟩
  | .hbm, ⟨67, _⟩ => ⟨S_, .f32⟩
  | .hbm, ⟨68, _⟩ => ⟨S4x1x128, .f32⟩
  | .hbm, ⟨69, _⟩ => ⟨S4x1x128, .f32⟩
  | .hbm, ⟨70, _⟩ => ⟨S4x50000x128, .f32⟩
  | .hbm, ⟨71, _⟩ => ⟨S4x50000x128, .f32⟩
  | .hbm, ⟨72, _⟩ => ⟨S_, .f32⟩
  | .hbm, ⟨73, _⟩ => ⟨S4x1x128, .f32⟩
  | .hbm, ⟨74, _⟩ => ⟨S4x1x128, .f32⟩
  | .hbm, ⟨75, _⟩ => ⟨S4x1x128, .f32⟩
  | .hbm, ⟨76, _⟩ => ⟨S4x50000x128, .f32⟩
  | .hbm, ⟨77, _⟩ => ⟨S4x50000x128, .f32⟩
  | .hbm, ⟨78, _⟩ => ⟨S4x1x128, .f32⟩
  | .hbm, ⟨79, _⟩ => ⟨S4x50000x128, .f32⟩
  | .hbm, ⟨80, _⟩ => ⟨S4x50000x128, .f32⟩
  | .hbm, ⟨81, _⟩ => ⟨S4x1x128, .f32⟩
  | .hbm, ⟨82, _⟩ => ⟨S4x50000x128, .f32⟩
  | .hbm, ⟨83, _⟩ => ⟨S4x50000x128, .f32⟩
  | .hbm, ⟨84, _⟩ => ⟨S_, .f32⟩
  | .hbm, ⟨85, _⟩ => ⟨S4x50000x128, .f32⟩
  | .hbm, ⟨86, _⟩ => ⟨S4x50000x128, .f32⟩
  | .hbm, ⟨87, _⟩ => ⟨S4x50000x128, .f32⟩
  | .hbm, ⟨88, _⟩ => ⟨S4x1x128, .f32⟩
  | .hbm, ⟨89, _⟩ => ⟨S4x50000x128, .f32⟩
  | .hbm, ⟨90, _⟩ => ⟨S4x50000x128, .f32⟩
  | .hbm, ⟨91, _⟩ => ⟨S50000x128, .f32⟩
  | .hbm, ⟨92, _⟩ => ⟨S1x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_v12 : Ref sig .tc := ⟨.hbm, 63, rfl⟩
abbrev main_call0_cst_3 : Ref sig .tc := ⟨.hbm, 64, rfl⟩
abbrev main_call0_v13 : Ref sig .tc := ⟨.hbm, 65, rfl⟩
abbrev main_call0_cst_4 : Ref sig .tc := ⟨.hbm, 66, rfl⟩
abbrev main_call0_call0_v0 : Ref sig .tc := ⟨.hbm, 67, rfl⟩
abbrev main_call0_call0_v1 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_5 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call1_cst : Ref sig .tc := ⟨.hbm, 84, rfl⟩
abbrev main_call1_v0 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_6 : Ref sig .tc := ⟨.hbm, 95, rfl⟩
abbrev main_v52 : Ref sig .tc := ⟨.hbm, 96, rfl⟩
abbrev main_v53 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S200000x128 : S_.BroadcastsInDim S200000x128 (![] : Fin 0 → Fin S200000x128.rank)
  shapeCasts_S200000x128_S4x50000x128 : S200000x128.ShapeCasts S4x50000x128
  bcast_S50000x128_S1x50000x128_1_2 : S50000x128.BroadcastsInDim S1x50000x128 (![1, 2] : Fin 2 → Fin S1x50000x128.rank)
  bcast_S1x50000x128_S4x50000x128_0_1_2 : S1x50000x128.BroadcastsInDim S4x50000x128 (![0, 1, 2] : Fin 3 → Fin S4x50000x128.rank)
  bcast_S4x128_S4x1x128_0_2 : S4x128.BroadcastsInDim S4x1x128 (![0, 2] : Fin 2 → Fin S4x1x128.rank)
  bcast_S4x1x128_S4x50000x128_0_1_2 : S4x1x128.BroadcastsInDim S4x50000x128 (![0, 1, 2] : Fin 3 → Fin S4x50000x128.rank)
  reducesTo_S4x50000x128_S4x128_d1 : S4x50000x128.ReducesTo [1] S4x128
  h_S_ : 0 < S_.numel
  bcast_S_S4x1x128 : S_.BroadcastsInDim S4x1x128 (![] : Fin 0 → Fin S4x1x128.rank)
  bcast_S_S4x50000x128 : S_.BroadcastsInDim S4x50000x128 (![] : Fin 0 → Fin S4x50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S4x50000x128_S50000x128_d0 : S4x50000x128.ReducesTo [0] S50000x128
  gather_S50000x128_S800000x1_S800000x128_1_0_n_n_0_1_1128_wf : GatherDims.WF S50000x128 S800000x1 S800000x128 [1] [0] [] [0] [] 1 ![1, 128]
  scatter_S200000x128_S800000x1_S800000x128_1_0_0_1_wf : ScatterDims.WF S200000x128 S800000x1 S800000x128 [1] [0] [0] 1
  dot_S4x50000x128_S4x128x128_S4x50000x128_2_1_1_2_0_0_wf : DotDims.WF S4x50000x128 S4x128x128 S4x50000x128 [2] [1] [1] [2] [0] [0]
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S4x50000x128_S4x128x128_S4x50000x128_2_1_1_2_0_0 : DotDims S4x50000x128 S4x128x128 S4x50000x128 where
  lhsContracting := [2]
  rhsContracting := [1]
  lhsNonContracting := [1]
  rhsNonContracting := [2]
  lhsBatch := [0]
  rhsBatch := [0]
  wf := dot_S4x50000x128_S4x128x128_S4x50000x128_2_1_1_2_0_0_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  The mathematics both programs compute, written once over coordinate functions with values in the extended reals.

  A relational graph layer over N = 50000 nodes, R = 4 relations and 128 features.  For relation r, node n:
    h r n g   = Σ_f (x n f + agg r n f) · W1 r f g + b1 r g                     (first linear map of x + neighbour sum)
    mean r g  = (Σ_n h r n g) / N                                               (batch statistics over the nodes)
    var  r g  = either  (Σ_n h²)/N − mean²   or   (Σ_n (h − mean)²)/N
    y r n g   = max (((h − mean) · rsqrt (var + ε)) · γ r g + β r g) 0          (normalise, scale, shift, clamp at zero)
    o r n k   = Σ_g y r n g · W2 r g k + b2 r k                                 (second linear map)
    out n k   = (Σ_f x n f · Ws f k + bs k) + Σ_r o r n k                       (self term plus all relations)
  The two spellings of the variance agree when every h r n g is a real number; every other step is the same
  expression on both sides, or a regrouping of a finite sum.
-/
import Idealize.ShloMosaic.PureOps.Ideal
import Idealize.ShloMosaic.PureOps.Ideal.Laws

noncomputable section

namespace Cert.Spec

open Idealize.ShloMosaic
open scoped BigOperators

/-- The number of nodes as the float word both programs divide by (the pattern of 50000.0). -/
abbrev nodesWord : EReal := Ideal.ofBits .f32 0x47435000#32
/-- The variance's guard ε, the same word in both programs. -/
abbrev epsWord : EReal := Ideal.ofBits .f32 0x3727C5AC#32

/-- Arrays by coordinates. -/
abbrev Mat (a b : Nat) : Type := Fin a → Fin b → EReal
abbrev Cube (a b c : Nat) : Type := Fin a → Fin b → Fin c → EReal

/-- The first linear map applied to x + agg, per relation. -/
def lin1 (x : Mat 50000 128) (agg : Cube 4 50000 128) (W1 : Cube 4 128 128) (b1 : Mat 4 128) : Cube 4 50000 128 :=
  fun r n g => (∑ f : Fin 128, (x n f + agg r n f) * W1 r f g) + b1 r g

/-- Column sums over the nodes, and of the squares. -/
def colSum (h : Cube 4 50000 128) : Mat 4 128 := fun r g => ∑ n : Fin 50000, h r n g
def colSumSq (h : Cube 4 50000 128) : Mat 4 128 := fun r g => ∑ n : Fin 50000, h r n g * h r n g

/-- The mean over the nodes: the column sum divided by the node count. -/
def mean (h : Cube 4 50000 128) : Mat 4 128 := fun r g => Ideal.div (colSum h r g) nodesWord

/-- The variance as "mean of squares minus square of mean". -/
def varMoments (h : Cube 4 50000 128) : Mat 4 128 :=
  fun r g => Ideal.div (colSumSq h r g) nodesWord - mean h r g * mean h r g

/-- The variance as "mean of squared deviations". -/
def varCentered (h : Cube 4 50000 128) : Mat 4 128 :=
  fun r g => Ideal.div (∑ n : Fin 50000, (h r n g - mean h r g) * (h r n g - mean h r g)) nodesWord

/-- Normalise, scale, shift, clamp, then the second linear map: one relation's contribution, from given statistics. -/
def branch (h : Cube 4 50000 128) (mu var gamma beta : Mat 4 128) (W2 : Cube 4 128 128) (b2 : Mat 4 128) :
    Cube 4 50000 128 :=
  fun r n k => (∑ g : Fin 128,
      max (((h r n g - mu r g) * Ideal.rsqrt (var r g + epsWord)) * gamma r g + beta r g) 0 * W2 r g k) + b2 r k

/-- The self term: x through its own linear map. -/
def selfLin (x : Mat 50000 128) (Ws : Mat 128 128) (bs : Fin 128 → EReal) : Mat 50000 128 :=
  fun n k => (∑ f : Fin 128, x n f * Ws f k) + bs k

/-- The output as a left-to-right chain: self term, then the four relations added in order. -/
def outChain (x : Mat 50000 128) (h : Cube 4 50000 128) (mu var gamma beta : Mat 4 128) (W2 : Cube 4 128 128)
    (b2 : Mat 4 128) (Ws : Mat 128 128) (bs : Fin 128 → EReal) : Mat 50000 128 :=
  fun n k => (((selfLin x Ws bs n k + branch h mu var gamma beta W2 b2 0 n k) + branch h mu var gamma beta W2 b2 1 n k)
    + branch h mu var gamma beta W2 b2 2 n k) + branch h mu var gamma beta W2 b2 3 n k

/-- The output as self term plus the sum over the relations. -/
def outSum (x : Mat 50000 128) (h : Cube 4 50000 128) (mu var gamma beta : Mat 4 128) (W2 : Cube 4 128 128)
    (b2 : Mat 4 128) (Ws : Mat 128 128) (bs : Fin 128 → EReal) : Mat 50000 128 :=
  fun n k => selfLin x Ws bs n k + ∑ r : Fin 4, branch h mu var gamma beta W2 b2 r n k

/-- What the tiled program computes from the arguments and the neighbour sums. -/
def outTiled (x : Mat 50000 128) (agg : Cube 4 50000 128) (W1 : Cube 4 128 128) (b1 gamma beta : Mat 4 128)
    (W2 : Cube 4 128 128) (b2 : Mat 4 128) (Ws : Mat 128 128) (bs : Fin 128 → EReal) : Mat 50000 128 :=
  outChain x (lin1 x agg W1 b1) (mean (lin1 x agg W1 b1)) (varMoments (lin1 x agg W1 b1)) gamma beta W2 b2 Ws bs

/-- What the whole-array program computes from the same. -/
def outWhole (x : Mat 50000 128) (agg : Cube 4 50000 128) (W1 : Cube 4 128 128) (b1 gamma beta : Mat 4 128)
    (W2 : Cube 4 128 128) (b2 : Mat 4 128) (Ws : Mat 128 128) (bs : Fin 128 → EReal) : Mat 50000 128 :=
  outSum x (lin1 x agg W1 b1) (mean (lin1 x agg W1 b1)) (varCentered (lin1 x agg W1 b1)) gamma beta W2 b2 Ws bs

end Cert.Spec

end
-- ==== Proof.LibReal.lean ====
/-
  Extended reals that are real numbers: closed under sums, products, differences and finite sums.

  The extended reals add and multiply like the reals on real numbers (coercion is a ring homomorphism there), so a
  finite expression built from real entries by +, −, · and Σ is again a real number, and the coercion can be pulled
  out of it.  Distributivity and cancellation, which fail at ±∞, are used only after this has been done.
-/
import Mathlib.Data.EReal.Basic
import Mathlib.Data.EReal.Operations
import Mathlib.Algebra.BigOperators.Group.Finset.Basic

noncomputable section

namespace Cert.LibReal

open scoped BigOperators

/-- An extended real that is (the coercion of) a real number. -/
def IsReal (a : EReal) : Prop := ∃ r : ℝ, a = (r : EReal)

theorem isReal_coe (r : ℝ) : IsReal (r : EReal) := ⟨r, rfl⟩
theorem isReal_zero : IsReal (0 : EReal) := ⟨0, by simp⟩

theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Real-valued families are coercions of real families. -/
theorem exists_real_family {ι : Type*} (f : ι → EReal) (h : ∀ i, IsReal (f i)) : ∃ g : ι → ℝ, ∀ i, f i = (g i : EReal) :=
  ⟨fun i => (h i).choose, fun i => (h i).choose_spec⟩

end Cert.LibReal

end
-- ==== Proof.Algebra.lean ====
/-
  The two spellings of the layer agree on real inputs.

  With every entry of x, the neighbour sums, W1 and b1 a real number, every first-layer value h r n g is a real number;
  then Σ_n (h − μ)² / N = Σ_n h² / N − μ² for μ = Σ_n h / N (expand the square; N = 50000 ≠ 0), so the two variances
  agree, and the chained sum of the four relations is their sum (addition of extended reals is commutative and
  associative).  Nothing else differs between the two outputs.
-/
import proofs.«112356_j6932077216184_1_alg».proof.Proof.Spec
import proofs.«112356_j6932077216184_1_alg».proof.Proof.LibReal
import Mathlib.Tactic.FieldSimp
import Mathlib.Tactic.Ring
import Mathlib.Tactic.NormNum
import Mathlib.Algebra.BigOperators.Ring.Finset
import Mathlib.Algebra.BigOperators.Fin

noncomputable section

namespace Cert.Algebra

open Idealize.ShloMosaic Cert.Spec Cert.LibReal
open scoped BigOperators

/-- The node count's word denotes the real number 50000. -/
theorem nodesWord_eq : Spec.nodesWord = ((50000 : ℝ) : EReal) := by
  show Ideal.ofBits .f32 0x47435000#32 = _
  simp [Ideal.ofBits, Ideal.ieee, -EReal.coe_mul]; norm_num

/-- Over the reals: the mean of squared deviations is the mean of squares minus the square of the mean,
    for a finite family of N ≠ 0 members, division by N written as multiplication by 1/N. -/
theorem real_var_identity {ι : Type*} [Fintype ι] (a : ι → ℝ) (N : ℝ) (hN : N ≠ 0) (hc : (Fintype.card ι : ℝ) = N) :
    (∑ i, (a i - (∑ j, a j) * (1 / N)) * (a i - (∑ j, a j) * (1 / N))) * (1 / N)
      = (∑ i, a i * a i) * (1 / N) - ((∑ j, a j) * (1 / N)) * ((∑ j, a j) * (1 / N)) := by
  set S : ℝ := ∑ j, a j with hS
  set μ : ℝ := S * (1 / N) with hμ
  have h1 : ∀ i, (a i - μ) * (a i - μ) = a i * a i - (2 * μ) * a i + μ * μ := fun i => by ring
  simp_rw [h1]
  rw [Finset.sum_add_distrib, Finset.sum_sub_distrib, ← Finset.mul_sum, Finset.sum_const, Finset.card_univ,
    nsmul_eq_mul, hc, ← hS]
  rw [hμ]
  field_simp
  ring

/-- Every first-layer value is a real number when x, the neighbour sums, W1 and b1 are. -/
theorem lin1_isReal (x : Mat 50000 128) (agg : Cube 4 50000 128) (W1 : Cube 4 128 128) (b1 : Mat 4 128)
    (hx : ∀ n f, IsReal (x n f)) (ha : ∀ r n f, IsReal (agg r n f)) (hW : ∀ r f g, IsReal (W1 r f g))
    (hb : ∀ r g, IsReal (b1 r g)) (r : Fin 4) (n : Fin 50000) (g : Fin 128) : IsReal (lin1 x agg W1 b1 r n g) := by
  unfold lin1
  exact (isReal_sum _ _ (fun f _ => ((hx n f).add (ha r n f)).mul (hW r f g))).add (hb r g)

/-- The two variances agree on a family of real numbers. -/
theorem varMoments_eq_varCentered (h : Cube 4 50000 128) (hh : ∀ r n g, IsReal (h r n g)) :
    varMoments h = varCentered h := by
  funext r g
  obtain ⟨a, ha0⟩ := exists_real_family (fun n => h r n g) (fun n => hh r n g)
  have ha : ∀ n, h r n g = (a n : EReal) := ha0
  have hN : (50000 : ℝ) ≠ 0 := by norm_num
  have hS : colSum h r g = ((∑ n, a n : ℝ) : EReal) := by
    unfold colSum
    rw [coe_sum]
    exact Finset.sum_congr rfl (fun n _ => ha n)
  have hμ : mean h r g = (((∑ n, a n) * (1 / 50000) : ℝ) : EReal) := by
    unfold mean
    rw [hS, nodesWord_eq, Ideal.div_coe hN, ← EReal.coe_mul]
  have hQ : colSumSq h r g = ((∑ n, a n * a n : ℝ) : EReal) := by
    unfold colSumSq
    rw [coe_sum]
    refine Finset.sum_congr rfl (fun n _ => ?_)
    rw [ha n, ← EReal.coe_mul]
  have hD : (∑ n : Fin 50000, (h r n g - mean h r g) * (h r n g - mean h r g))
      = ((∑ n, (a n - (∑ j, a j) * (1 / 50000)) * (a n - (∑ j, a j) * (1 / 50000)) : ℝ) : EReal) := by
    rw [coe_sum]
    refine Finset.sum_congr rfl (fun n _ => ?_)
    rw [ha n, hμ, ← EReal.coe_sub, ← EReal.coe_mul]
  unfold varMoments varCentered
  rw [hD, hQ, hμ, nodesWord_eq, Ideal.div_coe hN, Ideal.div_coe hN, ← EReal.coe_mul, ← EReal.coe_mul, ← EReal.coe_mul,
    ← EReal.coe_sub, EReal.coe_eq_coe_iff]
  exact (real_var_identity a 50000 hN (by simp)).symm

/-- The chain of the four relations is their sum. -/
theorem outChain_eq_outSum (x : Mat 50000 128) (h : Cube 4 50000 128) (mu var gamma beta : Mat 4 128)
    (W2 : Cube 4 128 128) (b2 : Mat 4 128) (Ws : Mat 128 128) (bs : Fin 128 → EReal) :
    outChain x h mu var gamma beta W2 b2 Ws bs = outSum x h mu var gamma beta W2 b2 Ws bs := by
  funext n k
  unfold outChain outSum
  rw [Fin.sum_univ_four]
  simp only [add_assoc]

/-- The tiled program's output is the whole-array program's, when x, the neighbour sums, W1 and b1 are real. -/
theorem outTiled_eq_outWhole (x : Mat 50000 128) (agg : Cube 4 50000 128) (W1 : Cube 4 128 128) (b1 gamma beta : Mat 4 128)
    (W2 : Cube 4 128 128) (b2 : Mat 4 128) (Ws : Mat 128 128) (bs : Fin 128 → EReal)
    (hx : ∀ n f, IsReal (x n f)) (ha : ∀ r n f, IsReal (agg r n f)) (hW : ∀ r f g, IsReal (W1 r f g))
    (hb : ∀ r g, IsReal (b1 r g)) :
    outTiled x agg W1 b1 gamma beta W2 b2 Ws bs = outWhole x agg W1 b1 gamma beta W2 b2 Ws bs := by
  unfold outTiled outWhole
  rw [varMoments_eq_varCentered _ (lin1_isReal x agg W1 b1 hx ha hW hb)]
  exact outChain_eq_outSum _ _ _ _ _ _ _ _ _ _

end Cert.Algebra

end
-- ==== Proof.RefTerm.lean ====
/-
  The whole-array program's value, stage by stage, as pure functions of its argument arrays.

  Its host operations in order: the edges' sources (negative indices wrapped by the node count) select rows of x,
  which are added into the slot "relation · N + destination" of a zero array (the neighbour sums, reshaped to
  [4, N, 128]); x is added to each relation's neighbour sums and sent through the first linear map; the mean and
  the variance over the nodes are taken (the variance as the mean of squared deviations, by a helper function whose
  "degrees of freedom" argument is zero); the values are normalised, scaled, shifted, clamped at zero and sent
  through the second linear map; the four relations are summed and added to x's own linear map.
-/
import proofs.«112356_j6932077216184_1_alg».proof.ReferenceIdeal
import proofs.«112356_j6932077216184_1_alg».proof.Proof.Gen.ReferenceIdeal

noncomputable section

namespace Cert.ReferenceIdeal.RefTerm

open Idealize.ShloMosaic Cert.ReferenceIdeal Cert.ReferenceIdeal.Facts₀

variable {F : FTy → Type} [FloatOps F]

/-- The edges' source nodes and destination nodes: the two rows of the edge table. -/
def src (ei : IVec S2x800000 32) : IVec S800000 32 :=
  shapeCast S800000 (extractStridedSlice S1x800000 ![0, 0] ei slices_S2x800000_S1x800000_0_0) shapeCasts_S1x800000_S800000
def dst (ei : IVec S2x800000 32) : IVec S800000 32 :=
  shapeCast S800000 (extractStridedSlice S1x800000 ![1, 0] ei slices_S2x800000_S1x800000_1_0) shapeCasts_S1x800000_S800000

/-- The row of x each edge reads: its source, a negative one wrapped by the node count. -/
def gatherIdx (ei : IVec S2x800000 32) : IVec S800000x1 32 :=
  broadcastInDim S800000x1 ![0] bcast_S800000_S800000x1_0
    (select (cmpi .slt (src ei) (broadcastInDim S800000 ![] bcast_S_S800000 (constantI S_ 32 0#32)))
      (addi (src ei) (broadcastInDim S800000 ![] bcast_S_S800000 (constantI S_ 32 50000#32))) (src ei))

/-- The messages: one row of x per edge. -/
def msg (x : FVec F S50000x128 .f32) (ei : IVec S2x800000 32) : FVec F S800000x128 .f32 :=
  Host.gather gather_S50000x128_S800000x1_S800000x128_1_0_n_n_0_1_1128 x (gatherIdx ei)

/-- The slot each edge adds into: relation · N + destination. -/
def segIdx (ei : IVec S2x800000 32) (et : IVec S800000 32) : IVec S800000x1 32 :=
  broadcastInDim S800000x1 ![0] bcast_S800000_S800000x1_0
    (addi (muli et (broadcastInDim S800000 ![] bcast_S_S800000 (constantI S_ 32 50000#32))) (dst ei))

/-- The neighbour sums per relation and node. -/
def agg (x : FVec F S50000x128 .f32) (ei : IVec S2x800000 32) (et : IVec S800000 32) : FVec F S4x50000x128 .f32 :=
  shapeCast S4x50000x128
    (Host.scatterAdd scatter_S200000x128_S800000x1_S800000x128_1_0_0_1
      (broadcastInDim S200000x128 ![] bcast_S_S200000x128 (constant S_ .f32 0x00000000#32)) (segIdx ei et) (msg x ei))
    shapeCasts_S200000x128_S4x50000x128

/-- The first linear map of x plus the neighbour sums. -/
def hlin (x : FVec F S50000x128 .f32) (a : FVec F S4x50000x128 .f32) (W1 : FVec F S4x128x128 .f32) (b1 : FVec F S4x128 .f32) :
    FVec F S4x50000x128 .f32 :=
  addf
    (Host.dotGeneral dot_S4x50000x128_S4x128x128_S4x50000x128_2_1_1_2_0_0 none
      (addf (broadcastInDim S4x50000x128 ![0, 1, 2] bcast_S1x50000x128_S4x50000x128_0_1_2
              (broadcastInDim S1x50000x128 ![1, 2] bcast_S50000x128_S1x50000x128_1_2 x)) a) W1)
    (broadcastInDim S4x50000x128 ![0, 1, 2] bcast_S4x1x128_S4x50000x128_0_1_2
      (broadcastInDim S4x1x128 ![0, 2] bcast_S4x128_S4x1x128_0_2 b1))

/-- The mean over the nodes. -/
def mu (h : FVec F S4x50000x128 .f32) : FVec F S4x1x128 .f32 :=
  Host.divf
    (broadcastInDim S4x1x128 ![0, 2] bcast_S4x128_S4x1x128_0_2
      (Host.reduceAdd h (constant S_ .f32 0x00000000#32) reducesTo_S4x50000x128_S4x128_d1 h_S_))
    (broadcastInDim S4x1x128 ![] bcast_S_S4x1x128 (constant S_ .f32 0x47435000#32))

/-- The helper's divisor: the node count minus the "degrees of freedom" argument (zero here). -/
def varDenom : FVec F S_ .f32 :=
  subf (constant S_ .f32 0x47435000#32) (sitofp .f32 (constantI S_ 32 0#32))

/-- The variance over the nodes as the helper function computes it: the mean of squared deviations, kept where the
    divisor is positive (it is), a placeholder word elsewhere. -/
def var (h : FVec F S4x50000x128 .f32) : FVec F S4x1x128 .f32 :=
  select (broadcastInDim S4x1x128 ![] bcast_S_S4x1x128 (cmpf .ogt (varDenom (F := F)) (constant S_ .f32 0x00000000#32)))
    (Host.divf
      (broadcastInDim S4x1x128 ![0, 2] bcast_S4x128_S4x1x128_0_2
        (Host.reduceAdd
          (mulf (subf h (broadcastInDim S4x50000x128 ![0, 1, 2] bcast_S4x1x128_S4x50000x128_0_1_2 (mu h)))
                (subf h (broadcastInDim S4x50000x128 ![0, 1, 2] bcast_S4x1x128_S4x50000x128_0_1_2 (mu h))))
          (constant S_ .f32 0x00000000#32) reducesTo_S4x50000x128_S4x128_d1 h_S_))
      (broadcastInDim S4x1x128 ![] bcast_S_S4x1x128 (varDenom (F := F))))
    (broadcastInDim S4x1x128 ![] bcast_S_S4x1x128 (id (constant S_ .f32 0x7FC00000#32)))

/-- Normalise with the given statistics, scale, shift, clamp at zero. -/
def act (h : FVec F S4x50000x128 .f32) (m v : FVec F S4x1x128 .f32) (gamma beta : FVec F S4x128 .f32) :
    FVec F S4x50000x128 .f32 :=
  maximumf
    (addf
      (mulf
        (mulf (subf h (broadcastInDim S4x50000x128 ![0, 1, 2] bcast_S4x1x128_S4x50000x128_0_1_2 m))
          (broadcastInDim S4x50000x128 ![0, 1, 2] bcast_S4x1x128_S4x50000x128_0_1_2
            (Host.rsqrt (addf v (broadcastInDim S4x1x128 ![] bcast_S_S4x1x128 (constant S_ .f32 0x3727C5AC#32))))))
        (broadcastInDim S4x50000x128 ![0, 1, 2] bcast_S4x1x128_S4x50000x128_0_1_2
          (broadcastInDim S4x1x128 ![0, 2] bcast_S4x128_S4x1x128_0_2 gamma)))
      (broadcastInDim S4x50000x128 ![0, 1, 2] bcast_S4x1x128_S4x50000x128_0_1_2
        (broadcastInDim S4x1x128 ![0, 2] bcast_S4x128_S4x1x128_0_2 beta)))
    (broadcastInDim S4x50000x128 ![] bcast_S_S4x50000x128 (constant S_ .f32 0x00000000#32))

/-- The second linear map per relation, summed over the relations, plus x's own linear map. -/
def fin (x : FVec F S50000x128 .f32) (y : FVec F S4x50000x128 .f32) (W2 : FVec F S4x128x128 .f32) (b2 : FVec F S4x128 .f32)
    (Ws : FVec F S128x128 .f32) (bs : FVec F S128 .f32) : FVec F S50000x128 .f32 :=
  addf
    (addf (Host.dotGeneral dot_S50000x128_S128x128_S50000x128_1_0_0_1_n_n none x Ws)
      (broadcastInDim S50000x128 ![0, 1] bcast_S1x128_S50000x128_0_1 (broadcastInDim S1x128 ![1] bcast_S128_S1x128_1 bs)))
    (Host.reduceAdd
      (addf (Host.dotGeneral dot_S4x50000x128_S4x128x128_S4x50000x128_2_1_1_2_0_0 none y W2)
        (broadcastInDim S4x50000x128 ![0, 1, 2] bcast_S4x1x128_S4x50000x128_0_1_2
          (broadcastInDim S4x1x128 ![0, 2] bcast_S4x128_S4x1x128_0_2 b2)))
      (constant S_ .f32 0x00000000#32) reducesTo_S4x50000x128_S50000x128_d0 h_S_)

/-- The program's result from its arguments. -/
def out (x : FVec F S50000x128 .f32) (ei : IVec S2x800000 32) (et : IVec S800000 32) (Ws : FVec F S128x128 .f32)
    (bs : FVec F S128 .f32) (W1 : FVec F S4x128x128 .f32) (b1 gamma beta : FVec F S4x128 .f32) (W2 : FVec F S4x128x128 .f32)
    (b2 : FVec F S4x128 .f32) : FVec F S50000x128 .f32 :=
  fin x (act (hlin x (agg x ei et) W1 b1) (mu (hlin x (agg x ei et) W1 b1)) (var (hlin x (agg x ei et) W1 b1)) gamma beta) W2 b2 Ws bs

end Cert.ReferenceIdeal.RefTerm

end
-- ==== Proof.LibFinite.lean ====
/-
  A finiteness precondition, read at an entry.

  `jnp.all(jnp.abs(a) < inf)` is printed as the reduction by `and` (into a result of one index) of the comparison of
  `|a|` with the broadcast word `0x7F800000` of `+∞`. On the extended reals `|a i| < ⊤` says exactly that `a i` is a
  real number: `|⊤| = |⊥| = ⊤`.
-/
import Idealize.ShloMosaic.PureOps.Ideal
import Idealize.ShloMosaic.PureOps.Ideal.Laws
import Idealize.ShloMosaic.Lib.ReduceAll
import Idealize.ShloMosaic.Lib.ValueIdx

noncomputable section

namespace Cert.LibFinite

open Idealize.ShloMosaic

instance : Subsingleton (⟨0, ![]⟩ : Shape).Idx := ⟨fun a b => funext fun d => d.elim0⟩

/-- An extended real whose absolute value compares below the word of `+∞` is a real number. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  induction x using EReal.rec with
  | bot =>
    exfalso
    have h' : Ideal.cmp .olt (max (⊥ : EReal) (-⊥)) (Ideal.ofBits .f32 0x7F800000#32) = 1#1 := h
    revert h'; simp [Ideal.cmp, Ideal.ofBits, Ideal.ieee]
  | coe r => exact ⟨r, rfl⟩
  | top =>
    exfalso
    have h' : Ideal.cmp .olt (max (⊤ : EReal) (-⊤)) (Ideal.ofBits .f32 0x7F800000#32) = 1#1 := h
    revert h'; simp [Ideal.cmp, Ideal.ofBits, Ideal.ieee]

/-- `jnp.all(|a| < inf)`, as printed, gives a real number at every entry of `a`. -/
theorem real_of_all {S : Shape} {axes : List (Fin S.rank)} (a : FVec Ideal S .f32)
    (hb : (⟨0, ![]⟩ : Shape).BroadcastsInDim S (![] : Fin 0 → Fin S.rank))
    (hr : S.ReducesTo axes (⟨0, ![]⟩ : Shape)) (hu : 0 < (⟨0, ![]⟩ : Shape).numel)
    (init : (⟨0, ![]⟩ : Shape).Idx → BitVec 1)
    (e : Host.reduce IntOp.andi
        (cmpf .olt (Host.absf a) (broadcastInDim S ![] hb (constant (F := Ideal) (⟨0, ![]⟩ : Shape) .f32 0x7F800000#32)))
        init hr hu ValueIdx.ix0 = 1#1)
    (i : S.Idx) : ∃ r : ℝ, a i = (r : EReal) :=
  real_of_abs_lt_inf (a i) (Host.reduce_andi_all _ init hr hu ValueIdx.ix0 e i)

end Cert.LibFinite

end
-- ==== Proof.Finite.lean ====
/-
  From the precondition to real entries.

  The precondition says, of each float argument a, that all |a i| compare below +∞: every entry is a real number.
  The neighbour sums are then real too: a gathered row is a row of x, and each slot of the scatter-add is zero plus a
  finite sum of gathered entries; the reshape only re-indexes.
-/
import proofs.«112356_j6932077216184_1_alg».proof.Defs
import proofs.«112356_j6932077216184_1_alg».proof.Proof.Gen.Pre_finite_inputs
import proofs.«112356_j6932077216184_1_alg».proof.Proof.Gen.KernelIdeal
import proofs.«112356_j6932077216184_1_alg».proof.Proof.RefTerm
import proofs.«112356_j6932077216184_1_alg».proof.Proof.LibReal
import proofs.«112356_j6932077216184_1_alg».proof.Proof.LibFinite

noncomputable section

namespace Cert.Finite

open Idealize.ShloMosaic Idealize.SL.Sem Cert.LibReal

/-- A conjunction of two one-bit arrays that is 1 at an index has both conjuncts 1 there. -/
theorem andi_at {s : Shape} (a b : IVec s 1) (i : s.Idx) (h : andi a b i = 1#1) : a i = 1#1 ∧ b i = 1#1 :=
  IntOp.andi_eq_one.1 h

/-- A gathered entry is an entry of the operand: a gather of a real array is real. -/
theorem gather_real {s si t : Shape} {w : Nat} (d : GatherDims s si t) (x : FVec Ideal s .f32) (idx : IVec si w)
    (hx : ∀ i, IsReal (x i)) (j : t.Idx) : IsReal (Host.gather d x idx j) :=
  hx (d.operandIdx j idx)

/-- Each slot of a scatter-add is the operand's entry plus a finite sum of update entries: real when both are. -/
theorem scatterAdd_real {s si u : Shape} {w : Nat} (d : ScatterDims s si u) (x : FVec Ideal s .f32) (idx : IVec si w)
    (upd : FVec Ideal u .f32) (hx : ∀ i, IsReal (x i)) (hu : ∀ j, IsReal (upd j)) (i : s.Idx) :
    IsReal (Host.scatterAdd d x idx upd i) := by
  show IsReal (x i + ∑ j ∈ Finset.univ.filter (fun j => d.resultIdx? j idx = some i), upd j)
  exact (hx i).add (isReal_sum _ _ fun j _ => hu j)

/-- Under the precondition, x (argument 0), W1 (argument 5) and b1 (argument 6) have real entries, on every device. -/
theorem args_real (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg5) i))
    ∧ (∀ i, IsReal (m ((c.tc : Thread Cert.KernelIdeal.nD Cert.KernelIdeal.τ).loc Cert.KernelIdeal.main_arg6) i)) := by
  -- the precondition at its one index: a nested conjunction, one conjunct per float argument
  have h := congrFun (hpre c) ValueIdx.ix0
  dsimp only [Cert.Pre_finite_inputs.fn, Cert.Pre_finite_inputs.fn_part1, Cert.Pre_finite_inputs.fn_part2] at h
  -- peel the conjunction from the outside: arguments 10, 9, 8, 7 are dropped, 6 and 5 kept, 4 and 3 dropped, 0 kept
  obtain ⟨h38, -⟩ := andi_at _ _ _ h
  obtain ⟨h33, -⟩ := andi_at _ _ _ h38
  obtain ⟨h28, -⟩ := andi_at _ _ _ h33
  obtain ⟨h23, -⟩ := andi_at _ _ _ h28
  obtain ⟨h18, h22⟩ := andi_at _ _ _ h23
  obtain ⟨h13, h17⟩ := andi_at _ _ _ h18
  obtain ⟨h8, -⟩ := andi_at _ _ _ h13
  obtain ⟨h3, -⟩ := andi_at _ _ _ h8
  exact ⟨fun i => Cert.LibFinite.real_of_all _ _ _ _ _ h3 i,
    fun i => Cert.LibFinite.real_of_all _ _ _ _ _ h17 i,
    fun i => Cert.LibFinite.real_of_all _ _ _ _ _ h22 i⟩

/-- The neighbour sums of a real x are real, whatever the edge tables. -/
theorem agg_real (x : FVec Ideal Cert.ReferenceIdeal.S50000x128 .f32) (ei : IVec Cert.ReferenceIdeal.S2x800000 32)
    (et : IVec Cert.ReferenceIdeal.S800000 32) (hx : ∀ i, IsReal (x i)) :
    ∀ i, IsReal (Cert.ReferenceIdeal.RefTerm.agg (F := Ideal) x ei et i) := by
  intro i
  unfold Cert.ReferenceIdeal.RefTerm.agg Cert.ReferenceIdeal.RefTerm.msg
  -- the reshape reads the scatter-add at the row-major image of i
  unfold shapeCast
  refine scatterAdd_real _ _ _ _ ?_ ?_ _
  · -- the operand is the broadcast zero word
    intro k
    show IsReal (Ideal.ofBits .f32 0x00000000#32)
    rw [Ideal.ofBits_zero_f32]
    exact isReal_zero
  · -- each update is a row entry of x
    intro j
    exact gather_real _ x _ hx j

end Cert.Finite

end
-- ==== Proof.RefValueA.lean ====
/-
  The whole-array program's first stages, read at an index: the first linear map, the mean and the variance.

  A batched product read at (r, n, g) is the sum over the contracted feature; a sum over the node axis read at (r, g) is
  the initial zero plus the sum over the nodes; a broadcast reads its operand at the kept coordinates; the division
  is the extended reals'.  In the variance helper the divisor is the node count minus zero, which is positive, so the
  guarded select keeps the quotient.
-/
import proofs.«112356_j6932077216184_1_alg».proof.Proof.RefTerm
import proofs.«112356_j6932077216184_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.Lib.StackMember
import Idealize.ShloMosaic.PureOps.Ideal.Laws

noncomputable section

namespace Cert.ReferenceIdeal.RefValue

open Idealize.ShloMosaic Idealize.ShloMosaic.ValueIdx Cert.ReferenceIdeal
open scoped BigOperators

/-- Arrays by coordinates. -/
def c2 {a b : Nat} (v : (⟨2, ![a, b]⟩ : Shape).Idx → EReal) : Spec.Mat a b := fun i j => v (ix2 i j)
def c3 {a b c : Nat} (v : (⟨3, ![a, b, c]⟩ : Shape).Idx → EReal) : Spec.Cube a b c := fun i j k => v (ix3 i j k)
/-- A [4,1,128] array by its two free coordinates. -/
def c3u (v : (⟨3, ![4, 1, 128]⟩ : Shape).Idx → EReal) : Spec.Mat 4 128 := fun r g => v (ix3 r (0 : Fin 1) g)

/-! ## The broadcasts, read at explicit coordinates -/

section Broadcasts
variable {α : Type}

/-- x laid along a new leading unit axis, then along the four relations: every relation reads x itself. -/
theorem bcast_x_apply (h0 : S50000x128.BroadcastsInDim S1x50000x128 ![1, 2])
    (h1 : S1x50000x128.BroadcastsInDim S4x50000x128 ![0, 1, 2]) (x : S50000x128.Idx → α)
    (r : Fin 4) (n : Fin 50000) (f : Fin 128) :
    broadcastInDim S4x50000x128 ![0, 1, 2] h1 (broadcastInDim S1x50000x128 ![1, 2] h0 x) (ix3 r n f) = x (ix2 n f) := by
  refine (broadcastInDim_apply ![0, 1, 2] h1 _ (ix3 r n f) (ix3 (0 : Fin 1) n f) ?_).trans
    (broadcastInDim_apply ![1, 2] h0 x (ix3 (0 : Fin 1) n f) (ix2 n f) ?_)
  · intro a
    match a with
    | ⟨0, _⟩ => rfl
    | ⟨1, _⟩ => rfl
    | ⟨2, _⟩ => rfl
  · intro a
    match a with
    | ⟨0, _⟩ => rfl
    | ⟨1, _⟩ => rfl

/-- A [4,128] array given a unit node axis reads itself at (r, 0, g). -/
theorem bcast_unit_apply (h : S4x128.BroadcastsInDim S4x1x128 ![0, 2]) (v : S4x128.Idx → α) (r : Fin 4) (g : Fin 128) :
    broadcastInDim S4x1x128 ![0, 2] h v (ix3 r (0 : Fin 1) g) = v (ix2 r g) := by
  refine broadcastInDim_apply ![0, 2] h v (ix3 r (0 : Fin 1) g) (ix2 r g) ?_
  intro a
  match a with
  | ⟨0, _⟩ => rfl
  | ⟨1, _⟩ => rfl

/-- A [4,1,128] array laid along the nodes reads its one node everywhere. -/
theorem bcast_nodes_apply (h : S4x1x128.BroadcastsInDim S4x50000x128 ![0, 1, 2]) (v : S4x1x128.Idx → α)
    (r : Fin 4) (n : Fin 50000) (g : Fin 128) :
    broadcastInDim S4x50000x128 ![0, 1, 2] h v (ix3 r n g) = v (ix3 r (0 : Fin 1) g) := by
  refine broadcastInDim_apply ![0, 1, 2] h v (ix3 r n g) (ix3 r (0 : Fin 1) g) ?_
  intro a
  match a with
  | ⟨0, _⟩ => rfl
  | ⟨1, _⟩ => rfl
  | ⟨2, _⟩ => rfl

end Broadcasts

/-! ## The first linear map -/

/-- The batched product read at (r, n, g): the sum over the contracted feature f of A r n f · W r f g. -/
theorem dot_apply (A : FVec Ideal S4x50000x128 .f32) (W : FVec Ideal S4x128x128 .f32) (r : Fin 4) (n : Fin 50000) (g : Fin 128) :
    Host.dotGeneral (F := Ideal) dot_S4x50000x128_S4x128x128_S4x50000x128_2_1_1_2_0_0 none A W (ix3 r n g)
      = ∑ f : Fin 128, A (ix3 r n f) * W (ix3 r f g) :=
  StackMember.dotGeneral_stack_apply Facts₀.dot_S4x50000x128_S4x128x128_S4x50000x128_2_1_1_2_0_0_wf none A W r n g

/-- The first linear map at an index. -/
theorem hlin_apply (x : FVec Ideal S50000x128 .f32) (a : FVec Ideal S4x50000x128 .f32) (W1 : FVec Ideal S4x128x128 .f32)
    (b1 : FVec Ideal S4x128 .f32) (r : Fin 4) (n : Fin 50000) (g : Fin 128) :
    RefTerm.hlin (F := Ideal) x a W1 b1 (ix3 r n g) = Spec.lin1 (c2 x) (c3 a) (c3 W1) (c2 b1) r n g := by
  unfold RefTerm.hlin
  rw [addf_apply, dot_apply, bcast_nodes_apply, bcast_unit_apply]
  unfold Spec.lin1
  refine congrArg (· + b1 (ix2 r g)) (Finset.sum_congr rfl fun f _ => ?_)
  rw [addf_apply, bcast_x_apply]
  rfl

/-! ## The sum over the nodes -/

/-- The index the node sum inserts: node k between relation r and feature g. -/
theorem lift_nodes (hR : S4x50000x128.Reduces [1] S4x128) (r : Fin 4) (g : Fin 128) (k : Fin 50000) :
    hR.lift (ix2 r g) k = ix3 r k g := by
  funext a
  refine Fin.ext ?_
  match a with
  | ⟨0, _⟩ => rfl
  | ⟨1, _⟩ => rfl
  | ⟨2, _⟩ => rfl

/-- The host's sum over the node axis from the zero word, read at (r, g): the sum over the nodes. -/
theorem nodeSum_apply (v : FVec Ideal S4x50000x128 .f32) (h' : S4x50000x128.ReducesTo [1] S4x128) (hu : 0 < S_.numel)
    (r : Fin 4) (g : Fin 128) :
    Host.reduceAdd (F := Ideal) v (constant (F := Ideal) S_ .f32 0x00000000#32) h' hu (ix2 r g)
      = ∑ n : Fin 50000, v (ix3 r n g) := by
  have hR : S4x50000x128.Reduces [1] S4x128 := by decide
  refine (Ideal.hostReduceAdd_single h' hR v _ (ix2 r g)).trans ?_
  show Ideal.ofBits .f32 0x00000000#32 + ∑ k : Fin 50000, v (hR.lift (ix2 r g) k) = _
  rw [Ideal.ofBits_zero_f32, zero_add]
  exact Finset.sum_congr rfl fun k _ => congrArg v (lift_nodes hR r g k)

/-! ## The mean -/

/-- A scalar laid over [4,1,128] reads the scalar. -/
theorem bcast_scalar_apply {α : Type} (h : S_.BroadcastsInDim S4x1x128 ![]) (v : S_.Idx → α) (r : Fin 4) (g : Fin 128) :
    broadcastInDim S4x1x128 ![] h v (ix3 r (0 : Fin 1) g) = v ix0 :=
  broadcastInDim_scalar_apply h v _

/-- The mean at an index. -/
theorem mu_apply (h : FVec Ideal S4x50000x128 .f32) (r : Fin 4) (g : Fin 128) :
    RefTerm.mu (F := Ideal) h (ix3 r (0 : Fin 1) g) = Spec.mean (c3 h) r g := by
  unfold RefTerm.mu
  rw [hostDivf_apply, bcast_unit_apply, bcast_scalar_apply, nodeSum_apply]
  rfl

/-! ## The variance -/

/-- The node count's word is the real number 50000. -/
theorem nodesWord_eq : Spec.nodesWord = ((50000 : ℝ) : EReal) := by
  simp [Spec.nodesWord, Ideal.ofBits, Ideal.ieee, -EReal.coe_mul]; norm_num

/-- The helper's divisor: the node count minus the integer zero read as a real. -/
theorem varDenom_apply : RefTerm.varDenom (F := Ideal) ix0 = Spec.nodesWord := by
  show Ideal.ofBits .f32 0x47435000#32 - ((((0#32 : BitVec 32).toInt : ℝ)) : EReal) = _
  simp

/-- The divisor is positive, so the guard's bit is 1. -/
theorem guard_apply :
    cmpf (F := Ideal) .ogt (RefTerm.varDenom (F := Ideal)) (constant (F := Ideal) S_ .f32 0x00000000#32) ix0 = 1#1 := by
  rw [cmpf_apply, Ideal.cmpf_def, varDenom_apply, constant_apply, Ideal.ofBits_zero_f32, nodesWord_eq]
  have hpos : (0 : EReal) < ((50000 : ℝ) : EReal) := EReal.coe_pos.mpr (by norm_num)
  simp [Ideal.cmp, hpos]

/-- The variance at an index: the mean of squared deviations. -/
theorem var_apply (h : FVec Ideal S4x50000x128 .f32) (r : Fin 4) (g : Fin 128) :
    RefTerm.var (F := Ideal) h (ix3 r (0 : Fin 1) g) = Spec.varCentered (c3 h) r g := by
  unfold RefTerm.var
  rw [select_apply, bcast_scalar_apply, guard_apply, select_one, hostDivf_apply, bcast_unit_apply, bcast_scalar_apply,
    varDenom_apply, nodeSum_apply]
  unfold Spec.varCentered
  refine congrArg (fun s => Ideal.div s Spec.nodesWord) (Finset.sum_congr rfl fun n _ => ?_)
  rw [mulf_apply, subf_apply, bcast_nodes_apply, mu_apply]
  rfl

end Cert.ReferenceIdeal.RefValue

end
-- ==== Proof.HostK.lean ====
/-
  What the tiled program's buffers hold when each of its two kernel regions is entered.

  Before region 0 the host operations build the neighbour sums (the same gather and scatter-add as the whole-array
  program's) and reshape the bias and scale vectors to [4,1,128] (and x's own bias to [1,128]); nothing writes an
  argument.  Between the regions the host divides region 0's two accumulators by the node count and forms
  "mean of squares minus square of mean"; region 0's stored first-layer values pass through untouched.
-/
import proofs.«112356_j6932077216184_1_alg».proof.Proof.Gen.KernelIdeal.Frame
import proofs.«112356_j6932077216184_1_alg».proof.Proof.RefTerm
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.HostK

open Cert.KernelIdeal Cert.KernelIdeal.Gen Idealize.ShloMosaic.StableHlo

variable {F : FTy → Type} [FloatOps F]
variable (m : (ℓ : Loc nD τ sig) → Buf (Elt F) ℓ) (ρ : Dev nD → PrngReg)

/-! ## Entering region 0 -/

theorem V1_arg0 (c : Dev nD) : V1 m ρ c main_arg0 = m ((c : Thread nD τ).loc main_arg0) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg0) = W0 m ρ c (Proc.devRef .tc main_arg0))

theorem V1_arg5 (c : Dev nD) : V1 m ρ c main_arg5 = m ((c : Thread nD τ).loc main_arg5) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg5) = W0 m ρ c (Proc.devRef .tc main_arg5))

/-- The reshaped first bias. -/
theorem V1_v18 (c : Dev nD) : V1 m ρ c main_v18
    = shapeCast S4x1x128 (m ((c : Thread nD τ).loc main_arg6)) shapeCasts_S4x128_S4x1x128 := by
  show after hostOps0 (W0 m ρ c) (Proc.devRef .tc main_v18) = _
  after_results
  rfl

/-- The neighbour sums: the same composition of host operations as the whole-array program's. -/
theorem V1_v17 (c : Dev nD) : V1 m ρ c main_v17
    = Cert.ReferenceIdeal.RefTerm.agg (F := F) (m ((c : Thread nD τ).loc main_arg0)) (m ((c : Thread nD τ).loc main_arg1))
        (m ((c : Thread nD τ).loc main_arg2)) := by
  show after hostOps0 (W0 m ρ c) (Proc.devRef .tc main_v17) = _
  after_results_simp
  rfl

/-- The reshaped scale, shift and second bias, and x's own bias. -/
theorem V1_v19 (c : Dev nD) : V1 m ρ c main_v19
    = shapeCast S4x1x128 (m ((c : Thread nD τ).loc main_arg7)) shapeCasts_S4x128_S4x1x128 := by
  show after hostOps0 (W0 m ρ c) (Proc.devRef .tc main_v19) = _
  after_results
  rfl
theorem V1_v20 (c : Dev nD) : V1 m ρ c main_v20
    = shapeCast S4x1x128 (m ((c : Thread nD τ).loc main_arg8)) shapeCasts_S4x128_S4x1x128 := by
  show after hostOps0 (W0 m ρ c) (Proc.devRef .tc main_v20) = _
  after_results
  rfl
theorem V1_v21 (c : Dev nD) : V1 m ρ c main_v21
    = shapeCast S4x1x128 (m ((c : Thread nD τ).loc main_arg10)) shapeCasts_S4x128_S4x1x128 := by
  show after hostOps0 (W0 m ρ c) (Proc.devRef .tc main_v21) = _
  after_results
  rfl
theorem V1_v22 (c : Dev nD) : V1 m ρ c main_v22
    = shapeCast S1x128 (m ((c : Thread nD τ).loc main_arg4)) shapeCasts_S128_S1x128 := by
  show after hostOps0 (W0 m ρ c) (Proc.devRef .tc main_v22) = _
  after_results
  rfl
theorem V1_arg9 (c : Dev nD) : V1 m ρ c main_arg9 = m ((c : Thread nD τ).loc main_arg9) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg9) = W0 m ρ c (Proc.devRef .tc main_arg9))
theorem V1_arg3 (c : Dev nD) : V1 m ρ c main_arg3 = m ((c : Thread nD τ).loc main_arg3) :=
  (StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))) : W1 m ρ c (Proc.devRef .tc main_arg3) = W0 m ρ c (Proc.devRef .tc main_arg3))

/-! ## Entering region 1 -/

theorem V3_arg0 (c : Dev nD) : V3 m ρ c main_arg0 = m ((c : Thread nD τ).loc main_arg0) :=
  calc V3 m ρ c main_arg0
    _ = W2 m ρ c (Proc.devRef .tc main_arg0) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := V1_arg0 m ρ c

/-- Region 0's stored first-layer values. -/
theorem V3_v23_0 (c : Dev nD) : V3 m ρ c main_v23_0 = (dat0 (V1 m ρ) c).arrAt 4 cfg0.N :=
  calc V3 m ρ c main_v23_0
    _ = W2 m ρ c (Proc.devRef .tc main_v23_0) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = (dat0 (V1 m ρ) c).arrAt 4 cfg0.N := W2_arr m ρ c 4

/-- The second stretch, from any contents: the mean is the sum accumulator divided by the node count. -/
theorem stretch1_v25 (W : Valuation τ sig (Elt F)) : after hostOps1 W (Proc.devRef .tc main_v25)
    = Host.divf (W (Proc.devRef .tc main_v23_1) : FVec F S4x1x128 .f32)
        (broadcastInDim S4x1x128 ![] bcast_S_S4x1x128 (constant S_ .f32 0x47435000#32)) := by
  after_results_simp

/-- The second stretch, from any contents: the variance is the sum-of-squares accumulator divided by the node count,
    minus the square of the mean. -/
theorem stretch1_v29 (W : Valuation τ sig (Elt F)) : after hostOps1 W (Proc.devRef .tc main_v29)
    = subf (Host.divf (W (Proc.devRef .tc main_v23_2) : FVec F S4x1x128 .f32)
              (broadcastInDim S4x1x128 ![] bcast_S_S4x1x128 (constant S_ .f32 0x47435000#32)))
        (mulf (Host.divf (W (Proc.devRef .tc main_v23_1) : FVec F S4x1x128 .f32)
                (broadcastInDim S4x1x128 ![] bcast_S_S4x1x128 (constant S_ .f32 0x47435000#32)))
              (Host.divf (W (Proc.devRef .tc main_v23_1) : FVec F S4x1x128 .f32)
                (broadcastInDim S4x1x128 ![] bcast_S_S4x1x128 (constant S_ .f32 0x47435000#32)))) := by
  after_results_simp

/-- The mean: region 0's sum accumulator divided by the node count. -/
theorem V3_v25 (c : Dev nD) : V3 m ρ c main_v25
    = Host.divf ((dat0 (V1 m ρ) c).arrAt 5 cfg0.N : FVec F S4x1x128 .f32)
        (broadcastInDim S4x1x128 ![] bcast_S_S4x1x128 (constant S_ .f32 0x47435000#32)) :=
  (stretch1_v25 (W2 m ρ c)).trans (by rw [W2_arr m ρ c 5])

/-- The variance: the sum-of-squares accumulator divided by the node count, minus the square of the mean. -/
theorem V3_v29 (c : Dev nD) : V3 m ρ c main_v29
    = subf (Host.divf ((dat0 (V1 m ρ) c).arrAt 6 cfg0.N : FVec F S4x1x128 .f32)
              (broadcastInDim S4x1x128 ![] bcast_S_S4x1x128 (constant S_ .f32 0x47435000#32)))
        (mulf (Host.divf ((dat0 (V1 m ρ) c).arrAt 5 cfg0.N : FVec F S4x1x128 .f32)
                (broadcastInDim S4x1x128 ![] bcast_S_S4x1x128 (constant S_ .f32 0x47435000#32)))
              (Host.divf ((dat0 (V1 m ρ) c).arrAt 5 cfg0.N : FVec F S4x1x128 .f32)
                (broadcastInDim S4x1x128 ![] bcast_S_S4x1x128 (constant S_ .f32 0x47435000#32)))) :=
  (stretch1_v29 (W2 m ρ c)).trans (by rw [W2_arr m ρ c 5, W2_arr m ρ c 6])

/-- A buffer neither the second stretch nor region 0 writes holds what it held entering region 0. -/
theorem V3_v19 (c : Dev nD) : V3 m ρ c main_v19 = V1 m ρ c main_v19 :=
  calc V3 m ρ c main_v19
    _ = W2 m ρ c (Proc.devRef .tc main_v19) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v19) := W2_of_ne m ρ c main_v19 (by decide)
theorem V3_v20 (c : Dev nD) : V3 m ρ c main_v20 = V1 m ρ c main_v20 :=
  calc V3 m ρ c main_v20
    _ = W2 m ρ c (Proc.devRef .tc main_v20) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v20) := W2_of_ne m ρ c main_v20 (by decide)
theorem V3_v21 (c : Dev nD) : V3 m ρ c main_v21 = V1 m ρ c main_v21 :=
  calc V3 m ρ c main_v21
    _ = W2 m ρ c (Proc.devRef .tc main_v21) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v21) := W2_of_ne m ρ c main_v21 (by decide)
theorem V3_v22 (c : Dev nD) : V3 m ρ c main_v22 = V1 m ρ c main_v22 :=
  calc V3 m ρ c main_v22
    _ = W2 m ρ c (Proc.devRef .tc main_v22) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_v22) := W2_of_ne m ρ c main_v22 (by decide)
theorem V3_arg9 (c : Dev nD) : V3 m ρ c main_arg9 = V1 m ρ c main_arg9 :=
  calc V3 m ρ c main_arg9
    _ = W2 m ρ c (Proc.devRef .tc main_arg9) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg9) := W2_of_ne m ρ c main_arg9 (by decide)
theorem V3_arg3 (c : Dev nD) : V3 m ρ c main_arg3 = V1 m ρ c main_arg3 :=
  calc V3 m ρ c main_arg3
    _ = W2 m ρ c (Proc.devRef .tc main_arg3) := StableHlo.after_of_forall_not_mem _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
    _ = W1 m ρ c (Proc.devRef .tc main_arg3) := W2_of_ne m ρ c main_arg3 (by decide)

end Cert.KernelIdeal.HostK

end
-- ==== Proof.TileOps.lean ====
/-
  The tile-sized vector operations both kernel bodies use, read at an entry: a row spread over a tile's nodes, a
  relation's slab of a stacked block seen without its leading axis, and the product of a tile with a 128 by 128 matrix
  accumulated from zero, whose entry (p, k) is the sum over the features g of a(p, g) · b(g, k).
-/
import proofs.«112356_j6932077216184_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R1

open Cert.KernelIdeal Cert.KernelIdeal.Gen

/-! ## The body's layout operations, read at an entry

Every vector of the body is a tile of 2000 nodes by 128 features, a row of 128 per-feature numbers, or a 128 by 128
matrix; a relation's slab of a stacked array carries a leading axis of extent one. -/

/-- A row of per-feature numbers spread over the 2000 nodes of a tile: every node sees the row. -/
theorem spread_apply (v : FVec Ideal S1x128 .f32) (p : Fin 2000) (g : Fin 128) :
    broadcastTo S2000x128 v broadcasts_S1x128_S2000x128 (ix2 p g) = v (ix2 (0 : Fin 1) g) :=
  broadcastTo_1b_ab_apply v _ p g

/-- One relation's row of a stacked table, seen as a row. -/
theorem row_apply (v : FVec Ideal S1x1x128 .f32) (u : Fin 1) (g : Fin 128) :
    shapeCast S1x128 v shapeCasts_S1x1x128_S1x128 (ix2 u g) = v (ix3 (0 : Fin 1) u g) :=
  shapeCast_1ab_ab_apply v _ u g

/-- One relation's tile of the stacked first-layer values, seen as a tile. -/
theorem tile_apply (v : FVec Ideal S1x2000x128 .f32) (p : Fin 2000) (g : Fin 128) :
    shapeCast S2000x128 v shapeCasts_S1x2000x128_S2000x128 (ix2 p g) = v (ix3 (0 : Fin 1) p g) :=
  shapeCast_1ab_ab_apply v _ p g

/-- One relation's matrix of the stacked second-layer weights, seen as a matrix. -/
theorem mat_apply (v : FVec Ideal S1x128x128 .f32) (g k : Fin 128) :
    shapeCast S128x128 v shapeCasts_S1x128x128_S128x128 (ix2 g k) = v (ix3 (0 : Fin 1) g k) :=
  shapeCast_1ab_ab_apply v _ g k

/-! ## The product of a tile with a matrix

The contraction runs over the tile's feature axis and the matrix's row axis; the other two axes are the result's. -/

theorem lhs_node (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem lhs_feature (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

theorem rhs_feature (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

theorem rhs_out (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A tile times a matrix, accumulated from zero: entry (p, k) is the sum over the features g of a(p, g) · b(g, k). -/
theorem prod_apply {φ₁ φ₂ : FTy} (a : FVec Ideal S2000x128 φ₁) (b : FVec Ideal S128x128 φ₂) (p : Fin 2000) (k : Fin 128) :
    matmul dot_S2000x128_S128x128_S2000x128_1_0_0_1_n_n none a b (constant (F := Ideal) S2000x128 .f32 0x00000000#32) (ix2 p k)
      = ∑ g : Fin 128, a (ix2 p g) * b (ix2 g k) := by
  simp only [matmul]
  rw [Ideal.matmul_constant_zero_apply,
    ← Equiv.sum_comp (contrEquiv1 dot_S2000x128_S128x128_S2000x128_1_0_0_1_n_n 128 rfl rfl).symm]
  refine Finset.sum_congr rfl fun g _ => ?_
  have hg := contrEquiv1_symm_val dot_S2000x128_S128x128_S2000x128_1_0_0_1_n_n 128 rfl rfl g
  have el : dot_S2000x128_S128x128_S2000x128_1_0_0_1_n_n.lhsIdx (ix2 p k)
      ((contrEquiv1 dot_S2000x128_S128x128_S2000x128_1_0_0_1_n_n 128 rfl rfl).symm g) = ix2 p g :=
    funext fun a => Fin.ext (by
      match a with
      | ⟨0, _⟩ => exact lhs_node _ _
      | ⟨1, _⟩ => exact (lhs_feature _ _).trans hg)
  have er : dot_S2000x128_S128x128_S2000x128_1_0_0_1_n_n.rhsIdx (ix2 p k)
      ((contrEquiv1 dot_S2000x128_S128x128_S2000x128_1_0_0_1_n_n 128 rfl rfl).symm g) = ix2 g k :=
    funext fun a => Fin.ext (by
      match a with
      | ⟨0, _⟩ => exact (rhs_feature _ _).trans hg
      | ⟨1, _⟩ => exact rhs_out _ _)
  rw [el, er]

/-! ## A relation's slab of a stacked block

The body reads relation r of a stacked block through the rectangle at offsets (r, 0, 0) with extent one on the leading
axis: at (u, a, b) it reads the stack at (r, a, b). -/

theorem slab_apply {d1 d2 : Nat} (X : Vec Ideal ⟨3, ![4, d1, d2]⟩ .f32) (off : Fin 3 → Nat)
    (inb : ∀ a, off a + (⟨3, ![1, d1, d2]⟩ : Shape).size a ≤ (⟨3, ![4, d1, d2]⟩ : Shape).size a)
    (r : Fin 4) (h0 : off 0 = r.val) (h1 : off 1 = 0) (h2 : off 2 = 0) (u : Fin 1) (a : Fin d1) (b : Fin d2) :
    View.ld X (Rect.unit (s := ⟨3, ![4, d1, d2]⟩) off (⟨3, ![1, d1, d2]⟩ : Shape).size inb) (ix3 u a b) = X (ix3 r a b) := by
  show X _ = X _
  refine congrArg X (funext fun ax => Fin.ext ?_)
  match ax with
  | ⟨0, _⟩ => show off 0 + 1 * u.val = r.val; omega
  | ⟨1, _⟩ => show off 1 + 1 * a.val = a.val; omega
  | ⟨2, _⟩ => show off 2 + 1 * b.val = b.val; omega

end Cert.KernelIdeal.R1

end
-- ==== Proof.R0Tile.lean ====
/-
  Region 0's arithmetic at an entry, one relation at a time.

  For a relation the body takes the tile of x, the relation's slab of the neighbour sums, of the first weights and of
  the first bias, and forms  lin p g = Σ_f (x p f + a p f) · w f g + b g  on the tile (the two operands pass through a
  narrower float format on the way into the product, which changes nothing over the extended reals).  It stores lin,
  adds lin's column sums over the tile's 2000 nodes to the relation's row of one accumulator, and the column sums of
  lin² to the relation's row of the other.
-/
import proofs.«112356_j6932077216184_1_alg».proof.Proof.Gen.KernelIdeal.Frame
import proofs.«112356_j6932077216184_1_alg».proof.Proof.TileOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen Cert.KernelIdeal.R1

/-- The first linear map on one tile, from the stacked blocks: relation r, node p of the tile, output feature g. -/
def tileLin (x0 : Vec Ideal S2000x128 .f32) (x1 : Vec Ideal S4x2000x128 .f32) (x2 : Vec Ideal S4x128x128 .f32) (x3 : Vec Ideal S4x1x128 .f32) (r : Fin 4) (p : Fin 2000) (g : Fin 128) : EReal :=
  (∑ f : Fin 128, (x0 (ix2 p f) + x1 (ix3 r p f)) * x2 (ix3 r f g)) + x3 (ix3 r (0 : Fin 1) g)

/-- The same from one relation's slabs (leading axis of extent one). -/
def slabLin (x : Vec Ideal S2000x128 .f32) (a : Vec Ideal S1x2000x128 .f32) (w : Vec Ideal S1x128x128 .f32) (b : Vec Ideal S1x1x128 .f32) (p : Fin 2000) (g : Fin 128) : EReal :=
  (∑ f : Fin 128, (x (ix2 p f) + a (ix3 (0 : Fin 1) p f)) * w (ix3 (0 : Fin 1) f g)) + b (ix3 (0 : Fin 1) (0 : Fin 1) g)

/-- Over relation r's slabs of the stacked blocks (the rectangles at offsets (r, 0, 0)) the slab form is the stacked form. -/
theorem slabLin_slab (x0 : Vec Ideal S2000x128 .f32) (x1 : Vec Ideal S4x2000x128 .f32) (x2 : Vec Ideal S4x128x128 .f32) (x3 : Vec Ideal S4x1x128 .f32)
    (r : Fin 4) (off : Fin 3 → Nat) (h0 : off 0 = r.val) (h1 : off 1 = 0) (h2 : off 2 = 0)
    (ia : ∀ d, off d + S1x2000x128.size d ≤ S4x2000x128.size d) (iw : ∀ d, off d + S1x128x128.size d ≤ S4x128x128.size d)
    (ib : ∀ d, off d + S1x1x128.size d ≤ S4x1x128.size d) (p : Fin 2000) (g : Fin 128) :
    slabLin x0 (View.ld x1 (Rect.unit (s := S4x2000x128) off S1x2000x128.size ia))
        (View.ld x2 (Rect.unit (s := S4x128x128) off S1x128x128.size iw))
        (View.ld x3 (Rect.unit (s := S4x1x128) off S1x1x128.size ib)) p g
      = tileLin x0 x1 x2 x3 r p g := by
  unfold slabLin tileLin
  rw [slab_apply x3 off ib r h0 h1 h2 0 0 g]
  refine congrArg (· + x3 (ix3 r (0 : Fin 1) g)) (Finset.sum_congr rfl fun f _ => ?_)
  rw [slab_apply x1 off ia r h0 h1 h2 0 p f, slab_apply x2 off iw r h0 h1 h2 0 f g]

/-! ## The linear map on the tile (the four relations' copies of one body) -/

theorem lin0_apply (x : Vec Ideal S2000x128 .f32) (a : Vec Ideal S1x2000x128 .f32) (w : Vec Ideal S1x128x128 .f32) (b : Vec Ideal S1x1x128 .f32) (p : Fin 2000) (g : Fin 128) :
    k0_pay4 (F := Ideal) x a w b (ix2 p g) = slabLin x a w b p g := by
  unfold k0_pay4 slabLin
  rw [addf_apply, prod_apply, spread_apply, row_apply]
  refine congrArg (· + b (ix3 (0 : Fin 1) (0 : Fin 1) g)) (Finset.sum_congr rfl fun f _ => ?_)
  rw [truncf_apply, truncf_apply, addf_apply, tile_apply, mat_apply]

theorem lin1_apply (x : Vec Ideal S2000x128 .f32) (a : Vec Ideal S1x2000x128 .f32) (w : Vec Ideal S1x128x128 .f32) (b : Vec Ideal S1x1x128 .f32) (p : Fin 2000) (g : Fin 128) :
    k0_pay9 (F := Ideal) x a w b (ix2 p g) = slabLin x a w b p g :=
  lin0_apply x a w b p g

theorem lin2_apply (x : Vec Ideal S2000x128 .f32) (a : Vec Ideal S1x2000x128 .f32) (w : Vec Ideal S1x128x128 .f32) (b : Vec Ideal S1x1x128 .f32) (p : Fin 2000) (g : Fin 128) :
    k0_pay13 (F := Ideal) x a w b (ix2 p g) = slabLin x a w b p g :=
  lin0_apply x a w b p g

theorem lin3_apply (x : Vec Ideal S2000x128 .f32) (a : Vec Ideal S1x2000x128 .f32) (w : Vec Ideal S1x128x128 .f32) (b : Vec Ideal S1x1x128 .f32) (p : Fin 2000) (g : Fin 128) :
    k0_pay17 (F := Ideal) x a w b (ix2 p g) = slabLin x a w b p g :=
  lin0_apply x a w b p g

/-! ## What is stored: the tile under a leading axis of extent one -/

theorem stored0_apply (x : Vec Ideal S2000x128 .f32) (a : Vec Ideal S1x2000x128 .f32) (w : Vec Ideal S1x128x128 .f32) (b : Vec Ideal S1x1x128 .f32) (u : Fin 1) (p : Fin 2000) (g : Fin 128) :
    k0_pay5 (F := Ideal) x a w b (ix3 u p g) = slabLin x a w b p g := by
  unfold k0_pay5
  rw [shapeCast_ab_1ab_apply, lin0_apply]

theorem stored1_apply (x : Vec Ideal S2000x128 .f32) (a : Vec Ideal S1x2000x128 .f32) (w : Vec Ideal S1x128x128 .f32) (b : Vec Ideal S1x1x128 .f32) (u : Fin 1) (p : Fin 2000) (g : Fin 128) :
    k0_pay10 (F := Ideal) x a w b (ix3 u p g) = slabLin x a w b p g := by
  unfold k0_pay10
  rw [shapeCast_ab_1ab_apply, lin1_apply]

theorem stored2_apply (x : Vec Ideal S2000x128 .f32) (a : Vec Ideal S1x2000x128 .f32) (w : Vec Ideal S1x128x128 .f32) (b : Vec Ideal S1x1x128 .f32) (u : Fin 1) (p : Fin 2000) (g : Fin 128) :
    k0_pay14 (F := Ideal) x a w b (ix3 u p g) = slabLin x a w b p g := by
  unfold k0_pay14
  rw [shapeCast_ab_1ab_apply, lin2_apply]

theorem stored3_apply (x : Vec Ideal S2000x128 .f32) (a : Vec Ideal S1x2000x128 .f32) (w : Vec Ideal S1x128x128 .f32) (b : Vec Ideal S1x1x128 .f32) (u : Fin 1) (p : Fin 2000) (g : Fin 128) :
    k0_pay18 (F := Ideal) x a w b (ix3 u p g) = slabLin x a w b p g := by
  unfold k0_pay18
  rw [shapeCast_ab_1ab_apply, lin3_apply]

/-! ## A tile's column sums, and a row with them added

The reduction runs over the tile's node axis from the zero word: at feature g it is the sum over the 2000 nodes p of
the tile at (p, g). The body makes a row of it, adds the old row and puts a leading axis of extent one in front. -/

theorem colSum_apply (t : FVec Ideal S2000x128 .f32) (g : Fin 128) :
    multiReduction (F := Ideal) .add [0] S128 t 0x00000000#32 reduces_S2000x128_S128 (.inl rfl) rfl (ix1 g)
      = ∑ p : Fin 2000, t (ix2 p g) := by
  refine (Ideal.multiReduction_add_single t 0x00000000#32 reduces_S2000x128_S128 (.inl rfl) rfl (ix1 g)).trans ?_
  refine Finset.sum_congr rfl fun p _ => congrArg t (funext fun ax => Fin.ext ?_)
  match ax with
  | ⟨0, _⟩ => rfl
  | ⟨1, _⟩ => rfl

theorem accRow_apply (s : FVec Ideal S1x128 .f32) (t : FVec Ideal S2000x128 .f32) (u v : Fin 1) (g : Fin 128) :
    shapeCast S1x1x128 (addf s (shapeCast S1x128
        (multiReduction (F := Ideal) .add [0] S128 t 0x00000000#32 reduces_S2000x128_S128 (.inl rfl) rfl) shapeCasts_S128_S1x128))
      shapeCasts_S1x128_S1x1x128 (ix3 u v g)
      = s (ix2 (0 : Fin 1) g) + ∑ p : Fin 2000, t (ix2 p g) := by
  rw [shapeCast_ab_1ab_apply, addf_apply, shapeCast_a_1a_apply, colSum_apply, Subsingleton.elim v (0 : Fin 1)]

/-! ## The sum accumulator's new row: the old row plus the tile's column sums -/

theorem sum0_apply (x : Vec Ideal S2000x128 .f32) (a : Vec Ideal S1x2000x128 .f32) (w : Vec Ideal S1x128x128 .f32) (b : Vec Ideal S1x1x128 .f32) (s : Vec Ideal S1x1x128 .f32) (u v : Fin 1) (g : Fin 128) :
    k0_pay6 (F := Ideal) x a w b s (ix3 u v g) = s (ix3 (0 : Fin 1) (0 : Fin 1) g) + ∑ p : Fin 2000, slabLin x a w b p g := by
  unfold k0_pay6
  rw [accRow_apply, row_apply]
  exact congrArg (s (ix3 (0 : Fin 1) (0 : Fin 1) g) + ·) (Finset.sum_congr rfl fun p _ => lin0_apply x a w b p g)

theorem sum1_apply (x : Vec Ideal S2000x128 .f32) (a : Vec Ideal S1x2000x128 .f32) (w : Vec Ideal S1x128x128 .f32) (b : Vec Ideal S1x1x128 .f32) (s : Vec Ideal S1x1x128 .f32) (u v : Fin 1) (g : Fin 128) :
    k0_pay11 (F := Ideal) x a w b s (ix3 u v g) = s (ix3 (0 : Fin 1) (0 : Fin 1) g) + ∑ p : Fin 2000, slabLin x a w b p g := by
  unfold k0_pay11
  rw [accRow_apply, row_apply]
  exact congrArg (s (ix3 (0 : Fin 1) (0 : Fin 1) g) + ·) (Finset.sum_congr rfl fun p _ => lin1_apply x a w b p g)

theorem sum2_apply (x : Vec Ideal S2000x128 .f32) (a : Vec Ideal S1x2000x128 .f32) (w : Vec Ideal S1x128x128 .f32) (b : Vec Ideal S1x1x128 .f32) (s : Vec Ideal S1x1x128 .f32) (u v : Fin 1) (g : Fin 128) :
    k0_pay15 (F := Ideal) x a w b s (ix3 u v g) = s (ix3 (0 : Fin 1) (0 : Fin 1) g) + ∑ p : Fin 2000, slabLin x a w b p g := by
  unfold k0_pay15
  rw [accRow_apply, row_apply]
  exact congrArg (s (ix3 (0 : Fin 1) (0 : Fin 1) g) + ·) (Finset.sum_congr rfl fun p _ => lin2_apply x a w b p g)

theorem sum3_apply (x : Vec Ideal S2000x128 .f32) (a : Vec Ideal S1x2000x128 .f32) (w : Vec Ideal S1x128x128 .f32) (b : Vec Ideal S1x1x128 .f32) (s : Vec Ideal S1x1x128 .f32) (u v : Fin 1) (g : Fin 128) :
    k0_pay19 (F := Ideal) x a w b s (ix3 u v g) = s (ix3 (0 : Fin 1) (0 : Fin 1) g) + ∑ p : Fin 2000, slabLin x a w b p g := by
  unfold k0_pay19
  rw [accRow_apply, row_apply]
  exact congrArg (s (ix3 (0 : Fin 1) (0 : Fin 1) g) + ·) (Finset.sum_congr rfl fun p _ => lin3_apply x a w b p g)

/-! ## The sum-of-squares accumulator's new row: the old row plus the column sums of the squares -/

/-- Relation 0 reads its old row in a step of its own. -/
theorem oldRow0_apply (s : Vec Ideal S1x1x128 .f32) (u : Fin 1) (g : Fin 128) :
    k0_pay7 (F := Ideal) s (ix2 u g) = s (ix3 (0 : Fin 1) (0 : Fin 1) g) := by
  unfold k0_pay7
  rw [row_apply, Subsingleton.elim u (0 : Fin 1)]

theorem sq0_apply (t : FVec Ideal S2000x128 .f32) (s : FVec Ideal S1x128 .f32) (u v : Fin 1) (g : Fin 128) :
    k0_pay8 (F := Ideal) t s (ix3 u v g) = s (ix2 (0 : Fin 1) g) + ∑ p : Fin 2000, t (ix2 p g) * t (ix2 p g) := by
  unfold k0_pay8
  rw [accRow_apply]
  rfl

theorem sq1_apply (t : FVec Ideal S2000x128 .f32) (s : Vec Ideal S1x1x128 .f32) (u v : Fin 1) (g : Fin 128) :
    k0_pay12 (F := Ideal) t s (ix3 u v g) = s (ix3 (0 : Fin 1) (0 : Fin 1) g) + ∑ p : Fin 2000, t (ix2 p g) * t (ix2 p g) := by
  unfold k0_pay12
  rw [accRow_apply, row_apply]
  rfl

theorem sq2_apply (t : FVec Ideal S2000x128 .f32) (s : Vec Ideal S1x1x128 .f32) (u v : Fin 1) (g : Fin 128) :
    k0_pay16 (F := Ideal) t s (ix3 u v g) = s (ix3 (0 : Fin 1) (0 : Fin 1) g) + ∑ p : Fin 2000, t (ix2 p g) * t (ix2 p g) := by
  unfold k0_pay16
  rw [accRow_apply, row_apply]
  rfl

theorem sq3_apply (t : FVec Ideal S2000x128 .f32) (s : Vec Ideal S1x1x128 .f32) (u v : Fin 1) (g : Fin 128) :
    k0_pay1 (F := Ideal) t s (ix3 u v g) = s (ix3 (0 : Fin 1) (0 : Fin 1) g) + ∑ p : Fin 2000, t (ix2 p g) * t (ix2 p g) := by
  unfold k0_pay1
  rw [accRow_apply, row_apply]
  rfl

/-! ## The reset: both accumulators are filled with the zero word -/

theorem reset5_apply (i : S4x1x128.Idx) : k0_pay2 (F := Ideal) i = 0 := by
  unfold k0_pay2
  rw [broadcast_apply]
  exact Ideal.ofBits_zero_f32

theorem reset6_apply (i : S4x1x128.Idx) : k0_pay3 (F := Ideal) i = 0 := by
  unfold k0_pay3
  rw [broadcast_apply]
  exact Ideal.ofBits_zero_f32

end Cert.KernelIdeal.R0

end
-- ==== Proof.R0Out4.lean ====
/-
  Region 0 at one grid point: the stored tile of first-layer values, read at an entry, in both control cases.

  The body stores the tile in four slabs, one per relation, through the rectangles at offsets (k, 0, 0) of extent one on
  the leading axis.  Each slab's payload is the slab form of the first linear map on relation k's slabs of the inputs,
  which is the stacked form at the index under the rectangle; so the four stores together read back as the stacked form
  at every entry, whatever their order.  The two control cases differ only in the accumulators, not in this tile.
-/
import proofs.«112356_j6932077216184_1_alg».proof.Proof.Gen.KernelIdeal.Frame
import proofs.«112356_j6932077216184_1_alg».proof.Proof.R0Tile
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen Cert.KernelIdeal.R1

/-- The stacked form as one function of the stored tile's index. -/
def out4Fn (x0 : Vec Ideal S2000x128 .f32) (x1 : Vec Ideal S4x2000x128 .f32) (x2 : Vec Ideal S4x128x128 .f32) (x3 : Vec Ideal S4x1x128 .f32) (y : S4x2000x128.Idx) : EReal :=
  tileLin x0 x1 x2 x3 (y 0) (y 1) (y 2)

/-- The spelling of the zero offsets of a rank-2 whole-block load. -/
theorem out4_zero2 : (![0, 0] : Fin 2 → Nat) = fun _ => 0 := by
  funext a; match a with | ⟨0, _⟩ => rfl | ⟨1, _⟩ => rfl

/-- One relation's stored slab is the block of `out4Fn` under its rectangle: a payload that reads as the slab form on
    relation k's slabs, at a local index of the rectangle at offsets (k, 0, 0), is the stacked form at the index under it. -/
theorem out4_piece (x0 : Vec Ideal S2000x128 .f32) (x1 : Vec Ideal S4x2000x128 .f32) (x2 : Vec Ideal S4x128x128 .f32) (x3 : Vec Ideal S4x1x128 .f32)
    (k : Fin 4) (off : Fin 3 → Nat) (h0 : off 0 = k.val) (h1 : off 1 = 0) (h2 : off 2 = 0)
    (ia : ∀ d, off d + S1x2000x128.size d ≤ S4x2000x128.size d) (iw : ∀ d, off d + S1x128x128.size d ≤ S4x128x128.size d)
    (ib : ∀ d, off d + S1x1x128.size d ≤ S4x1x128.size d)
    (pay : Vec Ideal S2000x128 .f32 → Vec Ideal S1x2000x128 .f32 → Vec Ideal S1x128x128 .f32 → Vec Ideal S1x1x128 .f32 → Vec Ideal S1x2000x128 .f32)
    (hpay : ∀ x a w b (u : Fin 1) (p : Fin 2000) (g : Fin 128), pay x a w b (ix3 u p g) = slabLin x a w b p g)
    (j : S1x2000x128.Idx) :
    pay x0 (View.ld x1 (Rect.unit (s := S4x2000x128) off S1x2000x128.size ia))
        (View.ld x2 (Rect.unit (s := S4x128x128) off S1x128x128.size iw))
        (View.ld x3 (Rect.unit (s := S4x1x128) off S1x1x128.size ib)) j
      = out4Fn x0 x1 x2 x3 ((Rect.unit (s := S4x2000x128) off S1x2000x128.size ia).emb j) := by
  obtain ⟨u, p, g, rfl⟩ : ∃ (u : Fin 1) (p : Fin 2000) (g : Fin 128), j = ix3 u p g := ⟨j 0, j 1, j 2, eq_ix3 j⟩
  refine (hpay _ _ _ _ u p g).trans ?_
  refine (slabLin_slab x0 x1 x2 x3 k off h0 h1 h2 ia iw ib p g).trans ?_
  have hu : u.val < 1 := u.isLt
  have e0 : (Rect.unit (s := S4x2000x128) off S1x2000x128.size ia).emb (ix3 u p g) 0 = k :=
    Fin.ext (by show off 0 + 1 * u.val = k.val; omega)
  have e1 : (Rect.unit (s := S4x2000x128) off S1x2000x128.size ia).emb (ix3 u p g) 1 = p :=
    Fin.ext (by show off 1 + 1 * p.val = p.val; omega)
  have e2 : (Rect.unit (s := S4x2000x128) off S1x2000x128.size ia).emb (ix3 u p g) 2 = g :=
    Fin.ext (by show off 2 + 1 * g.val = g.val; omega)
  unfold out4Fn
  rw [e0, e1, e2]

/-- First point (the accumulators are reset): the stored tile. -/
theorem outA4_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : cond0_0 i) (x0 : Vec Ideal S2000x128 .f32) (x1 : Vec Ideal S4x2000x128 .f32) (x2 : Vec Ideal S4x128x128 .f32) (x3 : Vec Ideal S4x1x128 .f32)
    (r : Fin 4) (p : Fin 2000) (g : Fin 128) :
    out0_A_4 (F := Ideal) c i a1 h1 a2 h2 a3 h3 a4 h4 a5 h5 a6 h6 a7 h7 hc x0 x1 x2 x3 (ix3 r p g) = tileLin x0 x1 x2 x3 r p g := by
  have hcov := cover0_A_4 (F := Ideal) c i a1 h1 a2 h2 a3 h3 a4 h4 a5 h5 a6 h6 a7 h7 hc x0 x1 x2 x3 (ix3 r p g)
  unfold out0_A_4
  rw [View.read_writes_eq_canon _ _ _ (cover0_A_4 c i a1 h1 a2 h2 a3 h3 a4 h4 a5 h5 a6 h6 a7 h7 hc x0 x1 x2 x3)]
  revert hcov
  unfold kernelRun0_A
  dsimp only
  sl_unfold_words
  simp only [View.readAt_eq_ld, h1.read_unread, h2.read_unread, h3.read_unread, h4.read_unread, View.ld_unit_zero (S := S2000x128) out4_zero2]
  intro hcov
  refine (View.canon_apply_of_pieces (out4Fn x0 x1 x2 x3) _ ?_ (ix3 r p g) hcov).trans rfl
  intro pc hpc x
  rcases List.mem_cons.mp hpc with rfl | hpc
  · exact out4_piece x0 x1 x2 x3 3 ![3, 0, 0] rfl rfl rfl _ _ _ (k0_pay18 (F := Ideal)) stored3_apply x
  rcases List.mem_cons.mp hpc with rfl | hpc
  · exact out4_piece x0 x1 x2 x3 2 ![2, 0, 0] rfl rfl rfl _ _ _ (k0_pay14 (F := Ideal)) stored2_apply x
  rcases List.mem_cons.mp hpc with rfl | hpc
  · exact out4_piece x0 x1 x2 x3 1 ![1, 0, 0] rfl rfl rfl _ _ _ (k0_pay10 (F := Ideal)) stored1_apply x
  rcases List.mem_cons.mp hpc with rfl | hpc
  · exact out4_piece x0 x1 x2 x3 0 ![0, 0, 0] rfl rfl rfl _ _ _ (k0_pay5 (F := Ideal)) stored0_apply x
  nomatch hpc

/-- A later point: the stored tile. -/
theorem outB4_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : ¬cond0_0 i) (x0 : Vec Ideal S2000x128 .f32) (x1 : Vec Ideal S4x2000x128 .f32) (x2 : Vec Ideal S4x128x128 .f32) (x3 : Vec Ideal S4x1x128 .f32)
    (xo5 xo6 : Vec Ideal S4x1x128 .f32) (r : Fin 4) (p : Fin 2000) (g : Fin 128) :
    out0_B_4 (F := Ideal) c i a1 h1 a2 h2 a3 h3 a4 h4 a5 h5 a6 h6 a7 h7 hc x0 x1 x2 x3 xo5 xo6 (ix3 r p g) = tileLin x0 x1 x2 x3 r p g := by
  have hcov := cover0_B_4 (F := Ideal) c i a1 h1 a2 h2 a3 h3 a4 h4 a5 h5 a6 h6 a7 h7 hc x0 x1 x2 x3 xo5 xo6 (ix3 r p g)
  unfold out0_B_4
  rw [View.read_writes_eq_canon _ _ _ (cover0_B_4 c i a1 h1 a2 h2 a3 h3 a4 h4 a5 h5 a6 h6 a7 h7 hc x0 x1 x2 x3 xo5 xo6)]
  revert hcov
  unfold kernelRun0_B
  dsimp only
  sl_unfold_words
  simp only [View.readAt_eq_ld, h1.read_unread, h2.read_unread, h3.read_unread, h4.read_unread, View.ld_unit_zero (S := S2000x128) out4_zero2]
  intro hcov
  refine (View.canon_apply_of_pieces (out4Fn x0 x1 x2 x3) _ ?_ (ix3 r p g) hcov).trans rfl
  intro pc hpc x
  rcases List.mem_cons.mp hpc with rfl | hpc
  · exact out4_piece x0 x1 x2 x3 3 ![3, 0, 0] rfl rfl rfl _ _ _ (k0_pay18 (F := Ideal)) stored3_apply x
  rcases List.mem_cons.mp hpc with rfl | hpc
  · exact out4_piece x0 x1 x2 x3 2 ![2, 0, 0] rfl rfl rfl _ _ _ (k0_pay14 (F := Ideal)) stored2_apply x
  rcases List.mem_cons.mp hpc with rfl | hpc
  · exact out4_piece x0 x1 x2 x3 1 ![1, 0, 0] rfl rfl rfl _ _ _ (k0_pay10 (F := Ideal)) stored1_apply x
  rcases List.mem_cons.mp hpc with rfl | hpc
  · exact out4_piece x0 x1 x2 x3 0 ![0, 0, 0] rfl rfl rfl _ _ _ (k0_pay5 (F := Ideal)) stored0_apply x
  nomatch hpc

end Cert.KernelIdeal.R0

end
-- ==== Proof.R0AccA.lean ====
/-
  Region 0 at its first grid point (the accumulators are reset first): what the two accumulators hold after the body, read at an entry.
-/
import proofs.«112356_j6932077216184_1_alg».proof.Proof.Gen.KernelIdeal.Frame
import proofs.«112356_j6932077216184_1_alg».proof.Proof.R0Tile
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen Cert.KernelIdeal.R1

namespace FirstPoint

/-! ## Reading the accumulator's buffer after the zero fill and the row stores

The buffer has four rows, one per relation. The fill covers all of it; a row store covers one row and nothing else. -/

theorem zeros2 : (![0, 0] : Fin 2 → Nat) = fun _ => 0 := funext fun a => by
  match a with
  | ⟨0, _⟩ => rfl
  | ⟨1, _⟩ => rfl

theorem zeros3 : (![0, 0, 0] : Fin 3 → Nat) = fun _ => 0 := funext fun a => by
  match a with
  | ⟨0, _⟩ => rfl
  | ⟨1, _⟩ => rfl
  | ⟨2, _⟩ => rfl

/-- Entry (k, 0, g) of the buffer is entry (0, 0, g) of the rectangle at offsets (k, 0, 0). -/
theorem row_emb (off : Fin 3 → Nat) (inb : ∀ a, off a + S1x1x128.size a ≤ S4x1x128.size a) (k : Fin 4)
    (h0 : off 0 = k.val) (h1 : off 1 = 0) (h2 : off 2 = 0) (u v : Fin 1) (g : Fin 128) :
    (Rect.unit (s := S4x1x128) off S1x1x128.size inb).idx (ix3 u v g) = ix3 k (0 : Fin 1) g :=
  funext fun ax => Fin.ext (by
    match ax with
    | ⟨0, _⟩ => show off 0 + 1 * u.val = k.val; omega
    | ⟨1, _⟩ => show off 1 + 1 * v.val = 0; omega
    | ⟨2, _⟩ => show off 2 + 1 * g.val = g.val; omega)

/-- Under the last store, into row k, entry (k, 0, g) is the stored row's entry g. -/
theorem canon_row_hit (off : Fin 3 → Nat) (inb : ∀ a, off a + S1x1x128.size a ≤ S4x1x128.size a)
    (w : (Rect.unit (s := S4x1x128) off S1x1x128.size inb).shape.Idx → Elt Ideal .f32)
    (L : List (View.Piece (Elt Ideal) S4x1x128 .f32)) (k : Fin 4)
    (h0 : off 0 = k.val) (h1 : off 1 = 0) (h2 : off 2 = 0) (g : Fin 128) :
    View.canon ((⟨Rect.unit off S1x1x128.size inb, w⟩ : View.Piece (Elt Ideal) S4x1x128 .f32) :: L) (ix3 k (0 : Fin 1) g)
      = w (ix3 (0 : Fin 1) (0 : Fin 1) g) := by
  rw [← row_emb off inb k h0 h1 h2 0 0 g]
  exact View.canon_cons_emb _ w L _

/-- A store into another row leaves entry (k, 0, g) as the earlier stores made it. -/
theorem canon_row_skip (off : Fin 3 → Nat) (inb : ∀ a, off a + S1x1x128.size a ≤ S4x1x128.size a)
    (w : (Rect.unit (s := S4x1x128) off S1x1x128.size inb).shape.Idx → Elt Ideal .f32)
    (L : List (View.Piece (Elt Ideal) S4x1x128 .f32)) (k : Fin 4) (h : off 0 ≠ k.val) (g : Fin 128) :
    View.canon ((⟨Rect.unit off S1x1x128.size inb, w⟩ : View.Piece (Elt Ideal) S4x1x128 .f32) :: L) (ix3 k (0 : Fin 1) g)
      = View.canon L (ix3 k (0 : Fin 1) g) := by
  refine View.canon_cons_of_not_mem _ L ?_
  rw [Rect.mem_set_unit]
  intro hm
  have h' := hm 0
  have e : (ix3 k (0 : Fin 1) g (0 : Fin 3)).val = k.val := rfl
  have e1 : S1x1x128.size 0 = 1 := rfl
  rw [e1] at h'
  omega

/-- A load of row k after stores reads, at entry g, what the stores left at (k, 0, g). -/
theorem readCov_row (v : View sig .tc .vmem S4x1x128 .f32) (L : List (View.Piece (Elt Ideal) S4x1x128 .f32))
    (off : Fin 3 → Nat) (inb : ∀ a, off a + S1x1x128.size a ≤ S4x1x128.size a) (k : Fin 4)
    (h0 : off 0 = k.val) (h1 : off 1 = 0) (h2 : off 2 = 0) (u w : Fin 1) (g : Fin 128) :
    v.readCov L (Rect.unit (s := S4x1x128) off S1x1x128.size inb).toLoadRect (ix3 u w g) = View.canon L (ix3 k (0 : Fin 1) g) := by
  rw [View.readCov_eq_canon']
  exact congrArg (View.canon L) (row_emb off inb k h0 h1 h2 u w g)

/-- After the fill alone every entry of the sum accumulator is zero. -/
theorem canon_fill5 (inb : ∀ a, (![0, 0, 0] : Fin 3 → Nat) a + S4x1x128.size a ≤ S4x1x128.size a) (y : S4x1x128.Idx) :
    View.canon [(⟨Rect.unit ![0, 0, 0] S4x1x128.size inb, k0_pay2 (F := Ideal)⟩ : View.Piece (Elt Ideal) S4x1x128 .f32)] y = 0 := by
  rw [View.canon_unit_zero zeros3 inb]
  exact reset5_apply y

/-- After the fill alone every entry of the sum-of-squares accumulator is zero. -/
theorem canon_fill6 (inb : ∀ a, (![0, 0, 0] : Fin 3 → Nat) a + S4x1x128.size a ≤ S4x1x128.size a) (y : S4x1x128.Idx) :
    View.canon [(⟨Rect.unit ![0, 0, 0] S4x1x128.size inb, k0_pay3 (F := Ideal)⟩ : View.Piece (Elt Ideal) S4x1x128 .f32)] y = 0 := by
  rw [View.canon_unit_zero zeros3 inb]
  exact reset6_apply y

end FirstPoint

open FirstPoint

/-! ## The two accumulators after the first point -/

/-- First point: the sum accumulator holds zero plus the tile's column sum. -/
theorem outA5_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : cond0_0 i) (x0 : Vec Ideal S2000x128 .f32) (x1 : Vec Ideal S4x2000x128 .f32) (x2 : Vec Ideal S4x128x128 .f32) (x3 : Vec Ideal S4x1x128 .f32)
    (r : Fin 4) (g : Fin 128) :
    out0_A_5 (F := Ideal) c i a1 h1 a2 h2 a3 h3 a4 h4 a5 h5 a6 h6 a7 h7 hc x0 x1 x2 x3 (ix3 r (0 : Fin 1) g)
      = 0 + ∑ p : Fin 2000, tileLin x0 x1 x2 x3 r p g := by
  unfold out0_A_5
  rw [View.read_writes_eq_canon _ _ _ (cover0_A_5 c i a1 h1 a2 h2 a3 h3 a4 h4 a5 h5 a6 h6 a7 h7 hc x0 x1 x2 x3)]
  unfold kernelRun0_A; dsimp only; sl_unfold_words
  simp only [View.readAt_eq_ld, h1.read_unread, h2.read_unread, h3.read_unread, h4.read_unread,
    View.ld_unit_zero (S := S2000x128) zeros2]
  have hr : r = 0 ∨ r = 1 ∨ r = 2 ∨ r = 3 := by revert r; decide
  rcases hr with rfl | rfl | rfl | rfl
  · -- relation 0: the fill, then its own store
    refine (canon_row_skip ![3, 0, 0] _ _ _ 0 (by decide) g).trans ?_
    refine (canon_row_skip ![2, 0, 0] _ _ _ 0 (by decide) g).trans ?_
    refine (canon_row_skip ![1, 0, 0] _ _ _ 0 (by decide) g).trans ?_
    refine (canon_row_hit ![0, 0, 0] _ _ _ 0 rfl rfl rfl g).trans ?_
    refine (sum0_apply _ _ _ _ _ 0 0 g).trans ?_
    refine congrArg₂ (· + ·) ?_ (Finset.sum_congr rfl fun p _ => slabLin_slab x0 x1 x2 x3 0 ![0, 0, 0] rfl rfl rfl _ _ _ p g)
    refine (readCov_row _ _ ![0, 0, 0] _ 0 rfl rfl rfl 0 0 g).trans ?_
    exact canon_fill5 _ _
  · -- relation 1
    refine (canon_row_skip ![3, 0, 0] _ _ _ 1 (by decide) g).trans ?_
    refine (canon_row_skip ![2, 0, 0] _ _ _ 1 (by decide) g).trans ?_
    refine (canon_row_hit ![1, 0, 0] _ _ _ 1 rfl rfl rfl g).trans ?_
    refine (sum1_apply _ _ _ _ _ 0 0 g).trans ?_
    refine congrArg₂ (· + ·) ?_ (Finset.sum_congr rfl fun p _ => slabLin_slab x0 x1 x2 x3 1 ![1, 0, 0] rfl rfl rfl _ _ _ p g)
    refine (readCov_row _ _ ![1, 0, 0] _ 1 rfl rfl rfl 0 0 g).trans ?_
    refine (canon_row_skip ![0, 0, 0] _ _ _ 1 (by decide) g).trans ?_
    exact canon_fill5 _ _
  · -- relation 2
    refine (canon_row_skip ![3, 0, 0] _ _ _ 2 (by decide) g).trans ?_
    refine (canon_row_hit ![2, 0, 0] _ _ _ 2 rfl rfl rfl g).trans ?_
    refine (sum2_apply _ _ _ _ _ 0 0 g).trans ?_
    refine congrArg₂ (· + ·) ?_ (Finset.sum_congr rfl fun p _ => slabLin_slab x0 x1 x2 x3 2 ![2, 0, 0] rfl rfl rfl _ _ _ p g)
    refine (readCov_row _ _ ![2, 0, 0] _ 2 rfl rfl rfl 0 0 g).trans ?_
    refine (canon_row_skip ![1, 0, 0] _ _ _ 2 (by decide) g).trans ?_
    refine (canon_row_skip ![0, 0, 0] _ _ _ 2 (by decide) g).trans ?_
    exact canon_fill5 _ _
  · -- relation 3
    refine (canon_row_hit ![3, 0, 0] _ _ _ 3 rfl rfl rfl g).trans ?_
    refine (sum3_apply _ _ _ _ _ 0 0 g).trans ?_
    refine congrArg₂ (· + ·) ?_ (Finset.sum_congr rfl fun p _ => slabLin_slab x0 x1 x2 x3 3 ![3, 0, 0] rfl rfl rfl _ _ _ p g)
    refine (readCov_row _ _ ![3, 0, 0] _ 3 rfl rfl rfl 0 0 g).trans ?_
    refine (canon_row_skip ![2, 0, 0] _ _ _ 3 (by decide) g).trans ?_
    refine (canon_row_skip ![1, 0, 0] _ _ _ 3 (by decide) g).trans ?_
    refine (canon_row_skip ![0, 0, 0] _ _ _ 3 (by decide) g).trans ?_
    exact canon_fill5 _ _

/-- First point: the sum-of-squares accumulator holds zero plus the tile's column sum of squares. -/
theorem outA6_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : cond0_0 i) (x0 : Vec Ideal S2000x128 .f32) (x1 : Vec Ideal S4x2000x128 .f32) (x2 : Vec Ideal S4x128x128 .f32) (x3 : Vec Ideal S4x1x128 .f32)
    (r : Fin 4) (g : Fin 128) :
    out0_A_6 (F := Ideal) c i a1 h1 a2 h2 a3 h3 a4 h4 a5 h5 a6 h6 a7 h7 hc x0 x1 x2 x3 (ix3 r (0 : Fin 1) g)
      = 0 + ∑ p : Fin 2000, tileLin x0 x1 x2 x3 r p g * tileLin x0 x1 x2 x3 r p g := by
  unfold out0_A_6
  rw [View.read_writes_eq_canon _ _ _ (cover0_A_6 c i a1 h1 a2 h2 a3 h3 a4 h4 a5 h5 a6 h6 a7 h7 hc x0 x1 x2 x3)]
  unfold kernelRun0_A; dsimp only; sl_unfold_words
  simp only [View.readAt_eq_ld, h1.read_unread, h2.read_unread, h3.read_unread, h4.read_unread,
    View.ld_unit_zero (S := S2000x128) zeros2]
  have hr : r = 0 ∨ r = 1 ∨ r = 2 ∨ r = 3 := by revert r; decide
  rcases hr with rfl | rfl | rfl | rfl
  · -- relation 0: its old row passes through a step of its own
    refine (canon_row_skip ![3, 0, 0] _ _ _ 0 (by decide) g).trans ?_
    refine (canon_row_skip ![2, 0, 0] _ _ _ 0 (by decide) g).trans ?_
    refine (canon_row_skip ![1, 0, 0] _ _ _ 0 (by decide) g).trans ?_
    refine (canon_row_hit ![0, 0, 0] _ _ _ 0 rfl rfl rfl g).trans ?_
    refine (sq0_apply _ _ 0 0 g).trans ?_
    refine congrArg₂ (· + ·) ?_ (Finset.sum_congr rfl fun p _ => ?_)
    · refine (oldRow0_apply _ 0 g).trans ?_
      refine (readCov_row _ _ ![0, 0, 0] _ 0 rfl rfl rfl 0 0 g).trans ?_
      exact canon_fill6 _ _
    · refine congrArg₂ (· * ·) ?_ ?_ <;>
        exact (lin0_apply _ _ _ _ p g).trans (slabLin_slab x0 x1 x2 x3 0 ![0, 0, 0] rfl rfl rfl _ _ _ p g)
  · -- relation 1
    refine (canon_row_skip ![3, 0, 0] _ _ _ 1 (by decide) g).trans ?_
    refine (canon_row_skip ![2, 0, 0] _ _ _ 1 (by decide) g).trans ?_
    refine (canon_row_hit ![1, 0, 0] _ _ _ 1 rfl rfl rfl g).trans ?_
    refine (sq1_apply _ _ 0 0 g).trans ?_
    refine congrArg₂ (· + ·) ?_ (Finset.sum_congr rfl fun p _ => ?_)
    · refine (readCov_row _ _ ![1, 0, 0] _ 1 rfl rfl rfl 0 0 g).trans ?_
      refine (canon_row_skip ![0, 0, 0] _ _ _ 1 (by decide) g).trans ?_
      exact canon_fill6 _ _
    · refine congrArg₂ (· * ·) ?_ ?_ <;>
        exact (lin1_apply _ _ _ _ p g).trans (slabLin_slab x0 x1 x2 x3 1 ![1, 0, 0] rfl rfl rfl _ _ _ p g)
  · -- relation 2
    refine (canon_row_skip ![3, 0, 0] _ _ _ 2 (by decide) g).trans ?_
    refine (canon_row_hit ![2, 0, 0] _ _ _ 2 rfl rfl rfl g).trans ?_
    refine (sq2_apply _ _ 0 0 g).trans ?_
    refine congrArg₂ (· + ·) ?_ (Finset.sum_congr rfl fun p _ => ?_)
    · refine (readCov_row _ _ ![2, 0, 0] _ 2 rfl rfl rfl 0 0 g).trans ?_
      refine (canon_row_skip ![1, 0, 0] _ _ _ 2 (by decide) g).trans ?_
      refine (canon_row_skip ![0, 0, 0] _ _ _ 2 (by decide) g).trans ?_
      exact canon_fill6 _ _
    · refine congrArg₂ (· * ·) ?_ ?_ <;>
        exact (lin2_apply _ _ _ _ p g).trans (slabLin_slab x0 x1 x2 x3 2 ![2, 0, 0] rfl rfl rfl _ _ _ p g)
  · -- relation 3
    refine (canon_row_hit ![3, 0, 0] _ _ _ 3 rfl rfl rfl g).trans ?_
    refine (sq3_apply _ _ 0 0 g).trans ?_
    refine congrArg₂ (· + ·) ?_ (Finset.sum_congr rfl fun p _ => ?_)
    · refine (readCov_row _ _ ![3, 0, 0] _ 3 rfl rfl rfl 0 0 g).trans ?_
      refine (canon_row_skip ![2, 0, 0] _ _ _ 3 (by decide) g).trans ?_
      refine (canon_row_skip ![1, 0, 0] _ _ _ 3 (by decide) g).trans ?_
      refine (canon_row_skip ![0, 0, 0] _ _ _ 3 (by decide) g).trans ?_
      exact canon_fill6 _ _
    · refine congrArg₂ (· * ·) ?_ ?_ <;>
        exact (lin3_apply _ _ _ _ p g).trans (slabLin_slab x0 x1 x2 x3 3 ![3, 0, 0] rfl rfl rfl _ _ _ p g)

end Cert.KernelIdeal.R0

end
-- ==== Proof.R0AccB.lean ====
/-
  Region 0 at a later grid point: what the two accumulators hold after the body, read at an entry, from what they held before.
-/
import proofs.«112356_j6932077216184_1_alg».proof.Proof.Gen.KernelIdeal.Frame
import proofs.«112356_j6932077216184_1_alg».proof.Proof.R0Tile
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen Cert.KernelIdeal.R1

namespace LaterPoint

/-! ## The row rectangles of a stacked table -/

/-- The whole-tile rectangle's offsets are all zero. -/
theorem tileOff_zero : (![0, 0] : Fin 2 → Nat) = fun _ => 0 := funext fun a => by fin_cases a <;> rfl

/-- Relation r's row rectangle of a stacked table of rows (offsets (r, 0, 0), extent one on the two leading axes)
    sends its local index (u, v, g) to the table's index (r, 0, g). -/
theorem rowRect_emb (off : Fin 3 → Nat) (ib : ∀ d, off d + S1x1x128.size d ≤ S4x1x128.size d)
    (r : Fin 4) (h0 : off 0 = r.val) (h1 : off 1 = 0) (h2 : off 2 = 0) (u v : Fin 1) (g : Fin 128) :
    (Rect.unit (s := S4x1x128) off S1x1x128.size ib).emb (ix3 u v g) = ix3 r (0 : Fin 1) g := by
  funext ax
  refine Fin.ext ?_
  match ax with
  | ⟨0, _⟩ => show off 0 + 1 * u.val = r.val; omega
  | ⟨1, _⟩ => show off 1 + 1 * v.val = 0; omega
  | ⟨2, _⟩ => show off 2 + 1 * g.val = g.val; omega

/-! ## The sum accumulator

At a later point every relation's row of the accumulator is read, increased by the column sums of that relation's
linear map over the tile, and stored back.  So the four stored rows are the rows of ONE function of the table's index:
the old table plus the tile's column sums. -/

/-- The sum accumulator after a later point, as one function of the table's index (relation, 0, feature). -/
def accSum (x0 : Vec Ideal S2000x128 .f32) (x1 : Vec Ideal S4x2000x128 .f32) (x2 : Vec Ideal S4x128x128 .f32) (x3 : Vec Ideal S4x1x128 .f32) (xo : Vec Ideal S4x1x128 .f32) (y : S4x1x128.Idx) : EReal :=
  xo y + ∑ p : Fin 2000, tileLin x0 x1 x2 x3 (y 0) p (y 2)

/-- Relation r's old row plus the column sums of its slab form is that function under relation r's row rectangle. -/
theorem accSum_row (x0 : Vec Ideal S2000x128 .f32) (x1 : Vec Ideal S4x2000x128 .f32) (x2 : Vec Ideal S4x128x128 .f32) (x3 : Vec Ideal S4x1x128 .f32) (xo : Vec Ideal S4x1x128 .f32) (r : Fin 4) (off : Fin 3 → Nat) (h0 : off 0 = r.val) (h1 : off 1 = 0) (h2 : off 2 = 0)
    (ia : ∀ d, off d + S1x2000x128.size d ≤ S4x2000x128.size d) (iw : ∀ d, off d + S1x128x128.size d ≤ S4x128x128.size d)
    (ib : ∀ d, off d + S1x1x128.size d ≤ S4x1x128.size d) (u v : Fin 1) (g : Fin 128) :
    View.ld xo (Rect.unit (s := S4x1x128) off S1x1x128.size ib) (ix3 (0 : Fin 1) (0 : Fin 1) g)
        + ∑ p : Fin 2000, slabLin x0 (View.ld x1 (Rect.unit (s := S4x2000x128) off S1x2000x128.size ia))
            (View.ld x2 (Rect.unit (s := S4x128x128) off S1x128x128.size iw))
            (View.ld x3 (Rect.unit (s := S4x1x128) off S1x1x128.size ib)) p g
      = accSum x0 x1 x2 x3 xo ((Rect.unit (s := S4x1x128) off S1x1x128.size ib).emb (ix3 u v g)) := by
  rw [rowRect_emb off ib r h0 h1 h2 u v g, slab_apply xo off ib r h0 h1 h2 0 0 g]
  unfold accSum
  refine congrArg (xo (ix3 r (0 : Fin 1) g) + ·) (Finset.sum_congr rfl fun p _ => ?_)
  exact slabLin_slab x0 x1 x2 x3 r off h0 h1 h2 ia iw ib p g

end LaterPoint

open LaterPoint

/-- A later point: the sum accumulator grows by the tile's column sum. -/
theorem outB5_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : ¬cond0_0 i) (x0 : Vec Ideal S2000x128 .f32) (x1 : Vec Ideal S4x2000x128 .f32) (x2 : Vec Ideal S4x128x128 .f32) (x3 : Vec Ideal S4x1x128 .f32)
    (xo5 xo6 : Vec Ideal S4x1x128 .f32) (r : Fin 4) (g : Fin 128) :
    out0_B_5 (F := Ideal) c i a1 h1 a2 h2 a3 h3 a4 h4 a5 h5 a6 h6 a7 h7 hc x0 x1 x2 x3 xo5 xo6 (ix3 r (0 : Fin 1) g)
      = xo5 (ix3 r (0 : Fin 1) g) + ∑ p : Fin 2000, tileLin x0 x1 x2 x3 r p g := by
  unfold out0_B_5
  rw [View.read_writes_eq_canon _ _ _ (cover0_B_5 c i a1 h1 a2 h2 a3 h3 a4 h4 a5 h5 a6 h6 a7 h7 hc x0 x1 x2 x3 xo5 xo6)]
  refine (View.canon_apply_of_pieces (accSum x0 x1 x2 x3 xo5) _ ?_ (ix3 r (0 : Fin 1) g)
    (cover0_B_5 c i a1 h1 a2 h2 a3 h3 a4 h4 a5 h5 a6 h6 a7 h7 hc x0 x1 x2 x3 xo5 xo6 (ix3 r (0 : Fin 1) g))).trans rfl
  unfold kernelRun0_B; dsimp only; sl_unfold_words
  simp only [View.readAt_eq_ld, h1.read_unread, h2.read_unread, h3.read_unread, h4.read_unread, h6.read_unread,
    View.ld_unit_zero (S := S2000x128) tileOff_zero]
  intro pc hpc x
  rcases List.mem_cons.mp hpc with rfl | hpc
  · obtain ⟨u, v, q, rfl⟩ : ∃ u v q, x = ix3 u v q := ⟨x 0, x 1, x 2, eq_ix3 x⟩
    exact (sum3_apply _ _ _ _ _ u v q).trans (accSum_row x0 x1 x2 x3 xo5 3 ![3, 0, 0] rfl rfl rfl _ _ _ u v q)
  rcases List.mem_cons.mp hpc with rfl | hpc
  · obtain ⟨u, v, q, rfl⟩ : ∃ u v q, x = ix3 u v q := ⟨x 0, x 1, x 2, eq_ix3 x⟩
    exact (sum2_apply _ _ _ _ _ u v q).trans (accSum_row x0 x1 x2 x3 xo5 2 ![2, 0, 0] rfl rfl rfl _ _ _ u v q)
  rcases List.mem_cons.mp hpc with rfl | hpc
  · obtain ⟨u, v, q, rfl⟩ : ∃ u v q, x = ix3 u v q := ⟨x 0, x 1, x 2, eq_ix3 x⟩
    exact (sum1_apply _ _ _ _ _ u v q).trans (accSum_row x0 x1 x2 x3 xo5 1 ![1, 0, 0] rfl rfl rfl _ _ _ u v q)
  rcases List.mem_cons.mp hpc with rfl | hpc
  · obtain ⟨u, v, q, rfl⟩ : ∃ u v q, x = ix3 u v q := ⟨x 0, x 1, x 2, eq_ix3 x⟩
    exact (sum0_apply _ _ _ _ _ u v q).trans (accSum_row x0 x1 x2 x3 xo5 0 ![0, 0, 0] rfl rfl rfl _ _ _ u v q)
  nomatch hpc

namespace LaterPoint

/-! ## The sum-of-squares accumulator

The same with the squares of the linear map's entries: the four stored rows are the rows of the old table plus the
tile's column sums of squares. -/

/-- The sum-of-squares accumulator after a later point, as one function of the table's index. -/
def accSq (x0 : Vec Ideal S2000x128 .f32) (x1 : Vec Ideal S4x2000x128 .f32) (x2 : Vec Ideal S4x128x128 .f32) (x3 : Vec Ideal S4x1x128 .f32) (xo : Vec Ideal S4x1x128 .f32) (y : S4x1x128.Idx) : EReal :=
  xo y + ∑ p : Fin 2000, tileLin x0 x1 x2 x3 (y 0) p (y 2) * tileLin x0 x1 x2 x3 (y 0) p (y 2)

/-- Relation r's old row entry plus the column sum of the squares of a tile that is relation r's slab form is that
    function under relation r's row rectangle. -/
theorem accSq_row (x0 : Vec Ideal S2000x128 .f32) (x1 : Vec Ideal S4x2000x128 .f32) (x2 : Vec Ideal S4x128x128 .f32) (x3 : Vec Ideal S4x1x128 .f32) (xo : Vec Ideal S4x1x128 .f32) (r : Fin 4) (off : Fin 3 → Nat) (h0 : off 0 = r.val) (h1 : off 1 = 0) (h2 : off 2 = 0)
    (ia : ∀ d, off d + S1x2000x128.size d ≤ S4x2000x128.size d) (iw : ∀ d, off d + S1x128x128.size d ≤ S4x128x128.size d)
    (ib : ∀ d, off d + S1x1x128.size d ≤ S4x1x128.size d) (t : FVec Ideal S2000x128 .f32)
    (ht : ∀ (p : Fin 2000) (g : Fin 128), t (ix2 p g)
      = slabLin x0 (View.ld x1 (Rect.unit (s := S4x2000x128) off S1x2000x128.size ia))
          (View.ld x2 (Rect.unit (s := S4x128x128) off S1x128x128.size iw))
          (View.ld x3 (Rect.unit (s := S4x1x128) off S1x1x128.size ib)) p g)
    (u v : Fin 1) (g : Fin 128) (old : EReal) (hold : old = xo (ix3 r (0 : Fin 1) g)) :
    old + ∑ p : Fin 2000, t (ix2 p g) * t (ix2 p g)
      = accSq x0 x1 x2 x3 xo ((Rect.unit (s := S4x1x128) off S1x1x128.size ib).emb (ix3 u v g)) := by
  rw [rowRect_emb off ib r h0 h1 h2 u v g, hold]
  unfold accSq
  refine congrArg (xo (ix3 r (0 : Fin 1) g) + ·) (Finset.sum_congr rfl fun p _ => ?_)
  rw [ht p g]
  exact congrArg (fun z => z * z) (slabLin_slab x0 x1 x2 x3 r off h0 h1 h2 ia iw ib p g)

end LaterPoint

/-- A later point: the sum-of-squares accumulator grows by the tile's column sum of squares. -/
theorem outB6_apply (c : Dev nD) (i : grid0.Coords) (a1 : Memref sig .tc .vmem S2000x128 .f32) (h1 : a1.IsWhole) (a2 : Memref sig .tc .vmem S4x2000x128 .f32) (h2 : a2.IsWhole) (a3 : Memref sig .tc .vmem S4x128x128 .f32) (h3 : a3.IsWhole) (a4 : Memref sig .tc .vmem S4x1x128 .f32) (h4 : a4.IsWhole) (a5 : Memref sig .tc .vmem S4x2000x128 .f32) (h5 : a5.IsWhole) (a6 : Memref sig .tc .vmem S4x1x128 .f32) (h6 : a6.IsWhole) (a7 : Memref sig .tc .vmem S4x1x128 .f32) (h7 : a7.IsWhole) (hc : ¬cond0_0 i) (x0 : Vec Ideal S2000x128 .f32) (x1 : Vec Ideal S4x2000x128 .f32) (x2 : Vec Ideal S4x128x128 .f32) (x3 : Vec Ideal S4x1x128 .f32)
    (xo5 xo6 : Vec Ideal S4x1x128 .f32) (r : Fin 4) (g : Fin 128) :
    out0_B_6 (F := Ideal) c i a1 h1 a2 h2 a3 h3 a4 h4 a5 h5 a6 h6 a7 h7 hc x0 x1 x2 x3 xo5 xo6 (ix3 r (0 : Fin 1) g)
      = xo6 (ix3 r (0 : Fin 1) g) + ∑ p : Fin 2000, tileLin x0 x1 x2 x3 r p g * tileLin x0 x1 x2 x3 r p g := by
  unfold out0_B_6
  rw [View.read_writes_eq_canon _ _ _ (cover0_B_6 c i a1 h1 a2 h2 a3 h3 a4 h4 a5 h5 a6 h6 a7 h7 hc x0 x1 x2 x3 xo5 xo6)]
  refine (View.canon_apply_of_pieces (accSq x0 x1 x2 x3 xo6) _ ?_ (ix3 r (0 : Fin 1) g)
    (cover0_B_6 c i a1 h1 a2 h2 a3 h3 a4 h4 a5 h5 a6 h6 a7 h7 hc x0 x1 x2 x3 xo5 xo6 (ix3 r (0 : Fin 1) g))).trans rfl
  unfold kernelRun0_B; dsimp only; sl_unfold_words
  simp only [View.readAt_eq_ld, h1.read_unread, h2.read_unread, h3.read_unread, h4.read_unread, h7.read_unread,
    View.ld_unit_zero (S := S2000x128) tileOff_zero]
  intro pc hpc x
  rcases List.mem_cons.mp hpc with rfl | hpc
  · obtain ⟨u, v, q, rfl⟩ : ∃ u v q, x = ix3 u v q := ⟨x 0, x 1, x 2, eq_ix3 x⟩
    exact (sq3_apply _ _ u v q).trans (accSq_row x0 x1 x2 x3 xo6 3 ![3, 0, 0] rfl rfl rfl _ _ _ _
      (fun p g => lin3_apply _ _ _ _ p g) u v q _ (slab_apply xo6 ![3, 0, 0] _ 3 rfl rfl rfl 0 0 q))
  rcases List.mem_cons.mp hpc with rfl | hpc
  · obtain ⟨u, v, q, rfl⟩ : ∃ u v q, x = ix3 u v q := ⟨x 0, x 1, x 2, eq_ix3 x⟩
    exact (sq2_apply _ _ u v q).trans (accSq_row x0 x1 x2 x3 xo6 2 ![2, 0, 0] rfl rfl rfl _ _ _ _
      (fun p g => lin2_apply _ _ _ _ p g) u v q _ (slab_apply xo6 ![2, 0, 0] _ 2 rfl rfl rfl 0 0 q))
  rcases List.mem_cons.mp hpc with rfl | hpc
  · obtain ⟨u, v, q, rfl⟩ : ∃ u v q, x = ix3 u v q := ⟨x 0, x 1, x 2, eq_ix3 x⟩
    exact (sq1_apply _ _ u v q).trans (accSq_row x0 x1 x2 x3 xo6 1 ![1, 0, 0] rfl rfl rfl _ _ _ _
      (fun p g => lin1_apply _ _ _ _ p g) u v q _ (slab_apply xo6 ![1, 0, 0] _ 1 rfl rfl rfl 0 0 q))
  rcases List.mem_cons.mp hpc with rfl | hpc
  · obtain ⟨u, v, q, rfl⟩ : ∃ u v q, x = ix3 u v q := ⟨x 0, x 1, x 2, eq_ix3 x⟩
    exact (sq0_apply _ _ u v q).trans (accSq_row x0 x1 x2 x3 xo6 0 ![0, 0, 0] rfl rfl rfl _ _ _ _
      (fun p g => lin0_apply _ _ _ _ p g) u v q _
      ((oldRow0_apply _ (0 : Fin 1) q).trans (slab_apply xo6 ![0, 0, 0] _ 0 rfl rfl rfl 0 0 q)))
  nomatch hpc

end Cert.KernelIdeal.R0

end
-- ==== Proof.R0Pieces.lean ====
/-
  Region 0 at one grid point: what the body leaves in its three outputs, read at an entry.

  One tile of 2000 nodes.  For each relation r the body forms (x + agg r) · W1 r + b1 r on the tile, stores it, and adds
  the tile's column sums (and the column sums of squares) into two running accumulators, which the first point resets.
  The three parts are proved in the modules imported here.
-/
import proofs.«112356_j6932077216184_1_alg».proof.Proof.R0Out4
import proofs.«112356_j6932077216184_1_alg».proof.Proof.R0AccA
import proofs.«112356_j6932077216184_1_alg».proof.Proof.R0AccB
-- ==== Proof.R0Value.lean ====
import proofs.«112356_j6932077216184_1_alg».proof.Proof.Gen.KernelIdeal.Frame
import proofs.«112356_j6932077216184_1_alg».proof.Proof.Spec
import proofs.«112356_j6932077216184_1_alg».proof.Proof.R0Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R0

open Cert.KernelIdeal Cert.KernelIdeal.Gen

/-! # Region 0 over the whole grid: its three output arrays as functions of the arrays it is entered with

25 tiles of 2000 nodes.  Output 4 is tiled like the nodes, so tile t of it is what point t stored; outputs 5 and 6 are
one block revisited by every point, reset at the first, so after the last point they hold the sums over all 50000 nodes. -/

variable (V : (c : Dev nD) → (b : Ref sig .tc) → Buf (Elt Ideal) ((c : Thread nD τ).loc b))

/-- The arrays region 0 reads, by coordinates. -/
def xc (c : Dev nD) : Spec.Mat 50000 128 := fun n f => V c main_arg0 (ix2 n f)
def aggc (c : Dev nD) : Spec.Cube 4 50000 128 := fun r n f => V c main_v17 (ix3 r n f)
def w1c (c : Dev nD) : Spec.Cube 4 128 128 := fun r f g => V c main_arg5 (ix3 r f g)
def b1c (c : Dev nD) : Spec.Mat 4 128 := fun r g => V c main_v18 (ix3 r (0 : Fin 1) g)
/-- The first linear map of the entry arrays. -/
def hc (c : Dev nD) : Spec.Cube 4 50000 128 := Spec.lin1 (xc V c) (aggc V c) (w1c V c) (b1c V c)

namespace Whole

/-! ## The blocks a point works on, and what it leaves -/

/-- The four input blocks at point `t`, at their literal shapes. -/
abbrev xblk (c : Dev nD) (t : Fin cfg0.N) : Vec Ideal S2000x128 .f32 := iblk0 V c 0 t
abbrev ablk (c : Dev nD) (t : Fin cfg0.N) : Vec Ideal S4x2000x128 .f32 := iblk0 V c 1 t
abbrev wblk (c : Dev nD) (t : Fin cfg0.N) : Vec Ideal S4x128x128 .f32 := iblk0 V c 2 t
abbrev bblk (c : Dev nD) (t : Fin cfg0.N) : Vec Ideal S4x1x128 .f32 := iblk0 V c 3 t

/-- The first linear map on tile `t`, from the blocks at point `t`. -/
def tile (c : Dev nD) (t : Fin cfg0.N) (r : Fin 4) (p : Fin 2000) (g : Fin 128) : EReal :=
  tileLin (xblk V c t) (ablk V c t) (wblk V c t) (bblk V c t) r p g

/-- Tile `s`'s column sum, as a function of every natural (zero past the grid). -/
def colAdd (c : Dev nD) (r : Fin 4) (g : Fin 128) (s : ℕ) : EReal :=
  if h : s < cfg0.N then ∑ p : Fin 2000, tile V c ⟨s, h⟩ r p g else 0

/-- Tile `s`'s column sum of squares, likewise. -/
def sqAdd (c : Dev nD) (r : Fin 4) (g : Fin 128) (s : ℕ) : EReal :=
  if h : s < cfg0.N then ∑ p : Fin 2000, tile V c ⟨s, h⟩ r p g * tile V c ⟨s, h⟩ r p g else 0

/-- At the first point of a run (the accumulators are reset): the three buffers from the point's blocks. -/
theorem first4 (c : Dev nD) (t : Fin cfg0.N) (h0 : t.val % 25 = 0) (r : Fin 4) (p : Fin 2000) (g : Fin 128) :
    (outsAt0 (F := Ideal) V c t.val t.isLt).1 (ix3 r p g) = tile V c t r p g := by
  rw [outsAt0_A V c t h0]; dsimp only
  exact outA4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (ablk V c t) (wblk V c t) (bblk V c t) r p g

theorem first5 (c : Dev nD) (t : Fin cfg0.N) (h0 : t.val % 25 = 0) (r : Fin 4) (g : Fin 128) :
    (outsAt0 (F := Ideal) V c t.val t.isLt).2.1 (ix3 r (0 : Fin 1) g) = 0 + ∑ p : Fin 2000, tile V c t r p g := by
  rw [outsAt0_A V c t h0]; dsimp only
  exact outA5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (ablk V c t) (wblk V c t) (bblk V c t) r g

theorem first6 (c : Dev nD) (t : Fin cfg0.N) (h0 : t.val % 25 = 0) (r : Fin 4) (g : Fin 128) :
    (outsAt0 (F := Ideal) V c t.val t.isLt).2.2 (ix3 r (0 : Fin 1) g)
      = 0 + ∑ p : Fin 2000, tile V c t r p g * tile V c t r p g := by
  rw [outsAt0_A V c t h0]; dsimp only
  exact outA6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (xblk V c t) (ablk V c t) (wblk V c t) (bblk V c t) r g

/-- At a later point: output 4's buffer from the point's blocks, the accumulators from what the point before left. -/
theorem later4 (c : Dev nD) (t : Fin cfg0.N) (h0 : ¬t.val % 25 = 0) (r : Fin 4) (p : Fin 2000) (g : Fin 128) :
    (outsAt0 (F := Ideal) V c t.val t.isLt).1 (ix3 r p g) = tile V c t r p g := by
  rw [outsAt0_B V c t h0]; dsimp only
  exact outB4_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (ablk V c t) (wblk V c t) (bblk V c t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 r p g

theorem later5 (c : Dev nD) (t : Fin cfg0.N) (h0 : ¬t.val % 25 = 0) (r : Fin 4) (g : Fin 128) :
    (outsAt0 (F := Ideal) V c t.val t.isLt).2.1 (ix3 r (0 : Fin 1) g)
      = (outsAt0 (F := Ideal) V c (t.val - 1) (Nat.lt_of_le_of_lt (Nat.sub_le _ _) t.isLt)).2.1 (ix3 r (0 : Fin 1) g) + ∑ p : Fin 2000, tile V c t r p g := by
  rw [outsAt0_B V c t h0]; dsimp only
  exact outB5_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (ablk V c t) (wblk V c t) (bblk V c t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 r g

theorem later6 (c : Dev nD) (t : Fin cfg0.N) (h0 : ¬t.val % 25 = 0) (r : Fin 4) (g : Fin 128) :
    (outsAt0 (F := Ideal) V c t.val t.isLt).2.2 (ix3 r (0 : Fin 1) g)
      = (outsAt0 (F := Ideal) V c (t.val - 1) (Nat.lt_of_le_of_lt (Nat.sub_le _ _) t.isLt)).2.2 (ix3 r (0 : Fin 1) g) + ∑ p : Fin 2000, tile V c t r p g * tile V c t r p g := by
  rw [outsAt0_B V c t h0]; dsimp only
  exact outB6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (xblk V c t) (ablk V c t) (wblk V c t) (bblk V c t) (outsAt0 (F := Ideal) V c (t.val - 1) (Nat.lt_of_le_of_lt (Nat.sub_le _ _) t.isLt)).2.1 (outsAt0 (F := Ideal) V c (t.val - 1) (Nat.lt_of_le_of_lt (Nat.sub_le _ _) t.isLt)).2.2 r g

/-- After point `n`: output 4's buffer holds tile `n`; the two accumulators hold the sums over the tiles `0 … n`.
    By induction on the point: the first point resets (zero plus its tile's sums), every later one adds its own. -/
theorem outsAt_eq (c : Dev nD) : ∀ (n : ℕ) (hn : n < cfg0.N),
    (∀ (r : Fin 4) (p : Fin 2000) (g : Fin 128), (outsAt0 (F := Ideal) V c n hn).1 (ix3 r p g) = tile V c ⟨n, hn⟩ r p g)
    ∧ (∀ (r : Fin 4) (g : Fin 128), (outsAt0 (F := Ideal) V c n hn).2.1 (ix3 r (0 : Fin 1) g)
        = ∑ s ∈ Finset.range (n + 1), colAdd V c r g s)
    ∧ (∀ (r : Fin 4) (g : Fin 128), (outsAt0 (F := Ideal) V c n hn).2.2 (ix3 r (0 : Fin 1) g)
        = ∑ s ∈ Finset.range (n + 1), sqAdd V c r g s)
  | 0, hn => by
    have h0 : (⟨0, hn⟩ : Fin cfg0.N).val % 25 = 0 := rfl
    refine ⟨fun r p g => first4 V c ⟨0, hn⟩ h0 r p g, fun r g => ?_, fun r g => ?_⟩
    · refine (first5 V c ⟨0, hn⟩ h0 r g).trans ?_
      rw [Finset.sum_range_one, zero_add]; unfold colAdd; rw [dif_pos hn]
    · refine (first6 V c ⟨0, hn⟩ h0 r g).trans ?_
      rw [Finset.sum_range_one, zero_add]; unfold sqAdd; rw [dif_pos hn]
  | n + 1, hn => by
    have hN : cfg0.N = 25 := N_0
    have hB : ¬(⟨n + 1, hn⟩ : Fin cfg0.N).val % 25 = 0 := by dsimp only; omega
    have ih := outsAt_eq c n (Nat.lt_of_succ_lt hn)
    refine ⟨fun r p g => later4 V c ⟨n + 1, hn⟩ hB r p g, fun r g => ?_, fun r g => ?_⟩
    · refine (later5 V c ⟨n + 1, hn⟩ hB r g).trans ?_
      rw [Finset.sum_range_succ _ (n + 1)]
      show (outsAt0 (F := Ideal) V c n _).2.1 (ix3 r (0 : Fin 1) g) + _ = _
      rw [ih.2.1 r g]; congr 1; unfold colAdd; rw [dif_pos hn]
    · refine (later6 V c ⟨n + 1, hn⟩ hB r g).trans ?_
      rw [Finset.sum_range_succ _ (n + 1)]
      show (outsAt0 (F := Ideal) V c n _).2.2 (ix3 r (0 : Fin 1) g) + _ = _
      rw [ih.2.2 r g]; congr 1; unfold sqAdd; rw [dif_pos hn]

/-! ## The blocks, read off the arrays: a block's coordinate is the block index times the block size plus the coordinate inside -/

/-- Row `p` of tile `t` is node `2000 t + p`. -/
theorem node_lt (t : Fin cfg0.N) (p : Fin 2000) : 2000 * t.val + p.val < 50000 := by
  have h1 : t.val < 25 := lt_of_lt_of_eq t.isLt (show cfg0.N = 25 from N_0)
  have h2 := p.isLt
  omega

abbrev node (t : Fin cfg0.N) (p : Fin 2000) : Fin 50000 := ⟨2000 * t.val + p.val, node_lt t p⟩

/-- The block of x at point `t` is rows `2000 t … 2000 t + 1999` of x. -/
theorem xblk_apply (c : Dev nD) (t : Fin cfg0.N) (p : Fin 2000) (f : Fin 128) :
    xblk V c t (ix2 p f) = V c main_arg0 (ix2 (node t p) f) := by
  have hi : win0_0.index t 0 = t.val ∧ win0_0.index t 1 = 0 :=
    (by decide +kernel : ∀ t : Fin grid0.N, win0_0.index t 0 = t.val ∧ win0_0.index t 1 = 0) t
  show iblk0 V c 0 t (ix2 p f) = _
  unfold iblk0
  rw [View.read_apply]
  show V c main_arg0 _ = V c main_arg0 _
  congr 1
  funext a
  apply Fin.ext
  match a with
  | ⟨0, _⟩ => show win0_0.index t 0 * 2000 + 1 * p.val = 2000 * t.val + p.val; rw [hi.1]; omega
  | ⟨1, _⟩ => show win0_0.index t 1 * 128 + 1 * f.val = f.val; rw [hi.2]; omega

/-- The block of the neighbour sums at point `t` is the same rows, for every relation. -/
theorem ablk_apply (c : Dev nD) (t : Fin cfg0.N) (r : Fin 4) (p : Fin 2000) (f : Fin 128) :
    ablk V c t (ix3 r p f) = V c main_v17 (ix3 r (node t p) f) := by
  have hi : win0_1.index t 0 = 0 ∧ win0_1.index t 1 = t.val ∧ win0_1.index t 2 = 0 :=
    (by decide +kernel : ∀ t : Fin grid0.N, win0_1.index t 0 = 0 ∧ win0_1.index t 1 = t.val ∧ win0_1.index t 2 = 0) t
  show iblk0 V c 1 t (ix3 r p f) = _
  unfold iblk0
  rw [View.read_apply]
  show V c main_v17 _ = V c main_v17 _
  congr 1
  funext a
  apply Fin.ext
  match a with
  | ⟨0, _⟩ => show win0_1.index t 0 * 4 + 1 * r.val = r.val; rw [hi.1]; omega
  | ⟨1, _⟩ => show win0_1.index t 1 * 2000 + 1 * p.val = 2000 * t.val + p.val; rw [hi.2.1]; omega
  | ⟨2, _⟩ => show win0_1.index t 2 * 128 + 1 * f.val = f.val; rw [hi.2.2]; omega

/-- The weights' block is the whole array at every point. -/
theorem wblk_apply (c : Dev nD) (t : Fin cfg0.N) (r : Fin 4) (f : Fin 128) (g : Fin 128) :
    wblk V c t (ix3 r f g) = V c main_arg5 (ix3 r f g) := by
  have hi : win0_2.index t 0 = 0 ∧ win0_2.index t 1 = 0 ∧ win0_2.index t 2 = 0 :=
    (by decide +kernel : ∀ t : Fin grid0.N, win0_2.index t 0 = 0 ∧ win0_2.index t 1 = 0 ∧ win0_2.index t 2 = 0) t
  show iblk0 V c 2 t (ix3 r f g) = _
  unfold iblk0
  rw [View.read_apply]
  show V c main_arg5 _ = V c main_arg5 _
  congr 1
  funext a
  apply Fin.ext
  match a with
  | ⟨0, _⟩ => show win0_2.index t 0 * 4 + 1 * r.val = r.val; rw [hi.1]; omega
  | ⟨1, _⟩ => show win0_2.index t 1 * 128 + 1 * f.val = f.val; rw [hi.2.1]; omega
  | ⟨2, _⟩ => show win0_2.index t 2 * 128 + 1 * g.val = g.val; rw [hi.2.2]; omega

/-- So is the bias's. -/
theorem bblk_apply (c : Dev nD) (t : Fin cfg0.N) (r : Fin 4) (g : Fin 128) :
    bblk V c t (ix3 r (0 : Fin 1) g) = V c main_v18 (ix3 r (0 : Fin 1) g) := by
  have hi : win0_3.index t 0 = 0 ∧ win0_3.index t 1 = 0 ∧ win0_3.index t 2 = 0 :=
    (by decide +kernel : ∀ t : Fin grid0.N, win0_3.index t 0 = 0 ∧ win0_3.index t 1 = 0 ∧ win0_3.index t 2 = 0) t
  show iblk0 V c 3 t (ix3 r (0 : Fin 1) g) = _
  unfold iblk0
  rw [View.read_apply]
  show V c main_v18 _ = V c main_v18 _
  congr 1
  funext a
  apply Fin.ext
  match a with
  | ⟨0, _⟩ => show win0_3.index t 0 * 4 + 1 * r.val = r.val; rw [hi.1]; omega
  | ⟨1, _⟩ => show win0_3.index t 1 * 1 + 1 * (0 : Fin 1).val = (0 : Fin 1).val; rw [hi.2.1]; rfl
  | ⟨2, _⟩ => show win0_3.index t 2 * 128 + 1 * g.val = g.val; rw [hi.2.2]; omega

/-- So tile `t` is the first linear map at its nodes. -/
theorem tile_eq (c : Dev nD) (t : Fin cfg0.N) (r : Fin 4) (p : Fin 2000) (g : Fin 128) :
    tile V c t r p g = hc V c r (node t p) g := by
  unfold tile tileLin hc Spec.lin1 xc aggc w1c b1c
  rw [bblk_apply]
  congr 1
  refine Finset.sum_congr rfl fun f _ => ?_
  rw [xblk_apply, ablk_apply, wblk_apply]

/-! ## The sum over 25 tiles of 2000 rows is the sum over the 50000 nodes -/

/-- Consecutive runs of `m` naturals, `k` of them, are the first `m k` naturals. -/
theorem sum_range_tiles {M : Type*} [AddCommMonoid M] (f : ℕ → M) (m : ℕ) : ∀ k : ℕ,
    ∑ s ∈ Finset.range k, ∑ p ∈ Finset.range m, f (m * s + p) = ∑ n ∈ Finset.range (m * k), f n
  | 0 => by simp
  | k + 1 => by
    rw [Finset.sum_range_succ, sum_range_tiles f m k, Nat.mul_succ, Finset.sum_range_add]

/-- A function of the nodes as a function of every natural, zero past the last node. -/
def ext0 (H : Fin 50000 → EReal) (n : ℕ) : EReal := if h : n < 50000 then H ⟨n, h⟩ else 0

/-- Summing a function of the nodes tile by tile, row by row, sums it over the nodes. -/
theorem sum_nodes (H : Fin 50000 → EReal) :
    ∑ s ∈ Finset.range 25, (if h : s < cfg0.N then ∑ p : Fin 2000, H (node ⟨s, h⟩ p) else 0) = ∑ n : Fin 50000, H n := by
  have hN : cfg0.N = 25 := N_0
  have hR : ∑ n : Fin 50000, H n = ∑ n ∈ Finset.range (2000 * 25), ext0 H n := by
    rw [Finset.sum_range]
    exact Finset.sum_congr rfl fun n _ => by unfold ext0; rw [dif_pos n.isLt]
  rw [hR, ← sum_range_tiles (ext0 H) 2000 25]
  refine Finset.sum_congr rfl fun s hs => ?_
  have hs' : s < cfg0.N := by rw [hN]; exact Finset.mem_range.mp hs
  rw [dif_pos hs', Finset.sum_range]
  exact Finset.sum_congr rfl fun p _ => by unfold ext0; rw [dif_pos (node_lt ⟨s, hs'⟩ p)]

/-! ## The three arrays -/

/-- The targets, as contents of the three output arrays. -/
def G4 (c : Dev nD) : Buf (Elt Ideal) ((c : Thread nD τ).loc main_v23_0) := fun i => hc V c (i 0) (i 1) (i 2)
def G5 (c : Dev nD) : Buf (Elt Ideal) ((c : Thread nD τ).loc main_v23_1) := fun i => Spec.colSum (hc V c) (i 0) (i 2)
def G6 (c : Dev nD) : Buf (Elt Ideal) ((c : Thread nD τ).loc main_v23_2) := fun i => Spec.colSumSq (hc V c) (i 0) (i 2)

theorem G4_apply (c : Dev nD) (r : Fin 4) (n : Fin 50000) (g : Fin 128) : G4 V c (ix3 r n g) = hc V c r n g := rfl
theorem G5_apply (c : Dev nD) (r : Fin 4) (z : Fin 1) (g : Fin 128) : G5 V c (ix3 r z g) = Spec.colSum (hc V c) r g := rfl
theorem G6_apply (c : Dev nD) (r : Fin 4) (z : Fin 1) (g : Fin 128) : G6 V c (ix3 r z g) = Spec.colSumSq (hc V c) r g := rfl

/-- The last point of the grid. -/
abbrev tLast : Fin cfg0.N := ⟨24, lt_of_lt_of_eq (by decide : 24 < 25) N_0.symm⟩

/-- Every point writes its tile of output 4 back: tile `t` of the first linear map. -/
theorem flushed4 (c : Dev nD) (t : Fin cfg0.N) (hf : (cfg0.win 4).flush t = true) :
    (dat0 (F := Ideal) V c).flushed 4 t = ((cfg0.win 4).blk t).view.read (Elt Ideal) (G4 V c) := by
  have hi : win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0) t
  show (cfg0.win 4).cut (grid0.coords t) ((dat0 (F := Ideal) V c).after 4 t) = _
  rw [after0_4]
  funext y
  obtain ⟨r, p, g, rfl⟩ : ∃ (r : Fin 4) (p : Fin 2000) (g : Fin 128), y = ix3 r p g := ⟨y 0, y 1, y 2, eq_ix3 y⟩
  rw [View.read_apply]
  refine ((outsAt_eq V c t.val t.isLt).1 r p g).trans ?_
  rw [tile_eq, ← G4_apply]
  show G4 V c _ = G4 V c _
  congr 1
  funext a
  apply Fin.ext
  match a with
  | ⟨0, _⟩ => show r.val = win0_4.index t 0 * 4 + 1 * r.val; rw [hi.1]; omega
  | ⟨1, _⟩ => show 2000 * t.val + p.val = win0_4.index t 1 * 2000 + 1 * p.val; rw [hi.2.1]; omega
  | ⟨2, _⟩ => show g.val = win0_4.index t 2 * 128 + 1 * g.val; rw [hi.2.2]; omega

/-- Node `n` lies in tile `n / 2000`, so the tiles cover output 4. -/
theorem cover4 (c : Dev nD) (i : ((cfg0.win 4).arr.view.loc ((c : Dev nD).tc : Thread nD τ)).2.ty.Idx) :
    ∃ t : Fin cfg0.N, (cfg0.win 4).flush t = true ∧ i ∈ ((cfg0.win 4).blk t).view.set := by
  have h0 : (i 0 : Nat) < 4 := (i 0).isLt
  have h1 : (i 1 : Nat) < 50000 := (i 1).isLt
  have h2 : (i 2 : Nat) < 128 := (i 2).isLt
  have hN : cfg0.N = 25 := N_0
  have ht : (i 1 : Nat) / 2000 < cfg0.N := by rw [hN]; omega
  refine ⟨⟨(i 1 : Nat) / 2000, ht⟩, flush0_4 _, ?_⟩
  have hi : ∀ t : Fin cfg0.N, win0_4.index t 0 = 0 ∧ win0_4.index t 1 = t.val ∧ win0_4.index t 2 = 0 :=
    (by decide +kernel : ∀ t : Fin grid0.N, win0_4.index t 0 = 0 ∧ win0_4.index t 1 = t.val ∧ win0_4.index t 2 = 0)
  show i ∈ ((View.whole main_v23_0).slice (win0_4.rect ⟨(i 1 : Nat) / 2000, ht⟩)).set
  rw [View.set_slice_whole, Rect.mem_set_unit]
  intro a
  match a with
  | ⟨0, _⟩ => show win0_4.index ⟨(i 1 : Nat) / 2000, ht⟩ 0 * 4 ≤ (i 0 : Nat) ∧ (i 0 : Nat) < win0_4.index ⟨(i 1 : Nat) / 2000, ht⟩ 0 * 4 + 4
              rw [(hi _).1]; omega
  | ⟨1, _⟩ => show win0_4.index ⟨(i 1 : Nat) / 2000, ht⟩ 1 * 2000 ≤ (i 1 : Nat) ∧ (i 1 : Nat) < win0_4.index ⟨(i 1 : Nat) / 2000, ht⟩ 1 * 2000 + 2000
              rw [(hi _).2.1]; dsimp only; omega
  | ⟨2, _⟩ => show win0_4.index ⟨(i 1 : Nat) / 2000, ht⟩ 2 * 128 ≤ (i 2 : Nat) ∧ (i 2 : Nat) < win0_4.index ⟨(i 1 : Nat) / 2000, ht⟩ 2 * 128 + 128
              rw [(hi _).2.2]; omega

/-- Only the last point writes output 5 back, and by then its accumulator holds the sum over all 25 tiles:
    the column sums over the 50000 nodes. -/
theorem flushed5 (c : Dev nD) (t : Fin cfg0.N) (hf : (cfg0.win 5).flush t = true) :
    (dat0 (F := Ideal) V c).flushed 5 t = ((cfg0.win 5).blk t).view.read (Elt Ideal) (G5 V c) := by
  have hN : cfg0.N = 25 := N_0
  have h24 : t.val = 24 := by have := (flush0_5 t).mp hf; have := t.isLt; omega
  have hi : win0_5.index t 0 = 0 ∧ win0_5.index t 1 = 0 ∧ win0_5.index t 2 = 0 :=
    (by decide +kernel : ∀ t : Fin grid0.N, win0_5.index t 0 = 0 ∧ win0_5.index t 1 = 0 ∧ win0_5.index t 2 = 0) t
  show (cfg0.win 5).cut (grid0.coords t) ((dat0 (F := Ideal) V c).after 5 t) = _
  rw [after0_5]
  funext y
  obtain ⟨r, z, g, rfl⟩ : ∃ (r : Fin 4) (z : Fin 1) (g : Fin 128), y = ix3 r z g := ⟨y 0, y 1, y 2, eq_ix3 y⟩
  obtain rfl : z = 0 := Subsingleton.elim _ _
  rw [View.read_apply]
  refine ((outsAt_eq V c t.val t.isLt).2.1 r g).trans ?_
  have hsum : ∑ s ∈ Finset.range (t.val + 1), colAdd V c r g s = Spec.colSum (hc V c) r g := by
    rw [h24]
    unfold colAdd Spec.colSum
    simp only [tile_eq]
    exact sum_nodes (fun n => hc V c r n g)
  rw [hsum, ← G5_apply V c r (0 : Fin 1) g, cast_eq]
  congr 1
  funext a
  apply Fin.ext
  match a with
  | ⟨0, _⟩ => show r.val = win0_5.index t 0 * 4 + 1 * r.val; rw [hi.1]; omega
  | ⟨1, _⟩ => show (0 : Fin 1).val = win0_5.index t 1 * 1 + 1 * (0 : Fin 1).val; rw [hi.2.1]; rfl
  | ⟨2, _⟩ => show g.val = win0_5.index t 2 * 128 + 1 * g.val; rw [hi.2.2]; omega

/-- The last point's block is the whole of output 5. -/
theorem cover5 (c : Dev nD) (i : ((cfg0.win 5).arr.view.loc ((c : Dev nD).tc : Thread nD τ)).2.ty.Idx) :
    ∃ t : Fin cfg0.N, (cfg0.win 5).flush t = true ∧ i ∈ ((cfg0.win 5).blk t).view.set := by
  have h0 : (i 0 : Nat) < 4 := (i 0).isLt
  have h1 : (i 1 : Nat) < 1 := (i 1).isLt
  have h2 : (i 2 : Nat) < 128 := (i 2).isLt
  refine ⟨tLast, (flush0_5 tLast).mpr rfl, ?_⟩
  have hi : win0_5.index tLast 0 = 0 ∧ win0_5.index tLast 1 = 0 ∧ win0_5.index tLast 2 = 0 :=
    (by decide +kernel : ∀ t : Fin grid0.N, win0_5.index t 0 = 0 ∧ win0_5.index t 1 = 0 ∧ win0_5.index t 2 = 0) tLast
  show i ∈ ((View.whole main_v23_1).slice (win0_5.rect tLast)).set
  rw [View.set_slice_whole, Rect.mem_set_unit]
  intro a
  match a with
  | ⟨0, _⟩ => show win0_5.index tLast 0 * 4 ≤ (i 0 : Nat) ∧ (i 0 : Nat) < win0_5.index tLast 0 * 4 + 4
              rw [hi.1]; omega
  | ⟨1, _⟩ => show win0_5.index tLast 1 * 1 ≤ (i 1 : Nat) ∧ (i 1 : Nat) < win0_5.index tLast 1 * 1 + 1
              rw [hi.2.1]; omega
  | ⟨2, _⟩ => show win0_5.index tLast 2 * 128 ≤ (i 2 : Nat) ∧ (i 2 : Nat) < win0_5.index tLast 2 * 128 + 128
              rw [hi.2.2]; omega

/-- Only the last point writes output 6 back, and by then its accumulator holds the sum over all 25 tiles:
    the column sums of squares over the 50000 nodes. -/
theorem flushed6 (c : Dev nD) (t : Fin cfg0.N) (hf : (cfg0.win 6).flush t = true) :
    (dat0 (F := Ideal) V c).flushed 6 t = ((cfg0.win 6).blk t).view.read (Elt Ideal) (G6 V c) := by
  have hN : cfg0.N = 25 := N_0
  have h24 : t.val = 24 := by have := (flush0_6 t).mp hf; have := t.isLt; omega
  have hi : win0_6.index t 0 = 0 ∧ win0_6.index t 1 = 0 ∧ win0_6.index t 2 = 0 :=
    (by decide +kernel : ∀ t : Fin grid0.N, win0_6.index t 0 = 0 ∧ win0_6.index t 1 = 0 ∧ win0_6.index t 2 = 0) t
  show (cfg0.win 6).cut (grid0.coords t) ((dat0 (F := Ideal) V c).after 6 t) = _
  rw [after0_6]
  funext y
  obtain ⟨r, z, g, rfl⟩ : ∃ (r : Fin 4) (z : Fin 1) (g : Fin 128), y = ix3 r z g := ⟨y 0, y 1, y 2, eq_ix3 y⟩
  obtain rfl : z = 0 := Subsingleton.elim _ _
  rw [View.read_apply]
  refine ((outsAt_eq V c t.val t.isLt).2.2 r g).trans ?_
  have hsum : ∑ s ∈ Finset.range (t.val + 1), sqAdd V c r g s = Spec.colSumSq (hc V c) r g := by
    rw [h24]
    unfold sqAdd Spec.colSumSq
    simp only [tile_eq]
    exact sum_nodes (fun n => hc V c r n g * hc V c r n g)
  rw [hsum, ← G6_apply V c r (0 : Fin 1) g, cast_eq]
  congr 1
  funext a
  apply Fin.ext
  match a with
  | ⟨0, _⟩ => show r.val = win0_6.index t 0 * 4 + 1 * r.val; rw [hi.1]; omega
  | ⟨1, _⟩ => show (0 : Fin 1).val = win0_6.index t 1 * 1 + 1 * (0 : Fin 1).val; rw [hi.2.1]; rfl
  | ⟨2, _⟩ => show g.val = win0_6.index t 2 * 128 + 1 * g.val; rw [hi.2.2]; omega

/-- The last point's block is the whole of output 6. -/
theorem cover6 (c : Dev nD) (i : ((cfg0.win 6).arr.view.loc ((c : Dev nD).tc : Thread nD τ)).2.ty.Idx) :
    ∃ t : Fin cfg0.N, (cfg0.win 6).flush t = true ∧ i ∈ ((cfg0.win 6).blk t).view.set := by
  have h0 : (i 0 : Nat) < 4 := (i 0).isLt
  have h1 : (i 1 : Nat) < 1 := (i 1).isLt
  have h2 : (i 2 : Nat) < 128 := (i 2).isLt
  refine ⟨tLast, (flush0_6 tLast).mpr rfl, ?_⟩
  have hi : win0_6.index tLast 0 = 0 ∧ win0_6.index tLast 1 = 0 ∧ win0_6.index tLast 2 = 0 :=
    (by decide +kernel : ∀ t : Fin grid0.N, win0_6.index t 0 = 0 ∧ win0_6.index t 1 = 0 ∧ win0_6.index t 2 = 0) tLast
  show i ∈ ((View.whole main_v23_2).slice (win0_6.rect tLast)).set
  rw [View.set_slice_whole, Rect.mem_set_unit]
  intro a
  match a with
  | ⟨0, _⟩ => show win0_6.index tLast 0 * 4 ≤ (i 0 : Nat) ∧ (i 0 : Nat) < win0_6.index tLast 0 * 4 + 4
              rw [hi.1]; omega
  | ⟨1, _⟩ => show win0_6.index tLast 1 * 1 ≤ (i 1 : Nat) ∧ (i 1 : Nat) < win0_6.index tLast 1 * 1 + 1
              rw [hi.2.1]; omega
  | ⟨2, _⟩ => show win0_6.index tLast 2 * 128 ≤ (i 2 : Nat) ∧ (i 2 : Nat) < win0_6.index tLast 2 * 128 + 128
              rw [hi.2.2]; omega

end Whole

/-- After the region, output 4 holds the first linear map at every node. -/
theorem arr4 (c : Dev nD) : (dat0 (F := Ideal) V c).arrAt 4 cfg0.N
    = (fun i => hc V c (i 0) (i 1) (i 2) : Buf (Elt Ideal) ((c : Thread nD τ).loc main_v23_0)) :=
  (dat0 (F := Ideal) V c).arrAt_eq_of_cover 4 (Whole.G4 V c) (Whole.flushed4 V c) (Whole.cover4 c)

/-- After the region, output 5 holds its column sums over all nodes. -/
theorem arr5 (c : Dev nD) : (dat0 (F := Ideal) V c).arrAt 5 cfg0.N
    = (fun i => Spec.colSum (hc V c) (i 0) (i 2) : Buf (Elt Ideal) ((c : Thread nD τ).loc main_v23_1)) :=
  (dat0 (F := Ideal) V c).arrAt_eq_of_cover 5 (Whole.G5 V c) (Whole.flushed5 V c) (Whole.cover5 c)

/-- After the region, output 6 holds the column sums of its squares. -/
theorem arr6 (c : Dev nD) : (dat0 (F := Ideal) V c).arrAt 6 cfg0.N
    = (fun i => Spec.colSumSq (hc V c) (i 0) (i 2) : Buf (Elt Ideal) ((c : Thread nD τ).loc main_v23_2)) :=
  (dat0 (F := Ideal) V c).arrAt_eq_of_cover 6 (Whole.G6 V c) (Whole.flushed6 V c) (Whole.cover6 c)

end Cert.KernelIdeal.R0

end
-- ==== Proof.R1Value.lean ====
import proofs.«112356_j6932077216184_1_alg».proof.Proof.Gen.KernelIdeal.Frame
import proofs.«112356_j6932077216184_1_alg».proof.Proof.Spec
import proofs.«112356_j6932077216184_1_alg».proof.Proof.TileOps
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)
open Idealize.ShloMosaic.ValueIdx
open scoped BigOperators

namespace Cert.KernelIdeal.R1

open Cert.KernelIdeal Cert.KernelIdeal.Gen

/-! # Region 1: its output array as a function of the arrays it is entered with

25 tiles of 2000 nodes, each point independent: normalise the stored first-layer values with the given statistics,
scale, shift, clamp, apply the second linear map per relation, and add the four results in order onto the self term. -/

variable (V : (c : Dev nD) → (b : Ref sig .tc) → Buf (Elt Ideal) ((c : Thread nD τ).loc b))

/-- The arrays region 1 reads, by coordinates. -/
def xc (c : Dev nD) : Spec.Mat 50000 128 := fun n f => V c main_arg0 (ix2 n f)
def h1c (c : Dev nD) : Spec.Cube 4 50000 128 := fun r n g => V c main_v23_0 (ix3 r n g)
def muc (c : Dev nD) : Spec.Mat 4 128 := fun r g => V c main_v25 (ix3 r (0 : Fin 1) g)
def varc (c : Dev nD) : Spec.Mat 4 128 := fun r g => V c main_v29 (ix3 r (0 : Fin 1) g)
def gammac (c : Dev nD) : Spec.Mat 4 128 := fun r g => V c main_v19 (ix3 r (0 : Fin 1) g)
def betac (c : Dev nD) : Spec.Mat 4 128 := fun r g => V c main_v20 (ix3 r (0 : Fin 1) g)
def w2c (c : Dev nD) : Spec.Cube 4 128 128 := fun r g k => V c main_arg9 (ix3 r g k)
def b2c (c : Dev nD) : Spec.Mat 4 128 := fun r k => V c main_v21 (ix3 r (0 : Fin 1) k)
def wsc (c : Dev nD) : Spec.Mat 128 128 := fun f k => V c main_arg3 (ix2 f k)
def bsc (c : Dev nD) : Fin 128 → EReal := fun k => V c main_v22 (ix2 (0 : Fin 1) k)

/-! ## The body's arithmetic at an entry -/

/-- The self term: the tile of x through its own linear map, plus the bias row. -/
theorem self_apply (x : Vec Ideal S2000x128 .f32) (ws : Vec Ideal S128x128 .f32) (bs : Vec Ideal S1x128 .f32)
    (p : Fin 2000) (k : Fin 128) :
    k1_pay2 (F := Ideal) x ws bs (ix2 p k) = (∑ f : Fin 128, x (ix2 p f) * ws (ix2 f k)) + bs (ix2 (0 : Fin 1) k) := by
  unfold k1_pay2
  rw [addf_apply, prod_apply, spread_apply, shapeCast_self]
  rfl

/-- One relation's term from stacked arrays of any height m over any number N of nodes: normalise the first-layer
    value of node n with the relation's statistics, scale, shift, clamp at zero, apply the relation's second linear
    map and add its bias. -/
def relTerm {m N : Nat} (h : (⟨3, ![m, N, 128]⟩ : Shape).Idx → EReal) (mu var ga be : (⟨3, ![m, 1, 128]⟩ : Shape).Idx → EReal)
    (w : (⟨3, ![m, 128, 128]⟩ : Shape).Idx → EReal) (b : (⟨3, ![m, 1, 128]⟩ : Shape).Idx → EReal)
    (r : Fin m) (n : Fin N) (k : Fin 128) : EReal :=
  (∑ g : Fin 128, max (((h (ix3 r n g) - mu (ix3 r (0 : Fin 1) g)) * Ideal.rsqrt (var (ix3 r (0 : Fin 1) g) + Spec.epsWord))
      * ga (ix3 r (0 : Fin 1) g) + be (ix3 r (0 : Fin 1) g)) 0 * w (ix3 r g k)) + b (ix3 r (0 : Fin 1) k)

/-- The same arithmetic as the body spells it over a tile and rows, added onto an accumulator. -/
theorem branch_apply (acc h : FVec Ideal S2000x128 .f32) (mu var ga be b : FVec Ideal S1x128 .f32)
    (w : FVec Ideal S128x128 .f32) (p : Fin 2000) (k : Fin 128) :
    addf acc (addf (matmul dot_S2000x128_S128x128_S2000x128_1_0_0_1_n_n none
        (truncf .bf16 (maximumf (addf (mulf (mulf (subf h (broadcastTo S2000x128 mu broadcasts_S1x128_S2000x128))
              (broadcastTo S2000x128 (rsqrt (addf var (broadcast S1x128 (Scalar.ofBits .f32 0x3727C5AC#32)))) broadcasts_S1x128_S2000x128))
              (broadcastTo S2000x128 ga broadcasts_S1x128_S2000x128)) (broadcastTo S2000x128 be broadcasts_S1x128_S2000x128))
            (broadcast S2000x128 (Scalar.ofBits .f32 0x00000000#32))) bitsLt_bf16_f32)
        (truncf .bf16 w bitsLt_bf16_f32) (constant (F := Ideal) S2000x128 .f32 0x00000000#32))
      (broadcastTo S2000x128 b broadcasts_S1x128_S2000x128)) (ix2 p k)
    = acc (ix2 p k) + ((∑ g : Fin 128, max (((h (ix2 p g) - mu (ix2 (0 : Fin 1) g)) * Ideal.rsqrt (var (ix2 (0 : Fin 1) g) + Spec.epsWord))
        * ga (ix2 (0 : Fin 1) g) + be (ix2 (0 : Fin 1) g)) 0 * w (ix2 g k)) + b (ix2 (0 : Fin 1) k)) := by
  rw [addf_apply, addf_apply, prod_apply, spread_apply]
  refine congrArg (fun s => acc (ix2 p k) + (s + b (ix2 (0 : Fin 1) k))) (Finset.sum_congr rfl fun g _ => ?_)
  rw [truncf_apply, truncf_apply, maximumf_apply, addf_apply, mulf_apply, mulf_apply, subf_apply,
    spread_apply, spread_apply, spread_apply, spread_apply, broadcast_apply]
  show max (((h (ix2 p g) - mu (ix2 (0 : Fin 1) g)) * Ideal.rsqrt (var (ix2 (0 : Fin 1) g) + Spec.epsWord))
        * ga (ix2 (0 : Fin 1) g) + be (ix2 (0 : Fin 1) g)) (Ideal.ofBits .f32 0x00000000#32) * w (ix2 g k) = _
  rw [Ideal.ofBits_zero_f32]

/-- The first relation: the accumulated value after it. -/
theorem first_apply (acc : FVec Ideal S2000x128 .f32) (h : Vec Ideal S1x2000x128 .f32) (mu var ga be : Vec Ideal S1x1x128 .f32)
    (w : Vec Ideal S1x128x128 .f32) (b : Vec Ideal S1x1x128 .f32) (p : Fin 2000) (k : Fin 128) :
    k1_pay8 acc (k1_pay3 ga) (k1_pay4 be) (k1_pay5 w) (k1_pay6 b) (k1_pay7 h mu var) (ix2 p k)
      = acc (ix2 p k) + relTerm (m := 1) h mu var ga be w b 0 p k := by
  unfold k1_pay8 k1_pay3 k1_pay4 k1_pay5 k1_pay6 k1_pay7
  rw [branch_apply]
  simp only [tile_apply, row_apply, mat_apply]
  rfl

/-- The second relation. -/
theorem second_apply (acc : FVec Ideal S2000x128 .f32) (h : Vec Ideal S1x2000x128 .f32) (mu var ga be : Vec Ideal S1x1x128 .f32)
    (w : Vec Ideal S1x128x128 .f32) (b : Vec Ideal S1x1x128 .f32) (p : Fin 2000) (k : Fin 128) :
    k1_pay13 acc (k1_pay9 w) (k1_pay10 b) (k1_pay11 h mu var ga) (k1_pay12 be) (ix2 p k)
      = acc (ix2 p k) + relTerm (m := 1) h mu var ga be w b 0 p k := by
  unfold k1_pay13 k1_pay9 k1_pay10 k1_pay11 k1_pay12
  rw [branch_apply]
  simp only [tile_apply, row_apply, mat_apply]
  rfl

/-- The third relation. -/
theorem third_apply (acc : FVec Ideal S2000x128 .f32) (h : Vec Ideal S1x2000x128 .f32) (mu var ga be : Vec Ideal S1x1x128 .f32)
    (w : Vec Ideal S1x128x128 .f32) (b : Vec Ideal S1x1x128 .f32) (p : Fin 2000) (k : Fin 128) :
    k1_pay18 acc (k1_pay14 w) (k1_pay15 b) (k1_pay16 h mu var ga be) (k1_pay17 (F := Ideal)) (ix2 p k)
      = acc (ix2 p k) + relTerm (m := 1) h mu var ga be w b 0 p k := by
  unfold k1_pay18 k1_pay14 k1_pay15 k1_pay16 k1_pay17
  rw [branch_apply]
  simp only [tile_apply, row_apply, mat_apply]
  rfl

/-- The fourth relation: the value the body stores. -/
theorem fourth_apply (acc : FVec Ideal S2000x128 .f32) (h : Vec Ideal S1x2000x128 .f32) (mu var ga be : Vec Ideal S1x1x128 .f32)
    (w : Vec Ideal S1x128x128 .f32) (b : Vec Ideal S1x1x128 .f32) (p : Fin 2000) (k : Fin 128) :
    k1_pay1 acc (k1_pay19 b) (k1_pay20 h mu var ga be) (k1_pay21 w) (ix2 p k)
      = acc (ix2 p k) + relTerm (m := 1) h mu var ga be w b 0 p k := by
  unfold k1_pay1 k1_pay19 k1_pay20 k1_pay21
  rw [branch_apply]
  simp only [tile_apply, row_apply, mat_apply]
  rfl

/-- A relation's term over its slabs of the stacked blocks is its term over the stacks themselves. -/
theorem relTerm_slab (x1 : Vec Ideal S4x2000x128 .f32) (x2 x3 x4 x5 : Vec Ideal S4x1x128 .f32) (x6 : Vec Ideal S4x128x128 .f32)
    (x7 : Vec Ideal S4x1x128 .f32) (r : Fin 4) (off : Fin 3 → Nat) (h0 : off 0 = r.val) (h1 : off 1 = 0) (h2 : off 2 = 0)
    (ih : ∀ a, off a + S1x2000x128.size a ≤ S4x2000x128.size a) (it : ∀ a, off a + S1x1x128.size a ≤ S4x1x128.size a)
    (iw : ∀ a, off a + S1x128x128.size a ≤ S4x128x128.size a) (p : Fin 2000) (k : Fin 128) :
    relTerm (m := 1) (View.ld x1 (Rect.unit (s := S4x2000x128) off S1x2000x128.size ih))
      (View.ld x2 (Rect.unit (s := S4x1x128) off S1x1x128.size it)) (View.ld x3 (Rect.unit (s := S4x1x128) off S1x1x128.size it))
      (View.ld x4 (Rect.unit (s := S4x1x128) off S1x1x128.size it)) (View.ld x5 (Rect.unit (s := S4x1x128) off S1x1x128.size it))
      (View.ld x6 (Rect.unit (s := S4x128x128) off S1x128x128.size iw)) (View.ld x7 (Rect.unit (s := S4x1x128) off S1x1x128.size it)) 0 p k
    = relTerm (m := 4) x1 x2 x3 x4 x5 x6 x7 r p k := by
  unfold relTerm
  rw [slab_apply x7 off it r h0 h1 h2 0 0 k]
  refine congrArg (· + x7 (ix3 r (0 : Fin 1) k)) (Finset.sum_congr rfl fun g _ => ?_)
  rw [slab_apply x1 off ih r h0 h1 h2 0 p g, slab_apply x2 off it r h0 h1 h2 0 0 g, slab_apply x3 off it r h0 h1 h2 0 0 g,
    slab_apply x4 off it r h0 h1 h2 0 0 g, slab_apply x5 off it r h0 h1 h2 0 0 g, slab_apply x6 off iw r h0 h1 h2 0 g k]

/-! ## What the body stores, at an entry of the tile -/

theorem origin2 : (![0, 0] : Fin 2 → Nat) = fun _ => 0 := funext fun a => by fin_cases a <;> rfl

/-- The body's one store, at node p of the tile and output feature k: the self term, then the four relations' terms
    added in order. -/
theorem out_apply (x0 : Vec Ideal S2000x128 .f32) (x1 : Vec Ideal S4x2000x128 .f32) (x2 x3 x4 x5 : Vec Ideal S4x1x128 .f32)
    (x6 : Vec Ideal S4x128x128 .f32) (x7 : Vec Ideal S4x1x128 .f32) (x8 : Vec Ideal S128x128 .f32) (x9 : Vec Ideal S1x128 .f32)
    (p : Fin 2000) (k : Fin 128) :
    out1_10 x0 x1 x2 x3 x4 x5 x6 x7 x8 x9 (ix2 p k)
      = (((((∑ f : Fin 128, x0 (ix2 p f) * x8 (ix2 f k)) + x9 (ix2 (0 : Fin 1) k))
          + relTerm (m := 4) x1 x2 x3 x4 x5 x6 x7 0 p k) + relTerm (m := 4) x1 x2 x3 x4 x5 x6 x7 1 p k)
          + relTerm (m := 4) x1 x2 x3 x4 x5 x6 x7 2 p k) + relTerm (m := 4) x1 x2 x3 x4 x5 x6 x7 3 p k := by
  unfold out1_10
  rw [View.canon_unit_zero origin2]
  rw [fourth_apply, third_apply, second_apply, first_apply, self_apply]
  rw [View.ld_unit_zero (S := S2000x128) origin2, View.ld_unit_zero (S := S128x128) origin2, View.ld_unit_zero (S := S1x128) origin2]
  rw [relTerm_slab x1 x2 x3 x4 x5 x6 x7 0 ![0, 0, 0] rfl rfl rfl, relTerm_slab x1 x2 x3 x4 x5 x6 x7 1 ![1, 0, 0] rfl rfl rfl,
    relTerm_slab x1 x2 x3 x4 x5 x6 x7 2 ![2, 0, 0] rfl rfl rfl, relTerm_slab x1 x2 x3 x4 x5 x6 x7 3 ![3, 0, 0] rfl rfl rfl]

/-! ## The blocks the body is handed, read off the arrays

Point t handles nodes 2000·t … 2000·t + 1999: the tiles of x and of the stacked first-layer values (and the output
tile) sit at block index t along the node axis; every other window is its whole array at every point. -/

/-- Where the moving windows sit at point t. -/
theorem moving_index : ∀ t : Fin cfg1.N,
    win1_0.index t (0 : Fin 2) = t.val ∧ win1_0.index t (1 : Fin 2) = 0
    ∧ win1_1.index t (0 : Fin 3) = 0 ∧ win1_1.index t (1 : Fin 3) = t.val ∧ win1_1.index t (2 : Fin 3) = 0
    ∧ win1_10.index t (0 : Fin 2) = t.val ∧ win1_10.index t (1 : Fin 2) = 0 :=
  (by decide +kernel : ∀ t : Fin grid1.N, _)

/-- The windows that stay: block index zero on every axis. -/
theorem resting_index : ∀ t : Fin cfg1.N,
    (win1_2.index t (0 : Fin 3) = 0 ∧ win1_2.index t (1 : Fin 3) = 0 ∧ win1_2.index t (2 : Fin 3) = 0)
    ∧ (win1_3.index t (0 : Fin 3) = 0 ∧ win1_3.index t (1 : Fin 3) = 0 ∧ win1_3.index t (2 : Fin 3) = 0)
    ∧ (win1_4.index t (0 : Fin 3) = 0 ∧ win1_4.index t (1 : Fin 3) = 0 ∧ win1_4.index t (2 : Fin 3) = 0)
    ∧ (win1_5.index t (0 : Fin 3) = 0 ∧ win1_5.index t (1 : Fin 3) = 0 ∧ win1_5.index t (2 : Fin 3) = 0)
    ∧ (win1_6.index t (0 : Fin 3) = 0 ∧ win1_6.index t (1 : Fin 3) = 0 ∧ win1_6.index t (2 : Fin 3) = 0)
    ∧ (win1_7.index t (0 : Fin 3) = 0 ∧ win1_7.index t (1 : Fin 3) = 0 ∧ win1_7.index t (2 : Fin 3) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- The tile of x at point t holds rows 2000·t … of x. -/
theorem x_block (c : Dev nD) (t : Fin cfg1.N) (p : Fin 2000) (f : Fin 128) (n : Fin 50000) (hn : n.val = 2000 * t.val + p.val) :
    iblk1 V c 0 t (ix2 p f) = V c main_arg0 (ix2 n f) := by
  obtain ⟨e0, e1, -⟩ := moving_index t
  unfold iblk1
  rw [View.read_apply]
  show V c main_arg0 _ = V c main_arg0 _
  refine congrArg (V c main_arg0) (funext fun a => Fin.ext ?_)
  match a with
  | ⟨0, _⟩ => show win1_0.index t (0 : Fin 2) * 2000 + 1 * p.val = n.val; rw [e0, hn]; omega
  | ⟨1, _⟩ => show win1_0.index t (1 : Fin 2) * 128 + 1 * f.val = f.val; rw [e1]; omega

/-- The tile of the stacked first-layer values at point t holds, for every relation, rows 2000·t … of it. -/
theorem h_block (c : Dev nD) (t : Fin cfg1.N) (r : Fin 4) (p : Fin 2000) (g : Fin 128) (n : Fin 50000)
    (hn : n.val = 2000 * t.val + p.val) : iblk1 V c 1 t (ix3 r p g) = V c main_v23_0 (ix3 r n g) := by
  obtain ⟨-, -, e0, e1, e2, -⟩ := moving_index t
  unfold iblk1
  rw [View.read_apply]
  show V c main_v23_0 _ = V c main_v23_0 _
  refine congrArg (V c main_v23_0) (funext fun a => Fin.ext ?_)
  match a with
  | ⟨0, _⟩ => show win1_1.index t (0 : Fin 3) * 4 + 1 * r.val = r.val; rw [e0]; omega
  | ⟨1, _⟩ => show win1_1.index t (1 : Fin 3) * 2000 + 1 * p.val = n.val; rw [e1, hn]; omega
  | ⟨2, _⟩ => show win1_1.index t (2 : Fin 3) * 128 + 1 * g.val = g.val; rw [e2]; omega

/-- The means' window is the whole array. -/
theorem mu_block (c : Dev nD) (t : Fin cfg1.N) (r : Fin 4) (u : Fin 1) (g : Fin 128) :
    iblk1 V c 2 t (ix3 r u g) = V c main_v25 (ix3 r u g) := by
  obtain ⟨⟨e0, e1, e2⟩, -⟩ := resting_index t
  unfold iblk1
  rw [View.read_apply]
  show V c main_v25 _ = V c main_v25 _
  refine congrArg (V c main_v25) (funext fun a => Fin.ext ?_)
  match a with
  | ⟨0, _⟩ => show win1_2.index t (0 : Fin 3) * 4 + 1 * r.val = r.val; rw [e0]; omega
  | ⟨1, _⟩ => show win1_2.index t (1 : Fin 3) * 1 + 1 * u.val = u.val; rw [e1]; omega
  | ⟨2, _⟩ => show win1_2.index t (2 : Fin 3) * 128 + 1 * g.val = g.val; rw [e2]; omega

/-- The variances' window is the whole array. -/
theorem var_block (c : Dev nD) (t : Fin cfg1.N) (r : Fin 4) (u : Fin 1) (g : Fin 128) :
    iblk1 V c 3 t (ix3 r u g) = V c main_v29 (ix3 r u g) := by
  obtain ⟨-, ⟨e0, e1, e2⟩, -⟩ := resting_index t
  unfold iblk1
  rw [View.read_apply]
  show V c main_v29 _ = V c main_v29 _
  refine congrArg (V c main_v29) (funext fun a => Fin.ext ?_)
  match a with
  | ⟨0, _⟩ => show win1_3.index t (0 : Fin 3) * 4 + 1 * r.val = r.val; rw [e0]; omega
  | ⟨1, _⟩ => show win1_3.index t (1 : Fin 3) * 1 + 1 * u.val = u.val; rw [e1]; omega
  | ⟨2, _⟩ => show win1_3.index t (2 : Fin 3) * 128 + 1 * g.val = g.val; rw [e2]; omega

/-- The scales' window is the whole array. -/
theorem gamma_block (c : Dev nD) (t : Fin cfg1.N) (r : Fin 4) (u : Fin 1) (g : Fin 128) :
    iblk1 V c 4 t (ix3 r u g) = V c main_v19 (ix3 r u g) := by
  obtain ⟨-, -, ⟨e0, e1, e2⟩, -⟩ := resting_index t
  unfold iblk1
  rw [View.read_apply]
  show V c main_v19 _ = V c main_v19 _
  refine congrArg (V c main_v19) (funext fun a => Fin.ext ?_)
  match a with
  | ⟨0, _⟩ => show win1_4.index t (0 : Fin 3) * 4 + 1 * r.val = r.val; rw [e0]; omega
  | ⟨1, _⟩ => show win1_4.index t (1 : Fin 3) * 1 + 1 * u.val = u.val; rw [e1]; omega
  | ⟨2, _⟩ => show win1_4.index t (2 : Fin 3) * 128 + 1 * g.val = g.val; rw [e2]; omega

/-- The shifts' window is the whole array. -/
theorem beta_block (c : Dev nD) (t : Fin cfg1.N) (r : Fin 4) (u : Fin 1) (g : Fin 128) :
    iblk1 V c 5 t (ix3 r u g) = V c main_v20 (ix3 r u g) := by
  obtain ⟨-, -, -, ⟨e0, e1, e2⟩, -⟩ := resting_index t
  unfold iblk1
  rw [View.read_apply]
  show V c main_v20 _ = V c main_v20 _
  refine congrArg (V c main_v20) (funext fun a => Fin.ext ?_)
  match a with
  | ⟨0, _⟩ => show win1_5.index t (0 : Fin 3) * 4 + 1 * r.val = r.val; rw [e0]; omega
  | ⟨1, _⟩ => show win1_5.index t (1 : Fin 3) * 1 + 1 * u.val = u.val; rw [e1]; omega
  | ⟨2, _⟩ => show win1_5.index t (2 : Fin 3) * 128 + 1 * g.val = g.val; rw [e2]; omega

/-- The second-layer weights' window is the whole array. -/
theorem w2_block (c : Dev nD) (t : Fin cfg1.N) (r : Fin 4) (g k : Fin 128) :
    iblk1 V c 6 t (ix3 r g k) = V c main_arg9 (ix3 r g k) := by
  obtain ⟨-, -, -, -, ⟨e0, e1, e2⟩, -⟩ := resting_index t
  unfold iblk1
  rw [View.read_apply]
  show V c main_arg9 _ = V c main_arg9 _
  refine congrArg (V c main_arg9) (funext fun a => Fin.ext ?_)
  match a with
  | ⟨0, _⟩ => show win1_6.index t (0 : Fin 3) * 4 + 1 * r.val = r.val; rw [e0]; omega
  | ⟨1, _⟩ => show win1_6.index t (1 : Fin 3) * 128 + 1 * g.val = g.val; rw [e1]; omega
  | ⟨2, _⟩ => show win1_6.index t (2 : Fin 3) * 128 + 1 * k.val = k.val; rw [e2]; omega

/-- The second-layer biases' window is the whole array. -/
theorem b2_block (c : Dev nD) (t : Fin cfg1.N) (r : Fin 4) (u : Fin 1) (k : Fin 128) :
    iblk1 V c 7 t (ix3 r u k) = V c main_v21 (ix3 r u k) := by
  obtain ⟨-, -, -, -, -, ⟨e0, e1, e2⟩, -⟩ := resting_index t
  unfold iblk1
  rw [View.read_apply]
  show V c main_v21 _ = V c main_v21 _
  refine congrArg (V c main_v21) (funext fun a => Fin.ext ?_)
  match a with
  | ⟨0, _⟩ => show win1_7.index t (0 : Fin 3) * 4 + 1 * r.val = r.val; rw [e0]; omega
  | ⟨1, _⟩ => show win1_7.index t (1 : Fin 3) * 1 + 1 * u.val = u.val; rw [e1]; omega
  | ⟨2, _⟩ => show win1_7.index t (2 : Fin 3) * 128 + 1 * k.val = k.val; rw [e2]; omega

/-- The self weights' window is the whole array. -/
theorem ws_block (c : Dev nD) (t : Fin cfg1.N) (f k : Fin 128) :
    iblk1 V c 8 t (ix2 f k) = V c main_arg3 (ix2 f k) := by
  obtain ⟨-, -, -, -, -, -, ⟨e0, e1⟩, -⟩ := resting_index t
  unfold iblk1
  rw [View.read_apply]
  show V c main_arg3 _ = V c main_arg3 _
  refine congrArg (V c main_arg3) (funext fun a => Fin.ext ?_)
  match a with
  | ⟨0, _⟩ => show win1_8.index t (0 : Fin 2) * 128 + 1 * f.val = f.val; rw [e0]; omega
  | ⟨1, _⟩ => show win1_8.index t (1 : Fin 2) * 128 + 1 * k.val = k.val; rw [e1]; omega

/-- The self bias' window is the whole array. -/
theorem bs_block (c : Dev nD) (t : Fin cfg1.N) (u : Fin 1) (k : Fin 128) :
    iblk1 V c 9 t (ix2 u k) = V c main_v22 (ix2 u k) := by
  obtain ⟨-, -, -, -, -, -, -, e0, e1⟩ := resting_index t
  unfold iblk1
  rw [View.read_apply]
  show V c main_v22 _ = V c main_v22 _
  refine congrArg (V c main_v22) (funext fun a => Fin.ext ?_)
  match a with
  | ⟨0, _⟩ => show win1_9.index t (0 : Fin 2) * 1 + 1 * u.val = u.val; rw [e0]; omega
  | ⟨1, _⟩ => show win1_9.index t (1 : Fin 2) * 128 + 1 * k.val = k.val; rw [e1]; omega

/-- A relation's term over the blocks of point t, at node p of the tile, is its term over the arrays at node
    2000·t + p. -/
theorem rel_block (c : Dev nD) (t : Fin cfg1.N) (r : Fin 4) (p : Fin 2000) (k : Fin 128) (n : Fin 50000)
    (hn : n.val = 2000 * t.val + p.val) :
    relTerm (m := 4) (iblk1 V c 1 t) (iblk1 V c 2 t) (iblk1 V c 3 t) (iblk1 V c 4 t) (iblk1 V c 5 t) (iblk1 V c 6 t)
        (iblk1 V c 7 t) r p k
      = Spec.branch (h1c V c) (muc V c) (varc V c) (gammac V c) (betac V c) (w2c V c) (b2c V c) r n k := by
  unfold relTerm Spec.branch h1c muc varc gammac betac w2c b2c
  rw [b2_block V c t r 0 k]
  refine congrArg (· + V c main_v21 (ix3 r (0 : Fin 1) k)) (Finset.sum_congr rfl fun g _ => ?_)
  rw [h_block V c t r p g n hn, mu_block V c t r 0 g, var_block V c t r 0 g, gamma_block V c t r 0 g,
    beta_block V c t r 0 g, w2_block V c t r g k]

/-- The self term over a tile of x, the self weights and the self bias row. -/
def selfTerm (x : Vec Ideal S2000x128 .f32) (ws : Vec Ideal S128x128 .f32) (bs : Vec Ideal S1x128 .f32) (p : Fin 2000)
    (k : Fin 128) : EReal := (∑ f : Fin 128, x (ix2 p f) * ws (ix2 f k)) + bs (ix2 (0 : Fin 1) k)

/-- The self term over the blocks of point t is the self term over the arrays at node 2000·t + p. -/
theorem self_block (c : Dev nD) (t : Fin cfg1.N) (p : Fin 2000) (k : Fin 128) (n : Fin 50000)
    (hn : n.val = 2000 * t.val + p.val) :
    selfTerm (iblk1 V c 0 t) (iblk1 V c 8 t) (iblk1 V c 9 t) p k = Spec.selfLin (xc V c) (wsc V c) (bsc V c) n k := by
  unfold selfTerm Spec.selfLin xc wsc bsc
  rw [bs_block V c t 0 k]
  refine congrArg (· + V c main_v22 (ix2 (0 : Fin 1) k)) (Finset.sum_congr rfl fun f _ => ?_)
  rw [x_block V c t p f n hn, ws_block V c t f k]

/-! ## From the tiles to the array

Point t stores the tile of nodes 2000·t … 2000·t + 1999 and every point writes its tile back, so the 25 tiles cover
the output. -/

/-- The target, as contents of the output array. -/
def G10 (c : Dev nD) : Buf (Elt Ideal) ((c : Thread nD τ).loc main_v30) :=
  fun i => Spec.outChain (xc V c) (h1c V c) (muc V c) (varc V c) (gammac V c) (betac V c) (w2c V c) (b2c V c)
    (wsc V c) (bsc V c) (i 0) (i 1)

theorem G10_apply (c : Dev nD) (n : Fin 50000) (k : Fin 128) :
    G10 V c (ix2 n k) = Spec.outChain (xc V c) (h1c V c) (muc V c) (varc V c) (gammac V c) (betac V c) (w2c V c)
      (b2c V c) (wsc V c) (bsc V c) n k := rfl

/-- Row p of tile t is node 2000·t + p. -/
theorem node_lt (t : Fin cfg1.N) (p : Fin 2000) : 2000 * t.val + p.val < 50000 := by
  have h1 : t.val < 25 := lt_of_lt_of_eq t.isLt (show cfg1.N = 25 from N_1)
  have h2 := p.isLt
  omega

abbrev node (t : Fin cfg1.N) (p : Fin 2000) : Fin 50000 := ⟨2000 * t.val + p.val, node_lt t p⟩

/-- Every point writes its tile of the output back: tile t of the chained sum. -/
theorem flushed10 (c : Dev nD) (t : Fin cfg1.N) (hf : (cfg1.win 10).flush t = true) :
    (dat1 (F := Ideal) V c).flushed 10 t = ((cfg1.win 10).blk t).view.read (Elt Ideal) (G10 V c) := by
  obtain ⟨-, -, -, -, -, e0, e1⟩ := moving_index t
  show (cfg1.win 10).cut (grid1.coords t) ((dat1 (F := Ideal) V c).after 10 t) = _
  rw [after1_10]
  funext y
  obtain ⟨p, k, rfl⟩ : ∃ (p : Fin 2000) (k : Fin 128), y = ix2 p k := ⟨y 0, y 1, eq_ix2 y⟩
  rw [View.read_apply]
  refine (out_apply _ _ _ _ _ _ _ _ _ _ p k).trans ?_
  have hs := self_block V c t p k (node t p) rfl
  unfold selfTerm at hs
  rw [hs, rel_block V c t 0 p k (node t p) rfl, rel_block V c t 1 p k (node t p) rfl,
    rel_block V c t 2 p k (node t p) rfl, rel_block V c t 3 p k (node t p) rfl]
  refine (G10_apply V c (node t p) k).symm.trans ?_
  show G10 V c _ = G10 V c _
  congr 1
  funext a
  apply Fin.ext
  match a with
  | ⟨0, _⟩ => show 2000 * t.val + p.val = win1_10.index t (0 : Fin 2) * 2000 + 1 * p.val; rw [e0]; omega
  | ⟨1, _⟩ => show k.val = win1_10.index t (1 : Fin 2) * 128 + 1 * k.val; rw [e1]; omega

/-- Node n lies in tile n / 2000, so the tiles cover the output. -/
theorem cover10 (c : Dev nD) (i : ((cfg1.win 10).arr.view.loc ((c : Dev nD).tc : Thread nD τ)).2.ty.Idx) :
    ∃ t : Fin cfg1.N, (cfg1.win 10).flush t = true ∧ i ∈ ((cfg1.win 10).blk t).view.set := by
  have h0 : (i 0 : Nat) < 50000 := (i 0).isLt
  have h1 : (i 1 : Nat) < 128 := (i 1).isLt
  have hN : cfg1.N = 25 := N_1
  have ht : (i 0 : Nat) / 2000 < cfg1.N := by rw [hN]; omega
  refine ⟨⟨(i 0 : Nat) / 2000, ht⟩, flush1_10 _, ?_⟩
  obtain ⟨-, -, -, -, -, e0, e1⟩ := moving_index ⟨(i 0 : Nat) / 2000, ht⟩
  show i ∈ ((View.whole main_v30).slice (win1_10.rect ⟨(i 0 : Nat) / 2000, ht⟩)).set
  rw [View.set_slice_whole, Rect.mem_set_unit]
  intro a
  match a with
  | ⟨0, _⟩ => show win1_10.index ⟨(i 0 : Nat) / 2000, ht⟩ (0 : Fin 2) * 2000 ≤ (i 0 : Nat)
                ∧ (i 0 : Nat) < win1_10.index ⟨(i 0 : Nat) / 2000, ht⟩ (0 : Fin 2) * 2000 + 2000
              rw [e0]; dsimp only; omega
  | ⟨1, _⟩ => show win1_10.index ⟨(i 0 : Nat) / 2000, ht⟩ (1 : Fin 2) * 128 ≤ (i 1 : Nat)
                ∧ (i 1 : Nat) < win1_10.index ⟨(i 0 : Nat) / 2000, ht⟩ (1 : Fin 2) * 128 + 128
              rw [e1]; omega

/-- After the region, its output holds the chained sum at every node. -/
theorem arr10 (c : Dev nD) : (dat1 (F := Ideal) V c).arrAt 10 cfg1.N
    = (fun i => Spec.outChain (xc V c) (h1c V c) (muc V c) (varc V c) (gammac V c) (betac V c) (w2c V c) (b2c V c)
        (wsc V c) (bsc V c) (i 0) (i 1) : Buf (Elt Ideal) ((c : Thread nD τ).loc main_v30)) :=
  (dat1 (F := Ideal) V c).arrAt_eq_of_cover 10 (G10 V c) (flushed10 V c) (cover10 c)

end Cert.KernelIdeal.R1

end
-- ==== Proof.KValue.lean ====
/-
  What the tiled program's result buffer holds after its run, as a function of the arguments.

  The run ends with the result at region 1's output array.  Region 1 chains the self term and the four relations' terms
  from the arrays it is entered with: x, the weights and the reshaped scale, shift and bias vectors are the arguments
  themselves; the first-layer values are region 0's stored array, which is the first linear map of x plus the neighbour
  sums; the mean is region 0's column sums divided by the node count, and the variance is its column sums of squares
  divided by the node count minus the square of the mean.  Put together this is Spec.outTiled of the arguments'
  coordinates and the neighbour sums' coordinates.
-/
import proofs.«112356_j6932077216184_1_alg».proof.Proof.Gen.KernelIdeal.Frame
import proofs.«112356_j6932077216184_1_alg».proof.Proof.Spec
import proofs.«112356_j6932077216184_1_alg».proof.Proof.RefTerm
import proofs.«112356_j6932077216184_1_alg».proof.Proof.RefValueA
import proofs.«112356_j6932077216184_1_alg».proof.Proof.HostK
import proofs.«112356_j6932077216184_1_alg».proof.Proof.R0Value
import proofs.«112356_j6932077216184_1_alg».proof.Proof.R1Value
import Idealize.ShloMosaic.Lib.Pipeline.Value
import Idealize.ShloMosaic.Lib.ValueIdx
import Idealize.ShloMosaic.Lib.ValueLayout
import Idealize.ShloMosaic.Lib.IdealHost

noncomputable section

open Idealize.ShloMosaic Idealize.ShloMosaic.TcCoe Idealize.SL.Sem
open Idealize.ShloMosaic.Pipeline (Dat)
open Idealize.ShloMosaic.ValueIdx

namespace Cert.KernelIdeal.KValue

open Cert.KernelIdeal Cert.KernelIdeal.Gen
open Cert.ReferenceIdeal.RefValue (c2 c3)

/-- An [a, b] array cast to [a, 1, b] reads, at (i, u, j), the operand at (i, j). -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [4,1,128] array divided by the node count's word, at an entry. -/
theorem divNodes_apply (s : FVec Ideal S4x1x128 .f32) (r : Fin 4) (g : Fin 128) :
    Host.divf (F := Ideal) s (broadcastInDim S4x1x128 ![] bcast_S_S4x1x128 (constant (F := Ideal) S_ .f32 0x47435000#32))
        (ix3 r (0 : Fin 1) g)
      = Ideal.div (s (ix3 r (0 : Fin 1) g)) Spec.nodesWord := by
  rw [hostDivf_apply, broadcastInDim_scalar_apply]
  rfl

variable (m : (ℓ : Loc nD τ sig) → Buf (Elt Ideal) ℓ) (ρ : Dev nD → PrngReg)

/-- The arguments on one device, by coordinates, and the neighbour sums the host builds from them. -/
def X (c : Dev nD) : Spec.Mat 50000 128 := c2 (a := 50000) (b := 128) (m ((c : Thread nD τ).loc main_arg0))
def A (c : Dev nD) : Spec.Cube 4 50000 128 :=
  c3 (a := 4) (b := 50000) (c := 128) (Cert.ReferenceIdeal.RefTerm.agg (F := Ideal) (m ((c : Thread nD τ).loc main_arg0)) (m ((c : Thread nD τ).loc main_arg1)) (m ((c : Thread nD τ).loc main_arg2)))
def Ws (c : Dev nD) : Spec.Mat 128 128 := c2 (a := 128) (b := 128) (m ((c : Thread nD τ).loc main_arg3))
def bs (c : Dev nD) : Fin 128 → EReal := fun k => (m ((c : Thread nD τ).loc main_arg4)) (ix1 k)
def W1 (c : Dev nD) : Spec.Cube 4 128 128 := c3 (a := 4) (b := 128) (c := 128) (m ((c : Thread nD τ).loc main_arg5))
def B1 (c : Dev nD) : Spec.Mat 4 128 := c2 (a := 4) (b := 128) (m ((c : Thread nD τ).loc main_arg6))
def Ga (c : Dev nD) : Spec.Mat 4 128 := c2 (a := 4) (b := 128) (m ((c : Thread nD τ).loc main_arg7))
def Be (c : Dev nD) : Spec.Mat 4 128 := c2 (a := 4) (b := 128) (m ((c : Thread nD τ).loc main_arg8))
def W2 (c : Dev nD) : Spec.Cube 4 128 128 := c3 (a := 4) (b := 128) (c := 128) (m ((c : Thread nD τ).loc main_arg9))
def B2 (c : Dev nD) : Spec.Mat 4 128 := c2 (a := 4) (b := 128) (m ((c : Thread nD τ).loc main_arg10))

/-! ## The arrays region 0 is entered with -/

theorem x0 (c : Dev nD) : R0.xc (V1 m ρ) c = X m c := by
  funext n f
  exact congrFun (HostK.V1_arg0 m ρ c) (ix2 n f)

theorem agg0 (c : Dev nD) : R0.aggc (V1 m ρ) c = A m c := by
  funext r n f
  exact congrFun (HostK.V1_v17 m ρ c) (ix3 r n f)

theorem w10 (c : Dev nD) : R0.w1c (V1 m ρ) c = W1 m c := by
  funext r f g
  exact congrFun (HostK.V1_arg5 m ρ c) (ix3 r f g)

theorem b10 (c : Dev nD) : R0.b1c (V1 m ρ) c = B1 m c := by
  funext r g
  exact (congrFun (HostK.V1_v18 m ρ c) (ix3 r (0 : Fin 1) g)).trans (shapeCast_ab_a1b_apply _ _ r 0 g)

/-- Region 0's first-layer values are the first linear map of the arguments and the neighbour sums. -/
theorem lin0 (c : Dev nD) : R0.hc (V1 m ρ) c = Spec.lin1 (X m c) (A m c) (W1 m c) (B1 m c) := by
  unfold R0.hc
  rw [x0, agg0, w10, b10]

/-! ## The arrays region 1 is entered with -/

theorem x1 (c : Dev nD) : R1.xc (V3 m ρ) c = X m c := by
  funext n f
  exact congrFun (HostK.V3_arg0 m ρ c) (ix2 n f)

theorem h1 (c : Dev nD) : R1.h1c (V3 m ρ) c = Spec.lin1 (X m c) (A m c) (W1 m c) (B1 m c) := by
  funext r n g
  refine (congrFun (HostK.V3_v23_0 m ρ c) (ix3 r n g)).trans ((congrFun (R0.arr4 (V1 m ρ) c) (ix3 r n g)).trans ?_)
  show R0.hc (V1 m ρ) c r n g = _
  rw [lin0]

theorem mu1 (c : Dev nD) : R1.muc (V3 m ρ) c = Spec.mean (Spec.lin1 (X m c) (A m c) (W1 m c) (B1 m c)) := by
  funext r g
  refine (congrFun (HostK.V3_v25 m ρ c) (ix3 r (0 : Fin 1) g)).trans ((divNodes_apply _ r g).trans ?_)
  rw [show ((dat0 (V1 m ρ) c).arrAt 5 cfg0.N : FVec Ideal S4x1x128 .f32) (ix3 r (0 : Fin 1) g)
      = Spec.colSum (R0.hc (V1 m ρ) c) r g from congrFun (R0.arr5 (V1 m ρ) c) (ix3 r (0 : Fin 1) g), lin0]
  rfl

theorem var1 (c : Dev nD) : R1.varc (V3 m ρ) c = Spec.varMoments (Spec.lin1 (X m c) (A m c) (W1 m c) (B1 m c)) := by
  funext r g
  refine (congrFun (HostK.V3_v29 m ρ c) (ix3 r (0 : Fin 1) g)).trans ?_
  rw [subf_apply, mulf_apply, divNodes_apply, divNodes_apply,
    show ((dat0 (V1 m ρ) c).arrAt 5 cfg0.N : FVec Ideal S4x1x128 .f32) (ix3 r (0 : Fin 1) g)
      = Spec.colSum (R0.hc (V1 m ρ) c) r g from congrFun (R0.arr5 (V1 m ρ) c) (ix3 r (0 : Fin 1) g),
    show ((dat0 (V1 m ρ) c).arrAt 6 cfg0.N : FVec Ideal S4x1x128 .f32) (ix3 r (0 : Fin 1) g)
      = Spec.colSumSq (R0.hc (V1 m ρ) c) r g from congrFun (R0.arr6 (V1 m ρ) c) (ix3 r (0 : Fin 1) g), lin0]
  rfl

theorem gamma1 (c : Dev nD) : R1.gammac (V3 m ρ) c = Ga m c := by
  funext r g
  exact (congrFun (HostK.V3_v19 m ρ c) (ix3 r (0 : Fin 1) g)).trans
    ((congrFun (HostK.V1_v19 m ρ c) (ix3 r (0 : Fin 1) g)).trans (shapeCast_ab_a1b_apply _ _ r 0 g))

theorem beta1 (c : Dev nD) : R1.betac (V3 m ρ) c = Be m c := by
  funext r g
  exact (congrFun (HostK.V3_v20 m ρ c) (ix3 r (0 : Fin 1) g)).trans
    ((congrFun (HostK.V1_v20 m ρ c) (ix3 r (0 : Fin 1) g)).trans (shapeCast_ab_a1b_apply _ _ r 0 g))

theorem b21 (c : Dev nD) : R1.b2c (V3 m ρ) c = B2 m c := by
  funext r k
  exact (congrFun (HostK.V3_v21 m ρ c) (ix3 r (0 : Fin 1) k)).trans
    ((congrFun (HostK.V1_v21 m ρ c) (ix3 r (0 : Fin 1) k)).trans (shapeCast_ab_a1b_apply _ _ r 0 k))

theorem w21 (c : Dev nD) : R1.w2c (V3 m ρ) c = W2 m c := by
  funext r g k
  exact (congrFun (HostK.V3_arg9 m ρ c) (ix3 r g k)).trans (congrFun (HostK.V1_arg9 m ρ c) (ix3 r g k))

theorem ws1 (c : Dev nD) : R1.wsc (V3 m ρ) c = Ws m c := by
  funext f k
  exact (congrFun (HostK.V3_arg3 m ρ c) (ix2 f k)).trans (congrFun (HostK.V1_arg3 m ρ c) (ix2 f k))

theorem bs1 (c : Dev nD) : R1.bsc (V3 m ρ) c = bs m c := by
  funext k
  exact (congrFun (HostK.V3_v22 m ρ c) (ix2 (0 : Fin 1) k)).trans
    ((congrFun (HostK.V1_v22 m ρ c) (ix2 (0 : Fin 1) k)).trans (shapeCast_a_1a_apply _ _ 0 k))

/-! ## The result -/

/-- After the run the result buffer holds the tiled form of the layer at every node and feature. -/
theorem result (c : Dev nD) :
    W4 (F := Ideal) m ρ c (Proc.devRef .tc main_v30)
      = (fun i => Spec.outTiled (X m c) (A m c) (W1 m c) (B1 m c) (Ga m c) (Be m c) (W2 m c) (B2 m c) (Ws m c) (bs m c)
          (i 0) (i 1) : Buf (Elt Ideal) ((c : Thread nD τ).loc main_v30)) := by
  refine (W4_arr m ρ c 10).trans ((R1.arr10 (V3 m ρ) c).trans ?_)
  rw [x1, h1, mu1, var1, gamma1, beta1, w21, b21, ws1, bs1]
  rfl

end Cert.KernelIdeal.KValue

end
-- ==== Proof.RefRun.lean ====
/-
  The whole-array program runs to its value.

  Its @main is one straight line of host operations once its three helper functions are unfolded at their calls;
  every weakly fair execution performs them in order, so the result buffer ends at the stages' composition
  (RefTerm.out) of the argument arrays, which no operation writes.
-/
import proofs.«112356_j6932077216184_1_alg».proof.Proof.RefTerm
import Idealize.ShloMosaic.Lib.StableHlo.Run
import Idealize.ShloMosaic.Lib.Tactic

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F]

/-- The program's 87 operations in order, the helper functions' own operations at their calls. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_c_1 (constantI S_ 32 50000#32),
    StableHlo.unary main_c_1 main_v11 (broadcastInDim S800000 ![] bcast_S_S800000 : (⟨S_, .i32⟩ : BufTy).Contents (Elt F) → (⟨S800000, .i32⟩ : BufTy).Contents (Elt F)),
    StableHlo.binary main_arg2 main_v11 main_v12 (muli : (⟨S800000, .i32⟩ : BufTy).Contents (Elt F) → (⟨S800000, .i32⟩ : BufTy).Contents (Elt F) → (⟨S800000, .i32⟩ : BufTy).Contents (Elt F)),
    StableHlo.binary main_v12 main_v3 main_v13 (addi : (⟨S800000, .i32⟩ : BufTy).Contents (Elt F) → (⟨S800000, .i32⟩ : BufTy).Contents (Elt F) → (⟨S800000, .i32⟩ : BufTy).Contents (Elt F)),
    StableHlo.nullary main_cst (constant S_ .f32 0x00000000#32),
    StableHlo.unary main_cst main_v14 (broadcastInDim S200000x128 ![] bcast_S_S200000x128 : (⟨S_, .f32⟩ : BufTy).Contents (Elt F) → (⟨S200000x128, .f32⟩ : BufTy).Contents (Elt F)),
    StableHlo.unary main_v13 main_v15 (broadcastInDim S800000x1 ![0] bcast_S800000_S800000x1_0 : (⟨S800000, .i32⟩ : BufTy).Contents (Elt F) → (⟨S800000x1, .i32⟩ : BufTy).Contents (Elt F)),
    StableHlo.ternary main_v14 main_v15 main_v10 main_v16 ((fun x i u => Host.scatterAdd scatter_S200000x128_S800000x1_S800000x128_1_0_0_1 x i u) : (⟨S200000x128, .f32⟩ : BufTy).Contents (Elt F) → (⟨S800000x1, .i32⟩ : BufTy).Contents (Elt F) → (⟨S800000x128, .f32⟩ : BufTy).Contents (Elt F) → (⟨S200000x128, .f32⟩ : BufTy).Contents (Elt F)),
    StableHlo.reshape main_v16 main_v17 rfl shapeCasts_S200000x128_S4x50000x128,
    StableHlo.unary main_arg0 main_v18 (broadcastInDim S1x50000x128 ![1, 2] bcast_S50000x128_S1x50000x128_1_2 : (⟨S50000x128, .f32⟩ : BufTy).Contents (Elt F) → (⟨S1x50000x128, .f32⟩ : BufTy).Contents (Elt F)),
    StableHlo.unary main_v18 main_v19 (broadcastInDim S4x50000x128 ![0, 1, 2] bcast_S1x50000x128_S4x50000x128_0_1_2 : (⟨S1x50000x128, .f32⟩ : BufTy).Contents (Elt F) → (⟨S4x50000x128, .f32⟩ : BufTy).Contents (Elt F)),
    StableHlo.binary main_v19 main_v17 main_v20 (addf : (⟨S4x50000x128, .f32⟩ : BufTy).Contents (Elt F) → (⟨S4x50000x128, .f32⟩ : BufTy).Contents (Elt F) → (⟨S4x50000x128, .f32⟩ : BufTy).Contents (Elt F)),
    StableHlo.binary main_v20 main_arg5 main_v21 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg6 main_v22 (broadcastInDim S4x1x128 ![0, 2] bcast_S4x128_S4x1x128_0_2 : (⟨S4x128, .f32⟩ : BufTy).Contents (Elt F) → (⟨S4x1x128, .f32⟩ : BufTy).Contents (Elt F)),
    StableHlo.unary main_v22 main_v23 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v21 main_v23 main_v24 (addf : (⟨S4x50000x128, .f32⟩ : BufTy).Contents (Elt F) → (⟨S4x50000x128, .f32⟩ : BufTy).Contents (Elt F) → (⟨S4x50000x128, .f32⟩ : BufTy).Contents (Elt F)),
    StableHlo.nullary main_cst_2 (constant S_ .f32 0x00000000#32),
    StableHlo.binary main_v24 main_cst_2 main_v25 ((fun x v => Host.reduceAdd x v reducesTo_S4x50000x128_S4x128_d1 h_S_) : (⟨S4x50000x128, .f32⟩ : BufTy).Contents (Elt F) → (⟨S_, .f32⟩ : BufTy).Contents (Elt F) → (⟨S4x128, .f32⟩ : BufTy).Contents (Elt F)),
    StableHlo.unary main_v25 main_v26 (broadcastInDim S4x1x128 ![0, 2] bcast_S4x128_S4x1x128_0_2 : (⟨S4x128, .f32⟩ : BufTy).Contents (Elt F) → (⟨S4x1x128, .f32⟩ : BufTy).Contents (Elt F)),
    StableHlo.nullary main_cst_3 (constant S_ .f32 0x47435000#32),
    StableHlo.unary main_cst_3 main_v27 (broadcastInDim S4x1x128 ![] bcast_S_S4x1x128 : (⟨S_, .f32⟩ : BufTy).Contents (Elt F) → (⟨S4x1x128, .f32⟩ : BufTy).Contents (Elt F)),
    StableHlo.binary main_v26 main_v27 main_v28 (Host.divf : (⟨S4x1x128, .f32⟩ : BufTy).Contents (Elt F) → (⟨S4x1x128, .f32⟩ : BufTy).Contents (Elt F) → (⟨S4x1x128, .f32⟩ : BufTy).Contents (Elt F)),
    StableHlo.nullary main_c_4 (constantI S_ 32 0#32),
    StableHlo.TRef.nullary main_call0.cst (constant S_ .f32 0x00000000#32),
    StableHlo.TRef.binary (.of main_v24 : StableHlo.TRef sig ⟨S4x50000x128, .f32⟩) main_call0.cst main_call0.v0 (fun x v => Host.reduceAdd x v reducesTo_S4x50000x128_S4x128_d1 h_S_),
    StableHlo.TRef.unary main_call0.v0 main_call0.v1 (broadcastInDim S4x1x128 ![0, 2] bcast_S4x128_S4x1x128_0_2),
    StableHlo.TRef.nullary main_call0.cst_0 (constant S_ .f32 0x47435000#32),
    StableHlo.TRef.unary main_call0.cst_0 main_call0.v2 (broadcastInDim S4x1x128 ![] bcast_S_S4x1x128),
    StableHlo.TRef.binary main_call0.v1 main_call0.v2 main_call0.v3 Host.divf,
    StableHlo.TRef.unary main_call0.v3 main_call0.v4 (broadcastInDim S4x50000x128 ![0, 1, 2] bcast_S4x1x128_S4x50000x128_0_1_2),
    StableHlo.TRef.binary (.of main_v24 : StableHlo.TRef sig ⟨S4x50000x128, .f32⟩) main_call0.v4 main_call0.v5 subf,
    StableHlo.TRef.binary main_call0.v5 main_call0.v5 main_call0.v6 mulf,
    StableHlo.TRef.unary (.of main_c_4 : StableHlo.TRef sig ⟨S_, .i32⟩) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x50000x128_S4x128_d1 h_S_),
    StableHlo.TRef.unary main_call0.v9 main_call0.v10 (broadcastInDim S4x1x128 ![0, 2] bcast_S4x128_S4x1x128_0_2),
    StableHlo.TRef.unary main_call0.v8 main_call0.v11 (broadcastInDim S4x1x128 ![] bcast_S_S4x1x128),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x1x128 ![] bcast_S_S4x1x128),
    StableHlo.TRef.ternary main_call0.v13 main_call0.v12 main_call0.call0.v1 main_call0.call0.v2 (fun p a b => select (broadcastInDim S4x1x128 ![] bcast_S_S4x1x128 p) a b),
    StableHlo.unary main_v28 main_v30 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v24 main_v30 main_v31 (subf : (⟨S4x50000x128, .f32⟩ : BufTy).Contents (Elt F) → (⟨S4x50000x128, .f32⟩ : BufTy).Contents (Elt F) → (⟨S4x50000x128, .f32⟩ : BufTy).Contents (Elt F)),
    StableHlo.nullary main_cst_5 (constant S_ .f32 0x3727C5AC#32),
    StableHlo.unary main_cst_5 main_v32 (broadcastInDim S4x1x128 ![] bcast_S_S4x1x128 : (⟨S_, .f32⟩ : BufTy).Contents (Elt F) → (⟨S4x1x128, .f32⟩ : BufTy).Contents (Elt F)),
    StableHlo.binary main_v29 main_v32 main_v33 (addf : (⟨S4x1x128, .f32⟩ : BufTy).Contents (Elt F) → (⟨S4x1x128, .f32⟩ : BufTy).Contents (Elt F) → (⟨S4x1x128, .f32⟩ : BufTy).Contents (Elt F)),
    StableHlo.unary main_v33 main_v34 (Host.rsqrt : (⟨S4x1x128, .f32⟩ : BufTy).Contents (Elt F) → (⟨S4x1x128, .f32⟩ : BufTy).Contents (Elt F)),
    StableHlo.unary main_v34 main_v35 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v31 main_v35 main_v36 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg7 main_v37 (broadcastInDim S4x1x128 ![0, 2] bcast_S4x128_S4x1x128_0_2 : (⟨S4x128, .f32⟩ : BufTy).Contents (Elt F) → (⟨S4x1x128, .f32⟩ : BufTy).Contents (Elt F)),
    StableHlo.unary main_v37 main_v38 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v36 main_v38 main_v39 (mulf : (⟨S4x50000x128, .f32⟩ : BufTy).Contents (Elt F) → (⟨S4x50000x128, .f32⟩ : BufTy).Contents (Elt F) → (⟨S4x50000x128, .f32⟩ : BufTy).Contents (Elt F)),
    StableHlo.unary main_arg8 main_v40 (broadcastInDim S4x1x128 ![0, 2] bcast_S4x128_S4x1x128_0_2 : (⟨S4x128, .f32⟩ : BufTy).Contents (Elt F) → (⟨S4x1x128, .f32⟩ : BufTy).Contents (Elt F)),
    StableHlo.unary main_v40 main_v41 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v39 main_v41 main_v42 (addf : (⟨S4x50000x128, .f32⟩ : BufTy).Contents (Elt F) → (⟨S4x50000x128, .f32⟩ : BufTy).Contents (Elt F) → (⟨S4x50000x128, .f32⟩ : BufTy).Contents (Elt F)),
    StableHlo.TRef.nullary main_call1.cst (constant S_ .f32 0x00000000#32),
    StableHlo.TRef.unary main_call1.cst main_call1.v0 (broadcastInDim S4x50000x128 ![] bcast_S_S4x50000x128),
    StableHlo.TRef.binary (.of main_v42 : StableHlo.TRef sig ⟨S4x50000x128, .f32⟩) main_call1.v0 main_call1.v1 maximumf,
    StableHlo.binary main_v43 main_arg9 main_v44 ((fun l r => Host.dotGeneral dot_S4x50000x128_S4x128x128_S4x50000x128_2_1_1_2_0_0 none l r) : (⟨S4x50000x128, .f32⟩ : BufTy).Contents (Elt F) → (⟨S4x128x128, .f32⟩ : BufTy).Contents (Elt F) → (⟨S4x50000x128, .f32⟩ : BufTy).Contents (Elt F)),
    StableHlo.unary main_arg10 main_v45 (broadcastInDim S4x1x128 ![0, 2] bcast_S4x128_S4x1x128_0_2 : (⟨S4x128, .f32⟩ : BufTy).Contents (Elt F) → (⟨S4x1x128, .f32⟩ : BufTy).Contents (Elt F)),
    StableHlo.unary main_v45 main_v46 (broadcastInDim S4x50000x128 ![0, 1, 2] bcast_S4x1x128_S4x50000x128_0_1_2 : (⟨S4x1x128, .f32⟩ : BufTy).Contents (Elt F) → (⟨S4x50000x128, .f32⟩ : BufTy).Contents (Elt F)),
    StableHlo.binary main_v44 main_v46 main_v47 (addf : (⟨S4x50000x128, .f32⟩ : BufTy).Contents (Elt F) → (⟨S4x50000x128, .f32⟩ : BufTy).Contents (Elt F) → (⟨S4x50000x128, .f32⟩ : BufTy).Contents (Elt F)),
    StableHlo.binary main_arg0 main_arg3 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v49 (broadcastInDim S1x128 ![1] bcast_S128_S1x128_1 : (⟨S128, .f32⟩ : BufTy).Contents (Elt F) → (⟨S1x128, .f32⟩ : BufTy).Contents (Elt F)),
    StableHlo.unary main_v49 main_v50 (broadcastInDim S50000x128 ![0, 1] bcast_S1x128_S50000x128_0_1 : (⟨S1x128, .f32⟩ : BufTy).Contents (Elt F) → (⟨S50000x128, .f32⟩ : BufTy).Contents (Elt F)),
    StableHlo.binary main_v48 main_v50 main_v51 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v47 main_cst_6 main_v52 ((fun x v => Host.reduceAdd x v reducesTo_S4x50000x128_S50000x128_d0 h_S_) : (⟨S4x50000x128, .f32⟩ : BufTy).Contents (Elt F) → (⟨S_, .f32⟩ : BufTy).Contents (Elt F) → (⟨S50000x128, .f32⟩ : BufTy).Contents (Elt F)),
    StableHlo.binary main_v51 main_v52 main_v53 (addf : (⟨S50000x128, .f32⟩ : BufTy).Contents (Elt F) → (⟨S50000x128, .f32⟩ : BufTy).Contents (Elt F) → (⟨S50000x128, .f32⟩ : BufTy).Contents (Elt F)) ]

-- the eighty-seven operations are sequenced one after another; the re-association is one long rewriting pass
set_option maxRecDepth 4096 in
set_option maxHeartbeats 4000000 in
/-- @main is that straight line: the helper functions unfolded at their calls, sequencing re-associated. -/
theorem main_eq (c : Dev nD) : main (F := F) c = seq ops := by
  simp only [main, main_part0, main_part1, fn_var.body, fn_where.body, fn_relu.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., binary_bufs_sub .., nullary_bufs_sub .., unary_bufs_sub .., unary_bufs_sub .., ternary_bufs_sub .., reshape_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., binary_bufs_sub ..⟩

set_option maxRecDepth 8192 in
set_option maxHeartbeats 4000000 in
/-- From any contents, the line leaves the result buffer at the stages' composition of the argument buffers' contents:
    the fold is unrolled, each operation's result read at its own buffer is its function's value and at any other
    buffer what was there, and what remains is the stages' definitions unfolded (the typed references' transports are
    the identity at these literal references). -/
theorem out_eq (W : Valuation τ sig (Elt F)) :
    after ops W (Proc.devRef .tc main_v53)
      = RefTerm.out (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7))
          (W (Proc.devRef .tc main_arg8)) (W (Proc.devRef .tc main_arg9)) (W (Proc.devRef .tc main_arg10)) := by
  after_results_simp
  rfl

/-- No operation of the line writes the reference: each operation writes its one result buffer, a different reference. -/
local macro "not_written" : tactic =>
  `(tactic| (refine StableHlo.after_of_forall_not_mem _ _ (List.forall_iff_forall_mem.mp ?_)
             simp only [ops, List.Forall, StableHlo.nullary_writes, StableHlo.unary_writes, StableHlo.binary_writes,
               StableHlo.ternary_writes, StableHlo.reshape_writes, Finset.mem_singleton]
             repeat' apply And.intro
             all_goals exact StableHlo.devRef_ne_of_ne (by decide)))

/-! The line leaves every argument as it was. -/
theorem arg0_eq (W : Valuation τ sig (Elt F)) :
    after ops W (Proc.devRef .tc main_arg0) = W (Proc.devRef .tc main_arg0) := by not_written
theorem arg1_eq (W : Valuation τ sig (Elt F)) :
    after ops W (Proc.devRef .tc main_arg1) = W (Proc.devRef .tc main_arg1) := by not_written
theorem arg2_eq (W : Valuation τ sig (Elt F)) :
    after ops W (Proc.devRef .tc main_arg2) = W (Proc.devRef .tc main_arg2) := by not_written
theorem arg3_eq (W : Valuation τ sig (Elt F)) :
    after ops W (Proc.devRef .tc main_arg3) = W (Proc.devRef .tc main_arg3) := by not_written
theorem arg4_eq (W : Valuation τ sig (Elt F)) :
    after ops W (Proc.devRef .tc main_arg4) = W (Proc.devRef .tc main_arg4) := by not_written
theorem arg5_eq (W : Valuation τ sig (Elt F)) :
    after ops W (Proc.devRef .tc main_arg5) = W (Proc.devRef .tc main_arg5) := by not_written
theorem arg6_eq (W : Valuation τ sig (Elt F)) :
    after ops W (Proc.devRef .tc main_arg6) = W (Proc.devRef .tc main_arg6) := by not_written
theorem arg7_eq (W : Valuation τ sig (Elt F)) :
    after ops W (Proc.devRef .tc main_arg7) = W (Proc.devRef .tc main_arg7) := by not_written
theorem arg8_eq (W : Valuation τ sig (Elt F)) :
    after ops W (Proc.devRef .tc main_arg8) = W (Proc.devRef .tc main_arg8) := by not_written
theorem arg9_eq (W : Valuation τ sig (Elt F)) :
    after ops W (Proc.devRef .tc main_arg9) = W (Proc.devRef .tc main_arg9) := by not_written
theorem arg10_eq (W : Valuation τ sig (Elt F)) :
    after ops W (Proc.devRef .tc main_arg10) = W (Proc.devRef .tc main_arg10) := by not_written

/-- Every weakly fair execution of @main terminates with the result at the stages' composition of the arguments and
    every argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v53)
        = RefTerm.out (F := F) (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := F)) _ _).mono (fun _ h c =>
      ⟨(h c main_v53).trans (out_eq _),
       (h c main_arg0).trans (arg0_eq _),
       (h c main_arg1).trans (arg1_eq _),
       (h c main_arg2).trans (arg2_eq _),
       (h c main_arg3).trans (arg3_eq _),
       (h c main_arg4).trans (arg4_eq _),
       (h c main_arg5).trans (arg5_eq _),
       (h c main_arg6).trans (arg6_eq _),
       (h c main_arg7).trans (arg7_eq _),
       (h c main_arg8).trans (arg8_eq _),
       (h c main_arg9).trans (arg9_eq _),
       (h c main_arg10).trans (arg10_eq _)⟩)
    (run_seq scopedRefs_eq scopedSems_eq defs main (fun _ => ops) main_eq (fun _ => ops_sub) m ρ)

end Cert.ReferenceIdeal.RefRun

end
-- ==== Proof.RefValueB.lean ====
/-
  The whole-array program's last stages, read at an index, and its result.

  Normalise, scale, shift and clamp read pointwise, each statistic and parameter through its broadcasts; the second
  batched product read at (r, n, k) is the sum over the contracted feature; the sum over the relation axis read at
  (n, k) is the initial zero plus the sum over the four relations; x's own product likewise.
-/
import proofs.«112356_j6932077216184_1_alg».proof.Proof.RefTerm
import proofs.«112356_j6932077216184_1_alg».proof.Proof.Spec
import proofs.«112356_j6932077216184_1_alg».proof.Proof.RefValueA
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.StackMember

noncomputable section

namespace Cert.ReferenceIdeal.RefValue

open Idealize.ShloMosaic Idealize.ShloMosaic.ValueIdx Cert.ReferenceIdeal
open scoped BigOperators

/-! ## Broadcasts at explicit coordinates -/

/-- A [4,128] array placed on axes 0 and 2 of [4,1,128] reads its operand at the two free coordinates. -/
theorem bc_mat_unit {α : Type} (hb : S4x128.BroadcastsInDim S4x1x128 (![0, 2] : Fin 2 → Fin S4x1x128.rank))
    (u : S4x128.Idx → α) (r : Fin 4) (z : Fin 1) (g : Fin 128) :
    broadcastInDim S4x1x128 ![0, 2] hb u (ix3 r z g) = u (ix2 r g) := by
  refine broadcastInDim_apply _ _ _ _ (ix2 r g) fun a => ?_
  match a with
  | ⟨0, _⟩ => rfl
  | ⟨1, _⟩ => rfl

/-- A [4,1,128] array repeated along the node axis reads its operand at node coordinate 0. -/
theorem bc_unit_wide {α : Type} (hb : S4x1x128.BroadcastsInDim S4x50000x128 (![0, 1, 2] : Fin 3 → Fin S4x50000x128.rank))
    (u : S4x1x128.Idx → α) (r : Fin 4) (n : Fin 50000) (g : Fin 128) :
    broadcastInDim S4x50000x128 ![0, 1, 2] hb u (ix3 r n g) = u (ix3 r (0 : Fin 1) g) := by
  refine broadcastInDim_apply _ _ _ _ (ix3 r (0 : Fin 1) g) fun a => ?_
  match a with
  | ⟨0, _⟩ => rfl
  | ⟨1, _⟩ => rfl
  | ⟨2, _⟩ => rfl

/-- A scalar spread over [4,1,128] reads the scalar. -/
theorem bc_scalar_unit {α : Type} (hb : S_.BroadcastsInDim S4x1x128 (![] : Fin 0 → Fin S4x1x128.rank))
    (u : S_.Idx → α) (j : S4x1x128.Idx) :
    broadcastInDim S4x1x128 ![] hb u j = u ix0 :=
  broadcastInDim_apply _ _ _ _ ix0 fun a => a.elim0

/-- A scalar spread over [4,50000,128] reads the scalar. -/
theorem bc_scalar_wide {α : Type} (hb : S_.BroadcastsInDim S4x50000x128 (![] : Fin 0 → Fin S4x50000x128.rank))
    (u : S_.Idx → α) (j : S4x50000x128.Idx) :
    broadcastInDim S4x50000x128 ![] hb u j = u ix0 :=
  broadcastInDim_apply _ _ _ _ ix0 fun a => a.elim0

/-- The activation at an index, from given statistics. -/
theorem act_apply (h : FVec Ideal S4x50000x128 .f32) (m v : FVec Ideal S4x1x128 .f32) (gamma beta : FVec Ideal S4x128 .f32)
    (r : Fin 4) (n : Fin 50000) (g : Fin 128) :
    RefTerm.act (F := Ideal) h m v gamma beta (ix3 r n g)
      = max (((h (ix3 r n g) - m (ix3 r (0 : Fin 1) g)) * Ideal.rsqrt (v (ix3 r (0 : Fin 1) g) + Spec.epsWord))
          * gamma (ix2 r g) + beta (ix2 r g)) 0 := by
  unfold RefTerm.act
  rw [maximumf_apply, addf_apply, mulf_apply, mulf_apply, subf_apply, bc_scalar_wide, constant_apply,
    Ideal.ofBits_zero_f32, bc_unit_wide, bc_unit_wide, bc_unit_wide, bc_unit_wide, bc_mat_unit, bc_mat_unit]
  show max (((h (ix3 r n g) - m (ix3 r (0 : Fin 1) g))
      * FloatOps.hostUnary .rsqrt (addf v (broadcastInDim S4x1x128 ![] _ (constant (F := Ideal) S_ .f32 0x3727C5AC#32)) (ix3 r (0 : Fin 1) g)))
      * gamma (ix2 r g) + beta (ix2 r g)) 0 = _
  rw [Ideal.hostUnary_rsqrt_def, addf_apply, bc_scalar_unit, constant_apply]

/-! ## The two products, the biases and the sum over the relations -/

/-- x's own product at (n, k): the sum over the contracted feature. -/
theorem dot_self_apply (x : FVec Ideal S50000x128 .f32) (Ws : FVec Ideal S128x128 .f32) (n : Fin 50000) (k : Fin 128) :
    Host.dotGeneral dot_S50000x128_S128x128_S50000x128_1_0_0_1_n_n none x Ws (ix2 n k)
      = ∑ f : Fin 128, x (ix2 n f) * Ws (ix2 f k) :=
  StackMember.dotGeneral_plain_apply none x Ws n k

/-- The batched product at (r, n, k): relation r's sum over the contracted feature. -/
theorem dot_rel_apply (y : FVec Ideal S4x50000x128 .f32) (W : FVec Ideal S4x128x128 .f32) (r : Fin 4) (n : Fin 50000)
    (k : Fin 128) :
    Host.dotGeneral dot_S4x50000x128_S4x128x128_S4x50000x128_2_1_1_2_0_0 none y W (ix3 r n k)
      = ∑ g : Fin 128, y (ix3 r n g) * W (ix3 r g k) :=
  StackMember.dotGeneral_stack_apply Facts₀.dot_S4x50000x128_S4x128x128_S4x50000x128_2_1_1_2_0_0_wf none y W r n k

/-- A [128] vector placed on axis 1 of [1,128] reads its operand at the free coordinate. -/
theorem bc_vec_row {α : Type} (hb : S128.BroadcastsInDim S1x128 (![1] : Fin 1 → Fin S1x128.rank))
    (u : S128.Idx → α) (z : Fin 1) (k : Fin 128) :
    broadcastInDim S1x128 ![1] hb u (ix2 z k) = u (ix1 k) := by
  refine broadcastInDim_apply _ _ _ _ (ix1 k) fun a => ?_
  match a with
  | ⟨0, _⟩ => rfl

/-- A [1,128] row repeated along the node axis reads its operand at row 0. -/
theorem bc_row_wide {α : Type} (hb : S1x128.BroadcastsInDim S50000x128 (![0, 1] : Fin 2 → Fin S50000x128.rank))
    (u : S1x128.Idx → α) (n : Fin 50000) (k : Fin 128) :
    broadcastInDim S50000x128 ![0, 1] hb u (ix2 n k) = u (ix2 (0 : Fin 1) k) := by
  refine broadcastInDim_apply _ _ _ _ (ix2 (0 : Fin 1) k) fun a => ?_
  match a with
  | ⟨0, _⟩ => rfl
  | ⟨1, _⟩ => rfl

/-- The sum over the relation axis at (n, k): the initial value plus the four relations' entries. -/
theorem sum_rel_apply (z : FVec Ideal S4x50000x128 .f32) (init : S_.Idx → Ideal .f32)
    (hr : S4x50000x128.ReducesTo [0] S50000x128) (hu : 0 < S_.numel) (n : Fin 50000) (k : Fin 128) :
    Host.reduceAdd z init hr hu (ix2 n k) = init ix0 + ∑ r : Fin 4, z (ix3 r n k) := by
  have hR : S4x50000x128.Reduces [0] S50000x128 := by decide
  rw [hostReduceAdd_apply, Ideal.hostReduceAdd_single hr hR]
  refine congrArg₂ (· + ·) (congrArg init (eq_ix0 _)) ?_
  refine Finset.sum_congr rfl fun r _ => congrArg z ?_
  funext c
  match c with
  | ⟨0, _⟩ => rfl
  | ⟨1, _⟩ => rfl
  | ⟨2, _⟩ => rfl

/-- The final stage at an index: x's own linear map plus the sum over the relations of the second linear map. -/
theorem fin_apply (x : FVec Ideal S50000x128 .f32) (y : FVec Ideal S4x50000x128 .f32) (W2 : FVec Ideal S4x128x128 .f32)
    (b2 : FVec Ideal S4x128 .f32) (Ws : FVec Ideal S128x128 .f32) (bs : FVec Ideal S128 .f32) (n : Fin 50000) (k : Fin 128) :
    RefTerm.fin (F := Ideal) x y W2 b2 Ws bs (ix2 n k)
      = ((∑ f : Fin 128, x (ix2 n f) * Ws (ix2 f k)) + bs (ix1 k))
        + ∑ r : Fin 4, ((∑ g : Fin 128, y (ix3 r n g) * W2 (ix3 r g k)) + b2 (ix2 r k)) := by
  unfold RefTerm.fin
  rw [addf_apply, addf_apply, dot_self_apply, bc_row_wide, bc_vec_row, sum_rel_apply, constant_apply,
    Ideal.ofBits_zero_f32, zero_add]
  refine congrArg _ (Finset.sum_congr rfl fun r _ => ?_)
  rw [addf_apply, dot_rel_apply, bc_unit_wide, bc_mat_unit]

/-! ## The result -/

/-- The first linear map's array, by coordinates, is the specification's first linear map of the arguments' coordinates. -/
theorem c3_hlin (x : FVec Ideal S50000x128 .f32) (a : FVec Ideal S4x50000x128 .f32) (W1 : FVec Ideal S4x128x128 .f32)
    (b1 : FVec Ideal S4x128 .f32) :
    c3 (RefTerm.hlin (F := Ideal) x a W1 b1) = Spec.lin1 (c2 x) (c3 a) (c3 W1) (c2 b1) := by
  funext r n g
  exact hlin_apply x a W1 b1 r n g

/-- The program's result at an index is the whole-array form of the layer, over the arguments' coordinates and the
    neighbour sums' coordinates. -/
theorem out_apply (x : FVec Ideal S50000x128 .f32) (ei : IVec S2x800000 32) (et : IVec S800000 32) (Ws : FVec Ideal S128x128 .f32)
    (bs : FVec Ideal S128 .f32) (W1 : FVec Ideal S4x128x128 .f32) (b1 gamma beta : FVec Ideal S4x128 .f32)
    (W2 : FVec Ideal S4x128x128 .f32) (b2 : FVec Ideal S4x128 .f32) (n : Fin 50000) (k : Fin 128) :
    RefTerm.out (F := Ideal) x ei et Ws bs W1 b1 gamma beta W2 b2 (ix2 n k)
      = Spec.outWhole (c2 x) (c3 (RefTerm.agg (F := Ideal) x ei et)) (c3 W1) (c2 b1) (c2 gamma) (c2 beta) (c3 W2) (c2 b2)
          (c2 Ws) (fun k => bs (ix1 k)) n k := by
  unfold RefTerm.out
  rw [fin_apply]
  unfold Spec.outWhole Spec.outSum Spec.branch Spec.selfLin
  refine congrArg₂ (· + ·) rfl (Finset.sum_congr rfl fun r _ => ?_)
  refine congrArg₂ (· + ·) (Finset.sum_congr rfl fun g _ => ?_) rfl
  rw [act_apply, mu_apply, var_apply, hlin_apply, c3_hlin]
  rfl

end Cert.ReferenceIdeal.RefValue

end
-- ==== Proof.lean ====
/-
  The certificate of the relational graph layer: a tiled program of two kernel regions against the whole-array program.

  Both programs build the same neighbour sums on the host.  The tiled program's first region forms the first linear map
  tile by tile and accumulates its column sums and column sums of squares; the host turns these into the mean and into
  "mean of squares minus square of mean"; the second region normalises, scales, shifts, clamps, applies the second
  linear map and chains the four relations onto the self term.  The whole-array program takes the variance as the mean
  of squared deviations and adds the relations in one sum.  Over the extended reals the two variances agree because
  every first-layer value is a real number when the inputs are finite (the precondition), and the chain of four
  additions is the sum; everything else is the same expression on both sides.

  The three frames: the word-level and the idealized tiled program have their generated frames; the whole-array program's
  is its run with the result dropped.  The idealization rewrote nothing, so its conjunct is trivial.
-/
import proofs.«112356_j6932077216184_1_alg».proof.Defs
import proofs.«112356_j6932077216184_1_alg».proof.Proof.Gen.Kernel
import proofs.«112356_j6932077216184_1_alg».proof.Proof.Gen.Kernel.Frame
import proofs.«112356_j6932077216184_1_alg».proof.Proof.Gen.KernelIdeal
import proofs.«112356_j6932077216184_1_alg».proof.Proof.Gen.KernelIdeal.Frame
import proofs.«112356_j6932077216184_1_alg».proof.Proof.Gen.ReferenceIdeal
import proofs.«112356_j6932077216184_1_alg».proof.Proof.Gen.Pre_finite_inputs
import proofs.«112356_j6932077216184_1_alg».proof.Proof.Spec
import proofs.«112356_j6932077216184_1_alg».proof.Proof.Algebra
import proofs.«112356_j6932077216184_1_alg».proof.Proof.Finite
import proofs.«112356_j6932077216184_1_alg».proof.Proof.KRun
import proofs.«112356_j6932077216184_1_alg».proof.Proof.KValue
import proofs.«112356_j6932077216184_1_alg».proof.Proof.RefRun
import proofs.«112356_j6932077216184_1_alg».proof.Proof.RefValueB
import Idealize.ShloMosaic.Adequacy
import Idealize.ShloMosaic.Init

noncomputable section

namespace Cert.Proof

open Idealize.ShloMosaic Idealize.SL.Sem Idealize.ShloMosaic.ValueIdx

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- From memories agreeing on the arguments both programs end with the tiled form of the layer in their result: the
    tiled program by its run and its value; the whole-array program by its run, its value (the whole-array form of the
    layer over the same coordinates) and the agreement of the two forms on real first-layer values. -/
theorem algebraic : Cert.algebraic_KernelIdeal_ReferenceIdeal := by
  intro m ρ m' ρ' hpre hagree
  refine ⟨fun c i => Spec.outTiled (Cert.KernelIdeal.KValue.X m c) (Cert.KernelIdeal.KValue.A m c)
      (Cert.KernelIdeal.KValue.W1 m c) (Cert.KernelIdeal.KValue.B1 m c) (Cert.KernelIdeal.KValue.Ga m c)
      (Cert.KernelIdeal.KValue.Be m c) (Cert.KernelIdeal.KValue.W2 m c) (Cert.KernelIdeal.KValue.B2 m c)
      (Cert.KernelIdeal.KValue.Ws m c) (Cert.KernelIdeal.KValue.bs m c) (i 0) (i 1), ?_, ?_⟩
  · exact (θ_run Cert.KernelIdeal.defs _ _).mono
      (fun r h c => ⟨(h c).1.trans (Cert.KernelIdeal.KValue.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]
    obtain ⟨hx, hW, hb⟩ := Cert.Finite.args_real m hpre c
    funext i
    obtain ⟨n, k, rfl⟩ : ∃ (n : Fin 50000) (k : Fin 128), i = ix2 n k := ⟨i 0, i 1, eq_ix2 i⟩
    rw [Cert.ReferenceIdeal.RefValue.out_apply]
    exact (congrFun (congrFun (Cert.Algebra.outTiled_eq_outWhole (Cert.KernelIdeal.KValue.X m c)
      (Cert.KernelIdeal.KValue.A m c) (Cert.KernelIdeal.KValue.W1 m c) (Cert.KernelIdeal.KValue.B1 m c)
      (Cert.KernelIdeal.KValue.Ga m c) (Cert.KernelIdeal.KValue.Be m c) (Cert.KernelIdeal.KValue.W2 m c)
      (Cert.KernelIdeal.KValue.B2 m c) (Cert.KernelIdeal.KValue.Ws m c) (Cert.KernelIdeal.KValue.bs m c)
      (fun n f => hx (ix2 n f)) (fun r n f => Cert.Finite.agg_real _ _ _ hx (ix3 r n f)) (fun r f g => hW (ix3 r f g))
      (fun r g => hb (ix2 r g))) n) k).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
